-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x5000 : Shape := ⟨2, ![10000, 5000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x5000 : S_.BroadcastsInDim S10000x5000 (![] : Fin 0 → Fin S10000x5000.rank)
  reducesTo_S10000x5000_S_d0_1 : S10000x5000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S10000x5000_S10000_d1 : S10000x5000.ReducesTo [1] S10000
  bcast_S_S10000 : S_.BroadcastsInDim S10000 (![] : Fin 0 → Fin S10000.rank)
  reducesTo_S10000_S_d0 : S10000.ReducesTo [0] S_

variable [Facts]

def fn_part2 {F : FTy → Type} [FloatOps F] (main_v28 : IVec S_ 1) (main_v31 : FVec F S10000 .f32) (main_v32 : FVec F S10000 .f32) : IVec S_ 1 :=
  let main_v33 : IVec S10000 1 := cmpf .oge main_v31 main_v32
  let main_c_13 : IVec S_ 1 := constantI S_ 1 1#1
  let main_v34 : IVec S_ 1 := (fun x v => Host.reduce IntOp.andi x v reducesTo_S10000_S_d0 h_S_) main_v33 main_c_13
  let main_v35 : IVec S_ 1 := andi main_v28 main_v34
  main_v35

def fn_part1 {F : FTy → Type} [FloatOps F] (main_arg1 : FVec F S10000x5000 .f32) (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S10000 .f32 := (fun x v => Host.reduceAdd x v reducesTo_S10000x5000_S10000_d1 h_S_) main_arg1 main_cst_10
  let main_cst_11 : FVec F S_ .f32 := constant S_ .f32 0x2B8CBCCC#32
  let main_v30 : FVec F S10000 .f32 := broadcastInDim S10000 ![] bcast_S_S10000 main_cst_11
  let main_v31 : FVec F S10000 .f32 := addf main_v29 main_v30
  let main_cst_12 : FVec F S_ .f32 := constant S_ .f32 0x00000000#32
  let main_v32 : FVec F S10000 .f32 := broadcastInDim S10000 ![] bcast_S_S10000 main_cst_12
  fn_part2 (F := F) main_v28 main_v31 main_v32

def fn {F : FTy → Type} [FloatOps F] (main_arg0 : FVec F S10000x128 .f32) (main_arg1 : FVec F S10000x5000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x5000 .f32 := Host.absf main_arg1
  let main_cst_0 : FVec F S_ .f32 := constant S_ .f32 0x7F800000#32
  let main_v5 : FVec F S10000x5000 .f32 := broadcastInDim S10000x5000 ![] bcast_S_S10000x5000 main_cst_0
  let main_v6 : IVec S10000x5000 1 := cmpf .olt main_v4 main_v5
  let main_c_1 : IVec S_ 1 := constantI S_ 1 1#1
  let main_v7 : IVec S_ 1 := (fun x v => Host.reduce IntOp.andi x v reducesTo_S10000x5000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_v13 main_v16
-- ==== Kernel.lean ====
abbrev S10000x128 : Shape := ⟨2, ![10000, 128]⟩
abbrev S10000x5000 : Shape := ⟨2, ![10000, 5000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S128x5000 : Shape := ⟨2, ![128, 5000]⟩
abbrev S1x5000 : Shape := ⟨2, ![1, 5000]⟩
abbrev S1000x128 : Shape := ⟨2, ![1000, 128]⟩
abbrev S1000x5000 : Shape := ⟨2, ![1000, 5000]⟩
abbrev S1000 : Shape := ⟨1, ![1000]⟩
abbrev S1000x1 : Shape := ⟨2, ![1000, 1]⟩
abbrev S1x1000 : Shape := ⟨2, ![1, 1000]⟩
abbrev S5000 : Shape := ⟨1, ![5000]⟩
abbrev S_ : Shape := ⟨0, ![]⟩
abbrev S5000x1 : Shape := ⟨2, ![5000, 1]⟩
abbrev S5000x128 : Shape := ⟨2, ![5000, 128]⟩
abbrev S64x5000 : Shape := ⟨2, ![64, 5000]⟩
abbrev S1000x64 : Shape := ⟨2, ![1000, 64]⟩
abbrev S5000x64 : Shape := ⟨2, ![5000, 64]⟩
abbrev S10000x64 : Shape := ⟨2, ![10000, 64]⟩

abbrev nBuf : Space → Nat
  | .hbm => 29
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x5000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S128x5000, .f32⟩
  | .hbm, ⟨9, _⟩ => ⟨S1x5000, .f32⟩
  | .hbm, ⟨10, _⟩ => ⟨S10000x128, .f32⟩
  | .hbm, ⟨11, _⟩ => ⟨S5000, .f32⟩
  | .hbm, ⟨12, _⟩ => ⟨S_, .f32⟩
  | .hbm, ⟨13, _⟩ => ⟨S5000, .f32⟩
  | .hbm, ⟨14, _⟩ => ⟨S5000, .f32⟩
  | .hbm, ⟨15, _⟩ => ⟨S_, .f32⟩
  | .hbm, ⟨16, _⟩ => ⟨S5000, .f32⟩
  | .hbm, ⟨17, _⟩ => ⟨S5000, .f32⟩
  | .hbm, ⟨18, _⟩ => ⟨S5000x1, .f32⟩
  | .hbm, ⟨19, _⟩ => ⟨S5000x128, .f32⟩
  | .hbm, ⟨20, _⟩ => ⟨S5000x128, .f32⟩
  | .hbm, ⟨21, _⟩ => ⟨S5000x128, .f32⟩
  | .hbm, ⟨22, _⟩ => ⟨S5000x128, .bf16⟩
  | .hbm, ⟨23, _⟩ => ⟨S64x5000, .f32⟩
  | .hbm, ⟨24, _⟩ => ⟨S5000x64, .f32⟩
  | .hbm, ⟨25, _⟩ => ⟨S5000x64, .f32⟩
  | .hbm, ⟨26, _⟩ => ⟨S5000x64, .f32⟩
  | .hbm, ⟨27, _⟩ => ⟨S5000x64, .bf16⟩
  | .hbm, ⟨28, _⟩ => ⟨S10000x64, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x5000, .f32⟩
  | .local _ .vmem, ⟨5, _⟩ => ⟨S1000x5000, .f32⟩
  | .local _ .vmem, ⟨6, _⟩ => ⟨S128x5000, .f32⟩
  | .local _ .vmem, ⟨7, _⟩ => ⟨S1x5000, .f32⟩
  | .local _ .vmem, ⟨8, _⟩ => ⟨S1000x128, .f32⟩
  | .local _ .vmem, ⟨9, _⟩ => ⟨S1000x128, .f32⟩
  | .local _ .vmem, ⟨10, _⟩ => ⟨S1000x5000, .f32⟩
  | .local _ .vmem, ⟨11, _⟩ => ⟨S1000x5000, .f32⟩
  | .local _ .vmem, ⟨12, _⟩ => ⟨S1000x128, .f32⟩
  | .local _ .vmem, ⟨13, _⟩ => ⟨S1000x128, .f32⟩
  | .local _ .vmem, ⟨14, _⟩ => ⟨S5000x128, .bf16⟩
  | .local _ .vmem, ⟨15, _⟩ => ⟨S128x64, .f32⟩
  | .local _ .vmem, ⟨16, _⟩ => ⟨S1x64, .f32⟩
  | .local _ .vmem, ⟨17, _⟩ => ⟨S64x5000, .f32⟩
  | .local _ .vmem, ⟨18, _⟩ => ⟨S1000x5000, .f32⟩
  | .local _ .vmem, ⟨19, _⟩ => ⟨S1000x5000, .f32⟩
  | .local _ .vmem, ⟨20, _⟩ => ⟨S1000x128, .f32⟩
  | .local _ .vmem, ⟨21, _⟩ => ⟨S1000x128, .f32⟩
  | .local _ .vmem, ⟨22, _⟩ => ⟨S5000x64, .bf16⟩
  | .local _ .vmem, ⟨23, _⟩ => ⟨S1000x64, .f32⟩
  | .local _ .vmem, ⟨24, _⟩ => ⟨S1000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_14 : BitVec 32 := 0#32
  let v25 : BitVec 1 := Scalar.cmpi .ne v24 c0_i32_14
  v25

def k0_cond2 (i : grid0.Coords) : BitVec 1 :=
  let arg0 : BitVec 32 := BitVec.ofNat 32 (i 0).val
  let c0_i32_15 : BitVec 32 := 0#32
  let v26 : BitVec 1 := Scalar.cmpi .sgt arg0 c0_i32_15
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x5000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x5000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def k1_cond1 (i : grid1.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_12 : BitVec 32 := 0#32
  let v23 : BitVec 1 := Scalar.cmpi .ne v22 c0_i32_12
  v23

def k1_cond2 (i : grid1.Coords) : BitVec 1 :=
  let arg0 : BitVec 32 := BitVec.ofNat 32 (i 0).val
  let c0_i32_13 : BitVec 32 := 0#32
  let v24 : BitVec 1 := Scalar.cmpi .sgt arg0 c0_i32_13
  let v25 : BitVec 32 := Scalar.extui v24
  let c0_i32_14 : BitVec 32 := 0#32
  let v26 : BitVec 1 := Scalar.cmpi .ne v25 c0_i32_14
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x5000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x5000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S5000x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S128_S1x128 : S128.ShapeCasts S1x128
  shapeCasts_S64_S1x64 : S64.ShapeCasts S1x64
  inb_S1000x5000_S1000x5000_0_0 : ∀ a, (![0, 0] : Fin 2 → Nat) a + S1000x5000.size a ≤ S1000x5000.size a
  h_S1000x5000 : 0 < S1000x5000.numel
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x5000_S1000 : S1000x5000.Reduces [1] S1000
  shapeCasts_S1000_S1000x1 : S1000.ShapeCasts S1000x1
  shapeCasts_S1000x1_S1000x1 : S1000x1.ShapeCasts S1000x1
  broadcasts_S1000x1_S1000x128 : S1000x1.Broadcasts S1000x128
  inb_S128x5000_S128x5000_0_0 : ∀ a, (![0, 0] : Fin 2 → Nat) a + S128x5000.size a ≤ S128x5000.size a
  h_S128x5000 : 0 < S128x5000.numel
  inb_S1x5000_S1x5000_0_0 : ∀ a, (![0, 0] : Fin 2 → Nat) a + S1x5000.size a ≤ S1x5000.size a
  h_S1x5000 : 0 < S1x5000.numel
  shapeCasts_S128x5000_S128x5000 : S128x5000.ShapeCasts S128x5000
  shapeCasts_S1x5000_S1x5000 : S1x5000.ShapeCasts S1x5000
  shapeCasts_S1x5000_S5000 : S1x5000.ShapeCasts S5000
  bcast_S_S5000 : S_.BroadcastsInDim S5000 (![] : Fin 0 → Fin S5000.rank)
  bcast_S5000_S5000x1_0 : S5000.BroadcastsInDim S5000x1 (![0] : Fin 1 → Fin S5000x1.rank)
  transposes_S128x5000_S5000x128_1_0 : S128x5000.Transposes [1, 0] S5000x128
  bcast_S5000x1_S5000x128_0_1 : S5000x1.BroadcastsInDim S5000x128 (![0, 1] : Fin 2 → Fin S5000x128.rank)
  inb_S1000x128_S1000x1_0_0 : ∀ a, (![0, 0] : Fin 2 → Nat) a + S1000x1.size a ≤ S1000x128.size a
  h_S1000x1 : 0 < S1000x1.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  broadcasts_S1000x1_S1000x64 : S1000x1.Broadcasts S1000x64
  inb_S64x5000_S64x5000_0_0 : ∀ a, (![0, 0] : Fin 2 → Nat) a + S64x5000.size a ≤ S64x5000.size a
  h_S64x5000 : 0 < S64x5000.numel
  shapeCasts_S64x5000_S64x5000 : S64x5000.ShapeCasts S64x5000
  transposes_S64x5000_S5000x64_1_0 : S64x5000.Transposes [1, 0] S5000x64
  bcast_S5000x1_S5000x64_0_1 : S5000x1.BroadcastsInDim S5000x64 (![0, 1] : Fin 2 → Fin S5000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1000x64_S1000x64_0_0 : ∀ a, (![0, 0] : Fin 2 → Nat) a + S1000x64.size a ≤ S1000x64.size a
  h_S1000x64 : 0 < S1000x64.numel
  dot_S1000x128_S128x128_S1000x128_1_0_0_1_n_n_wf : DotDims.WF S1000x128 S128x128 S1000x128 [1] [0] [0] [1] [] []
  dot_S1000x128_S1000x5000_S128x5000_0_0_1_1_n_n_wf : DotDims.WF S1000x128 S1000x5000 S128x5000 [0] [0] [1] [1] [] []
  dot_S1x1000_S1000x5000_S1x5000_1_0_0_1_n_n_wf : DotDims.WF S1x1000 S1000x5000 S1x5000 [1] [0] [0] [1] [] []
  dot_S1000x5000_S5000x128_S1000x128_1_0_0_1_n_n_wf : DotDims.WF S1000x5000 S5000x128 S1000x128 [1] [0] [0] [1] [] []
  dot_S1000x128_S128x64_S1000x64_1_0_0_1_n_n_wf : DotDims.WF S1000x128 S128x64 S1000x64 [1] [0] [0] [1] [] []
  dot_S1000x64_S1000x5000_S64x5000_0_0_1_1_n_n_wf : DotDims.WF S1000x64 S1000x5000 S64x5000 [0] [0] [1] [1] [] []
  dot_S1000x5000_S5000x64_S1000x64_1_0_0_1_n_n_wf : DotDims.WF S1000x5000 S5000x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x5000.size a ≤ S10000x5000.size a
  hwx0_3 : ∀ i : grid0.Coords, EltTy.bits .f32 = 32 ∨ (Rect.block (s := S10000x5000) S1000x5000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x5000.size a ≤ S128x5000.size a
  hwx0_4 : ∀ i : grid0.Coords, EltTy.bits .f32 = 32 ∨ (Rect.block (s := S128x5000) S128x5000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x5000.size a ≤ S1x5000.size a
  hwx0_5 : ∀ i : grid0.Coords, EltTy.bits .f32 = 32 ∨ (Rect.block (s := S1x5000) S1x5000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S10000x128.size a
  hwx0_6 : ∀ i : grid0.Coords, EltTy.bits .f32 = 32 ∨ (Rect.block (s := S10000x128) S1000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x5000.size a ≤ S10000x5000.size a
  hwx1_0 : ∀ i : grid1.Coords, EltTy.bits .f32 = 32 ∨ (Rect.block (s := S10000x5000) S1000x5000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S5000x128.size a
  hwx1_2 : ∀ i : grid1.Coords, EltTy.bits .bf16 = 32 ∨ (Rect.block (s := S5000x128) S5000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x5000.size a ≤ S64x5000.size a
  hwx1_5 : ∀ i : grid1.Coords, EltTy.bits .f32 = 32 ∨ (Rect.block (s := S64x5000) S64x5000.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x5000.size a ≤ S10000x5000.size a
  hwx2_0 : ∀ i : grid2.Coords, EltTy.bits .f32 = 32 ∨ (Rect.block (s := S10000x5000) S1000x5000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S10000x128.size a
  hwx2_1 : ∀ i : grid2.Coords, EltTy.bits .f32 = 32 ∨ (Rect.block (s := S10000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S5000x64.size a
  hwx2_2 : ∀ i : grid2.Coords, EltTy.bits .bf16 = 32 ∨ (Rect.block (s := S5000x64) S5000x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S10000x64.size a
  hwx2_3 : ∀ i : grid2.Coords, EltTy.bits .f32 = 32 ∨ (Rect.block (s := S10000x64) S1000x64.size (cc2_transform_3 i) (hinb2_3 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S1000x5000_S128x5000_0_0_1_1_n_n : DotDims S1000x128 S1000x5000 S128x5000 where
  lhsContracting := [0]
  rhsContracting := [0]
  lhsNonContracting := [1]
  rhsNonContracting := [1]
  lhsBatch := []
  rhsBatch := []
  wf := dot_S1000x128_S1000x5000_S128x5000_0_0_1_1_n_n_wf
def dot_S1x1000_S1000x5000_S1x5000_1_0_0_1_n_n : DotDims S1x1000 S1000x5000 S1x5000 where
  lhsContracting := [1]
  rhsContracting := [0]
  lhsNonContracting := [0]
  rhsNonContracting := [1]
  lhsBatch := []
  rhsBatch := []
  wf := dot_S1x1000_S1000x5000_S1x5000_1_0_0_1_n_n_wf
def dot_S1000x5000_S5000x128_S1000x128_1_0_0_1_n_n : DotDims S1000x5000 S5000x128 S1000x128 where
  lhsContracting := [1]
  rhsContracting := [0]
  lhsNonContracting := [0]
  rhsNonContracting := [1]
  lhsBatch := []
  rhsBatch := []
  wf := dot_S1000x5000_S5000x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S1000x5000_S64x5000_0_0_1_1_n_n : DotDims S1000x64 S1000x5000 S64x5000 where
  lhsContracting := [0]
  rhsContracting := [0]
  lhsNonContracting := [1]
  rhsNonContracting := [1]
  lhsBatch := []
  rhsBatch := []
  wf := dot_S1000x64_S1000x5000_S64x5000_0_0_1_1_n_n_wf
def dot_S1000x5000_S5000x64_S1000x64_1_0_0_1_n_n : DotDims S1000x5000 S5000x64 S1000x64 where
  lhsContracting := [1]
  rhsContracting := [0]
  lhsNonContracting := [0]
  rhsNonContracting := [1]
  lhsBatch := []
  rhsBatch := []
  wf := dot_S1000x5000_S5000x64_S1000x64_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1000x5000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S128x5000.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x5000.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond1 i == 1#1) && !(k0_cond2 i == 1#1) | 5 => fun i => !(k0_cond1 i == 1#1) && !(k0_cond2 i == 1#1) | 6 => fun _ => false | ⟨_ + 7, h⟩ => absurd h (Nat.not_lt.2 (Nat.le_add_left _ _))

abbrev win1_0 : Pipeline.Window sig grid1 :=
  Pipeline.Window.ofSpec (Memref.whole main_arg1) S1000x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_2) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S64x5000.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) && !(k1_cond2 i == 1#1) | ⟨_ + 6, h⟩ => absurd h (Nat.not_lt.2 (Nat.le_add_left _ _))

abbrev win2_0 : Pipeline.Window sig grid2 :=
  Pipeline.Window.ofSpec (Memref.whole main_arg1) S1000x5000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_2) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x5000 : Shape := ⟨2, ![10000, 5000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000 : Shape := ⟨1, ![10000]⟩
abbrev S5000 : Shape := ⟨1, ![5000]⟩
abbrev S10000x1 : Shape := ⟨2, ![10000, 1]⟩
abbrev S5000x10000 : Shape := ⟨2, ![5000, 10000]⟩
abbrev S5000x128 : Shape := ⟨2, ![5000, 128]⟩
abbrev S5000x1 : Shape := ⟨2, ![5000, 1]⟩
abbrev S10000x64 : Shape := ⟨2, ![10000, 64]⟩
abbrev S1x64 : Shape := ⟨2, ![1, 64]⟩
abbrev S5000x64 : Shape := ⟨2, ![5000, 64]⟩

abbrev nBuf : Space → Nat
  | .hbm => 75
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x5000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000, .f32⟩
  | .hbm, ⟨12, _⟩ => ⟨S_, .f32⟩
  | .hbm, ⟨13, _⟩ => ⟨S5000, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S_, .f32⟩
  | .hbm, ⟨22, _⟩ => ⟨S5000, .f32⟩
  | .hbm, ⟨23, _⟩ => ⟨S5000, .f32⟩
  | .hbm, ⟨24, _⟩ => ⟨S_, .f32⟩
  | .hbm, ⟨25, _⟩ => ⟨S5000, .f32⟩
  | .hbm, ⟨26, _⟩ => ⟨S5000, .f32⟩
  | .hbm, ⟨27, _⟩ => ⟨S10000x1, .f32⟩
  | .hbm, ⟨28, _⟩ => ⟨S10000x128, .f32⟩
  | .hbm, ⟨29, _⟩ => ⟨S10000x128, .f32⟩
  | .hbm, ⟨30, _⟩ => ⟨S5000x10000, .f32⟩
  | .hbm, ⟨31, _⟩ => ⟨S5000x128, .f32⟩
  | .hbm, ⟨32, _⟩ => ⟨S5000x1, .f32⟩
  | .hbm, ⟨33, _⟩ => ⟨S5000x128, .f32⟩
  | .hbm, ⟨34, _⟩ => ⟨S5000x128, .f32⟩
  | .hbm, ⟨35, _⟩ => ⟨S10000x128, .f32⟩
  | .hbm, ⟨36, _⟩ => ⟨S10000x1, .f32⟩
  | .hbm, ⟨37, _⟩ => ⟨S10000x128, .f32⟩
  | .hbm, ⟨38, _⟩ => ⟨S10000x128, .f32⟩
  | .hbm, ⟨39, _⟩ => ⟨S_, .f32⟩
  | .hbm, ⟨40, _⟩ => ⟨S10000x128, .f32⟩
  | .hbm, ⟨41, _⟩ => ⟨S10000x128, .f32⟩
  | .hbm, ⟨42, _⟩ => ⟨S10000x64, .f32⟩
  | .hbm, ⟨43, _⟩ => ⟨S1x64, .f32⟩
  | .hbm, ⟨44, _⟩ => ⟨S10000x64, .f32⟩
  | .hbm, ⟨45, _⟩ => ⟨S10000x64, .f32⟩
  | .hbm, ⟨46, _⟩ => ⟨S_, .f32⟩
  | .hbm, ⟨47, _⟩ => ⟨S10000, .f32⟩
  | .hbm, ⟨48, _⟩ => ⟨S_, .f32⟩
  | .hbm, ⟨49, _⟩ => ⟨S5000, .f32⟩
  | .hbm, ⟨50, _⟩ => ⟨S_, .f32⟩
  | .hbm, ⟨51, _⟩ => ⟨S10000, .f32⟩
  | .hbm, ⟨52, _⟩ => ⟨S10000, .f32⟩
  | .hbm, ⟨53, _⟩ => ⟨S10000, .f32⟩
  | .hbm, ⟨54, _⟩ => ⟨S_, .f32⟩
  | .hbm, ⟨55, _⟩ => ⟨S10000, .f32⟩
  | .hbm, ⟨56, _⟩ => ⟨S10000, .f32⟩
  | .hbm, ⟨57, _⟩ => ⟨S_, .f32⟩
  | .hbm, ⟨58, _⟩ => ⟨S5000, .f32⟩
  | .hbm, ⟨59, _⟩ => ⟨S5000, .f32⟩
  | .hbm, ⟨60, _⟩ => ⟨S_, .f32⟩
  | .hbm, ⟨61, _⟩ => ⟨S5000, .f32⟩
  | .hbm, ⟨62, _⟩ => ⟨S5000, .f32⟩
  | .hbm, ⟨63, _⟩ => ⟨S10000x1, .f32⟩
  | .hbm, ⟨64, _⟩ => ⟨S10000x64, .f32⟩
  | .hbm, ⟨65, _⟩ => ⟨S10000x64, .f32⟩
  | .hbm, ⟨66, _⟩ => ⟨S5000x10000, .f32⟩
  | .hbm, ⟨67, _⟩ => ⟨S5000x64, .f32⟩
  | .hbm, ⟨68, _⟩ => ⟨S5000x1, .f32⟩
  | .hbm, ⟨69, _⟩ => ⟨S5000x64, .f32⟩
  | .hbm, ⟨70, _⟩ => ⟨S5000x64, .f32⟩
  | .hbm, ⟨71, _⟩ => ⟨S10000x64, .f32⟩
  | .hbm, ⟨72, _⟩ => ⟨S10000x1, .f32⟩
  | .hbm, ⟨73, _⟩ => ⟨S10000x64, .f32⟩
  | .hbm, ⟨74, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x5000_S10000_d1 : S10000x5000.ReducesTo [1] S10000
  h_S_ : 0 < S_.numel
  reducesTo_S10000x5000_S5000_d0 : S10000x5000.ReducesTo [0] S5000
  bcast_S_S10000 : S_.BroadcastsInDim S10000 (![] : Fin 0 → Fin S10000.rank)
  bcast_S_S5000 : S_.BroadcastsInDim S5000 (![] : Fin 0 → Fin S5000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S10000x5000_S5000x10000_1_0 : S10000x5000.Transposes [1, 0] S5000x10000
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S10000x1_S10000x64_0_1 : S10000x1.BroadcastsInDim S10000x64 (![0, 1] : Fin 2 → Fin S10000x64.rank)
  bcast_S5000x1_S5000x64_0_1 : S5000x1.BroadcastsInDim S5000x64 (![0, 1] : Fin 2 → Fin S5000x64.rank)
  dot_S10000x128_S128x128_S10000x128_1_0_0_1_n_n_wf : DotDims.WF S10000x128 S128x128 S10000x128 [1] [0] [0] [1] [] []
  dot_S5000x10000_S10000x128_S5000x128_1_0_0_1_n_n_wf : DotDims.WF S5000x10000 S10000x128 S5000x128 [1] [0] [0] [1] [] []
  dot_S10000x5000_S5000x128_S10000x128_1_0_0_1_n_n_wf : DotDims.WF S10000x5000 S5000x128 S10000x128 [1] [0] [0] [1] [] []
  dot_S10000x128_S128x64_S10000x64_1_0_0_1_n_n_wf : DotDims.WF S10000x128 S128x64 S10000x64 [1] [0] [0] [1] [] []
  dot_S5000x10000_S10000x64_S5000x64_1_0_0_1_n_n_wf : DotDims.WF S5000x10000 S10000x64 S5000x64 [1] [0] [0] [1] [] []
  dot_S10000x5000_S5000x64_S10000x64_1_0_0_1_n_n_wf : DotDims.WF S10000x5000 S5000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S5000x10000_S10000x128_S5000x128_1_0_0_1_n_n : DotDims S5000x10000 S10000x128 S5000x128 where
  lhsContracting := [1]
  rhsContracting := [0]
  lhsNonContracting := [0]
  rhsNonContracting := [1]
  lhsBatch := []
  rhsBatch := []
  wf := dot_S5000x10000_S10000x128_S5000x128_1_0_0_1_n_n_wf
def dot_S10000x5000_S5000x128_S10000x128_1_0_0_1_n_n : DotDims S10000x5000 S5000x128 S10000x128 where
  lhsContracting := [1]
  rhsContracting := [0]
  lhsNonContracting := [0]
  rhsNonContracting := [1]
  lhsBatch := []
  rhsBatch := []
  wf := dot_S10000x5000_S5000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S5000x10000_S10000x64_S5000x64_1_0_0_1_n_n : DotDims S5000x10000 S10000x64 S5000x64 where
  lhsContracting := [1]
  rhsContracting := [0]
  lhsNonContracting := [0]
  rhsNonContracting := [1]
  lhsBatch := []
  rhsBatch := []
  wf := dot_S5000x10000_S10000x64_S5000x64_1_0_0_1_n_n_wf
def dot_S10000x5000_S5000x64_S10000x64_1_0_0_1_n_n : DotDims S10000x5000 S5000x64 S10000x64 where
  lhsContracting := [1]
  rhsContracting := [0]
  lhsNonContracting := [0]
  rhsNonContracting := [1]
  lhsBatch := []
  rhsBatch := []
  wf := dot_S10000x5000_S5000x64_S10000x64_1_0_0_1_n_n_wf

class Facts : Prop extends Facts₀ where

variable [Facts]
-- ==== Proof.KBR0.lean ====
/- The first pass over the incidence matrix (the first pallas_call), at a parameter `V`: the contents of the
   TensorCore's buffers when the region is entered. At grid point t the body reads rows 1000·t … 1000·t+999 of the
   features and of the incidence matrix, the first weight matrix and bias, and produces three things: the row block's
   vertex scaling (the inverse square root of the row sums plus ε), broadcast along 128 lanes and written back at every
   point; the row block's contribution to the transposed layer-1 edge sums (128 × 5000); and its contribution to the edge
   degrees (1 × 5000, the column sums of the block). The two edge windows' blocks never move: at the first point the
   contribution is stored, at every later point it is added to what the point before left, and the block is written back
   once, after the last point. Stated at any float instance: what each window's staging buffer holds after the body, the
   proof data, and the body's triple. -/
import proofs.«151137_g18348100288549_rerun558fix_267_52_alg».proof.Proof.Gen.Kernel.Launch
import proofs.«151137_g18348100288549_rerun558fix_267_52_alg».proof.Proof.Gen.Kernel.Skeleton
import proofs.«151137_g18348100288549_rerun558fix_267_52_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole feature block; also the whole scaling block (the same shape). -/
abbrev r0_x : Rect S1000x128 := Rect.unit (s := S1000x128) ![0, 0] S1000x128.size inb_S1000x128_S1000x128_0_0
/-- The whole first weight matrix. -/
abbrev r0_w : Rect S128x128 := Rect.unit (s := S128x128) ![0, 0] S128x128.size inb_S128x128_S128x128_0_0
/-- The whole first bias row. -/
abbrev r0_b : Rect S1x128 := Rect.unit (s := S1x128) ![0, 0] S1x128.size inb_S1x128_S1x128_0_0
/-- The whole incidence block. -/
abbrev r0_h : Rect S1000x5000 := Rect.unit (s := S1000x5000) ![0, 0] S1000x5000.size inb_S1000x5000_S1000x5000_0_0
/-- The whole block of transposed edge sums. -/
abbrev r0_g : Rect S128x5000 := Rect.unit (s := S128x5000) ![0, 0] S128x5000.size inb_S128x5000_S128x5000_0_0
/-- The whole row of edge degrees. -/
abbrev r0_e : Rect S1x5000 := Rect.unit (s := S1x5000) ![0, 0] S1x5000.size inb_S1x5000_S1x5000_0_0

/-! ## The two cases of the body's conditionals, decided over the grid -/

/-- The first conditional (store the contributions) is taken at the first point only. -/
theorem hcond0_first : ∀ t : Fin cfg0.N, k0_cond1 (grid0.coords t) = 1#1 ↔ t.val = 0 :=
  (by decide +kernel : ∀ t : Fin grid0.N, k0_cond1 (grid0.coords t) = 1#1 ↔ t.val = 0)
/-- The second conditional (add the contributions) is taken at every later point. -/
theorem hcond0_later : ∀ t : Fin cfg0.N, k0_cond2 (grid0.coords t) = 1#1 ↔ t.val ≠ 0 :=
  (by decide +kernel : ∀ t : Fin grid0.N, k0_cond2 (grid0.coords t) = 1#1 ↔ t.val ≠ 0)
/-- The two edge windows are stored into at every point, -/
theorem hidle0_4 : ∀ t : Fin grid0.N, idle0 (4 : Fin 7) (grid0.coords t) = false :=
  (by decide +kernel : ∀ t : Fin grid0.N, idle0 (4 : Fin 7) (grid0.coords t) = false)
theorem hidle0_5 : ∀ t : Fin grid0.N, idle0 (5 : Fin 7) (grid0.coords t) = false :=
  (by decide +kernel : ∀ t : Fin grid0.N, idle0 (5 : Fin 7) (grid0.coords t) = false)
/-- …at every coordinate of the grid's box. -/
theorem hlive0_4 : ∀ i : cfg0.grid.Coords, cfg0.idle (4 : Fin 7) i = false :=
  (by decide +kernel : ∀ i : grid0.Coords, idle0 (4 : Fin 7) i = false)
theorem hlive0_5 : ∀ i : cfg0.grid.Coords, cfg0.idle (5 : Fin 7) i = false :=
  (by decide +kernel : ∀ i : grid0.Coords, idle0 (5 : Fin 7) i = false)

/-! ## What the body leaves in each output window's buffer -/

/-- The scaling block: one store, at every point. -/
def out0_6 (x3 : Vec F S1000x5000 .f32) : Vec F S1000x128 .f32 :=
  View.canon [⟨r0_x, k0_pay3 (View.ld x3 r0_h)⟩]

/-- The transposed edge sums at the first point: the row block's contribution, stored. -/
def out0A_4 (x0 : Vec F S1000x128 .f32) (x1 : Vec F S128x128 .f32) (x2 : Vec F S1x128 .f32) (x3 : Vec F S1000x5000 .f32) : Vec F S128x5000 .f32 :=
  View.canon [⟨r0_g, k0_pay4 (View.ld x3 r0_h) (View.ld x0 r0_x) (View.ld x1 r0_w) (View.ld x2 r0_b)⟩]

/-- The edge degrees at the first point: the block's column sums, stored. -/
def out0A_5 (x3 : Vec F S1000x5000 .f32) : Vec F S1x5000 .f32 :=
  View.canon [⟨r0_e, k0_pay5 (View.ld x3 r0_h)⟩]

/-- The transposed edge sums at a later point: the contribution added to what the buffer held (`xo`). -/
def out0B_4 (x0 : Vec F S1000x128 .f32) (x1 : Vec F S128x128 .f32) (x2 : Vec F S1x128 .f32) (x3 : Vec F S1000x5000 .f32)
    (xo : Vec F S128x5000 .f32) : Vec F S128x5000 .f32 :=
  View.canon [⟨r0_g, k0_pay6 (View.ld x3 r0_h) (View.ld x0 r0_x) (View.ld x1 r0_w) (View.ld x2 r0_b) (View.ld xo r0_g)⟩]

/-- The edge degrees at a later point: the column sums added to what the buffer held. -/
def out0B_5 (x3 : Vec F S1000x5000 .f32) (xo : Vec F S1x5000 .f32) : Vec F S1x5000 .f32 :=
  View.canon [⟨r0_e, k0_pay7 (View.ld x3 r0_h) (View.ld xo r0_e)⟩]

/-- Each output's one store covers its block. -/
theorem cover0_4 (p0 : Vec F S128x5000 .f32) (y : S128x5000.Idx) :
    ∃ pc ∈ ([⟨r0_g, p0⟩] : List (View.Piece (Elt F) S128x5000 .f32)), y ∈ pc.1.set :=
  View.cover_of_tiled [⟨r0_g, p0⟩] S128x5000.size (by rfl) y
theorem cover0_5 (p0 : Vec F S1x5000 .f32) (y : S1x5000.Idx) :
    ∃ pc ∈ ([⟨r0_e, p0⟩] : List (View.Piece (Elt F) S1x5000 .f32)), y ∈ pc.1.set :=
  View.cover_of_tiled [⟨r0_e, p0⟩] S1x5000.size (by rfl) y
theorem cover0_6 (p0 : Vec F S1000x128 .f32) (y : S1000x128.Idx) :
    ∃ pc ∈ ([⟨r0_x, p0⟩] : List (View.Piece (Elt F) S1000x128 .f32)), y ∈ pc.1.set :=
  View.cover_of_tiled [⟨r0_x, p0⟩] S1000x128.size (by rfl) y

/-- THE ACCUMULATIONS: what the two edge windows' buffers hold after the body at position `n`. -/
def acc0_4 (c : Dev nD) : (n : ℕ) → n < cfg0.N → Vec F S128x5000 .f32
  | 0, hn => out0A_4 (iblk0 V c 0 ⟨0, hn⟩) (iblk0 V c 1 ⟨0, hn⟩) (iblk0 V c 2 ⟨0, hn⟩) (iblk0 V c 3 ⟨0, hn⟩)
  | n + 1, hn => out0B_4 (iblk0 V c 0 ⟨n + 1, hn⟩) (iblk0 V c 1 ⟨n + 1, hn⟩) (iblk0 V c 2 ⟨n + 1, hn⟩) (iblk0 V c 3 ⟨n + 1, hn⟩)
      (acc0_4 c n (Nat.lt_of_succ_lt hn))
def acc0_5 (c : Dev nD) : (n : ℕ) → n < cfg0.N → Vec F S1x5000 .f32
  | 0, hn => out0A_5 (iblk0 V c 3 ⟨0, hn⟩)
  | n + 1, hn => out0B_5 (iblk0 V c 3 ⟨n + 1, hn⟩) (acc0_5 c n (Nat.lt_of_succ_lt hn))

theorem acc0_4_first (c : Dev nD) (t : Fin cfg0.N) (h0 : t.val = 0) :
    acc0_4 V c t.val t.isLt = out0A_4 (iblk0 V c 0 t) (iblk0 V c 1 t) (iblk0 V c 2 t) (iblk0 V c 3 t) := by
  obtain ⟨n, hn⟩ := t
  cases n with
  | zero => rfl
  | succ n => exact absurd h0 (Nat.succ_ne_zero n)
theorem acc0_4_later (c : Dev nD) (t : Fin cfg0.N) (h0 : t.val ≠ 0) :
    acc0_4 V c t.val t.isLt = out0B_4 (iblk0 V c 0 t) (iblk0 V c 1 t) (iblk0 V c 2 t) (iblk0 V c 3 t)
      (acc0_4 V c (t.val - 1) (Nat.lt_of_le_of_lt (Nat.sub_le _ _) t.isLt)) := by
  obtain ⟨n, hn⟩ := t
  cases n with
  | zero => exact absurd rfl h0
  | succ n => rfl
theorem acc0_5_first (c : Dev nD) (t : Fin cfg0.N) (h0 : t.val = 0) :
    acc0_5 V c t.val t.isLt = out0A_5 (iblk0 V c 3 t) := by
  obtain ⟨n, hn⟩ := t
  cases n with
  | zero => rfl
  | succ n => exact absurd h0 (Nat.succ_ne_zero n)
theorem acc0_5_later (c : Dev nD) (t : Fin cfg0.N) (h0 : t.val ≠ 0) :
    acc0_5 V c t.val t.isLt = out0B_5 (iblk0 V c 3 t) (acc0_5 V c (t.val - 1) (Nat.lt_of_le_of_lt (Nat.sub_le _ _) t.isLt)) := by
  obtain ⟨n, hn⟩ := t
  cases n with
  | zero => exact absurd rfl h0
  | succ n => rfl

/-! ## The body's triple, case by case -/

set_option maxHeartbeats 1000000 in
/-- At the first point: the body on whole staging memrefs, the inputs' at contents `x·` and the outputs' at anything,
    runs to the continuation holding the inputs' as they were and each output's at its first-point contents. -/
theorem sound_kernel0A (c : Dev nD) (E : Set ℕ) (i : grid0.Coords) (hc1 : k0_cond1 i = 1#1) (hc2 : ¬ k0_cond2 i = 1#1)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1000x5000 .f32) (harg4 : arg4.IsWhole)
    (arg5 : Memref sig .tc .vmem S128x5000 .f32) (harg5 : arg5.IsWhole) (arg6 : Memref sig .tc .vmem S1x5000 .f32) (harg6 : arg6.IsWhole)
    (arg7 : Memref sig .tc .vmem S1000x128 .f32) (harg7 : arg7.IsWhole)
    (x0 : Vec F S1000x128 .f32) (x1 : Vec F S128x128 .f32) (x2 : Vec F S1x128 .f32) (x3 : Vec F S1000x5000 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0A_4 x0 x1 x2 x3) ∗ owns (c : Thread nD τ) arg6 fullShare (out0A_5 x3) ∗ owns (c : Thread nD τ) arg7 fullShare (out0_6 x3)) -∗ K ⟨⟩))
      ⊢ wp frame (wpE (defs₀ (F := F)) Variants.none c none) E (cc0__pass_a i arg1 harg1 arg2 harg2 arg3 harg3 arg4 harg4 arg5 harg5 arg6 harg6 arg7 harg7) K := by
  simp only [cc0__pass_a_eq_skeleton]; unfold cc0__pass_a_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

set_option maxHeartbeats 1000000 in
/-- At a later point: the same with the two edge windows' buffers at known contents `xo4`, `xo5`. -/
theorem sound_kernel0B (c : Dev nD) (E : Set ℕ) (i : grid0.Coords) (hc1 : ¬ k0_cond1 i = 1#1) (hc2 : k0_cond2 i = 1#1)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1000x5000 .f32) (harg4 : arg4.IsWhole)
    (arg5 : Memref sig .tc .vmem S128x5000 .f32) (harg5 : arg5.IsWhole) (arg6 : Memref sig .tc .vmem S1x5000 .f32) (harg6 : arg6.IsWhole)
    (arg7 : Memref sig .tc .vmem S1000x128 .f32) (harg7 : arg7.IsWhole)
    (x0 : Vec F S1000x128 .f32) (x1 : Vec F S128x128 .f32) (x2 : Vec F S1x128 .f32) (x3 : Vec F S1000x5000 .f32)
    (xo4 : Vec F S128x5000 .f32) (xo5 : Vec F S1x5000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xo4 ∗ owns (c : Thread nD τ) arg6 fullShare xo5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0B_4 x0 x1 x2 x3 xo4) ∗ owns (c : Thread nD τ) arg6 fullShare (out0B_5 x3 xo5) ∗ owns (c : Thread nD τ) arg7 fullShare (out0_6 x3)) -∗ K ⟨⟩))
      ⊢ wp frame (wpE (defs₀ (F := F)) Variants.none c none) E (cc0__pass_a i arg1 harg1 arg2 harg2 arg3 harg3 arg4 harg4 arg5 harg5 arg6 harg6 arg7 harg7) K := by
  simp only [cc0__pass_a_eq_skeleton]; unfold cc0__pass_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the pipeline on core `c`: the arrays as the region finds them; after the body at point `t`
    each input's buffer at its block, the two edge windows' at their accumulations and the scaling window's at
    `out0_6` of the incidence block; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0_4 V c t.val t.isLt
    | ⟨5, _⟩ => acc0_5 V c t.val t.isLt
    | ⟨6, _⟩ => out0_6 (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0_4 V c t.val t.isLt := by dsimp only [dat0]
theorem after0_5 (c : Dev nD) (t : Fin cfg0.N) : (dat0 V c).after 5 t = acc0_5 V c t.val t.isLt := by dsimp only [dat0]
theorem after0_6 (c : Dev nD) (t : Fin cfg0.N) : (dat0 V c).after 6 t = out0_6 (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a later point an edge window's current buffer holds what the body left at the point before: the buffer is not
    written back in between, the window is stored into at every point and its block is never cut. -/
theorem before0_4_later (c : Dev nD) (t : Fin cfg0.N) (h0 : t.val ≠ 0) (d) :
    (dat0 V c).before 4 t d = acc0_4 V c (t.val - 1) (Nat.lt_of_le_of_lt (Nat.sub_le _ _) t.isLt) := by
  have hN : t.val < 10 := lt_of_lt_of_eq t.isLt (show cfg0.N = 10 from N_0)
  rw [Dat.before_out_kept _ 4 rfl t h0 (Bool.eq_false_iff.mpr fun h => by have := (flush0_4 _).mp h; dsimp only at this; omega)
    (hlive0_4) (fun _ _ => rfl)]
  dsimp only [dat0]
theorem before0_5_later (c : Dev nD) (t : Fin cfg0.N) (h0 : t.val ≠ 0) (d) :
    (dat0 V c).before 5 t d = acc0_5 V c (t.val - 1) (Nat.lt_of_le_of_lt (Nat.sub_le _ _) t.isLt) := by
  have hN : t.val < 10 := lt_of_lt_of_eq t.isLt (show cfg0.N = 10 from N_0)
  rw [Dat.before_out_kept _ 5 rfl t h0 (Bool.eq_false_iff.mpr fun h => by have := (flush0_5 _).mp h; dsimp only at this; omega)
    (hlive0_5) (fun _ _ => rfl)]
  dsimp only [dat0]

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val = 0
  · rw [acc0_4_first V c t h0, acc0_5_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0A c Set.univ (grid0.coords t) ((hcond0_first t).mpr h0) (fun h => (hcond0_later t).mp h h0)
      _ _ _ _ _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc0_4_later V c t h0, acc0_5_later V c t h0]
    simp only [before0_4_later V c t h0, before0_5_later V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0B c Set.univ (grid0.coords t) (fun h => h0 ((hcond0_first t).mp h)) ((hcond0_later t).mpr h0)
      _ _ _ _ _ _ _ _ _ _ _ _ _ _ (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  simp only [hidle0_4 t, hidle0_5 t]
  exact sound_body0 V c t

end Cert.Kernel.Hand

end
-- ==== Proof.KBR1.lean ====
/- The second pass over the incidence matrix (the middle pallas_call), at a parameter `V`: the contents of the
   TensorCore's buffers when the region is entered. At grid point t the body reads rows 1000·t … 1000·t+999 of the
   incidence matrix, the first column of the same rows of the vertex-scaling array, the whole layer-1 edge-feature
   matrix, the second weight matrix and bias, and forms that row block's contribution to the transposed layer-2 edge sums
   (64 × 5000). The result window's block never moves: at the first point the contribution is stored, at every later point
   it is added to what the point before left, and the block is written back once, after the last point. Stated at any
   float instance: what each window's staging buffer holds after the body, the proof data, and the body's triple. -/
import proofs.«151137_g18348100288549_rerun558fix_267_52_alg».proof.Proof.Gen.Kernel.Launch
import proofs.«151137_g18348100288549_rerun558fix_267_52_alg».proof.Proof.Gen.Kernel.Skeleton
import proofs.«151137_g18348100288549_rerun558fix_267_52_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole incidence block. -/
abbrev r1_h : Rect S1000x5000 := Rect.unit (s := S1000x5000) ![0, 0] S1000x5000.size inb_S1000x5000_S1000x5000_0_0
/-- The first column of the scaling block. -/
abbrev r1_d : Rect S1000x128 := Rect.unit (s := S1000x128) ![0, 0] S1000x1.size inb_S1000x128_S1000x1_0_0
/-- The whole layer-1 edge-feature matrix. -/
abbrev r1_m : Rect S5000x128 := Rect.unit (s := S5000x128) ![0, 0] S5000x128.size inb_S5000x128_S5000x128_0_0
/-- The whole second weight matrix. -/
abbrev r1_w : Rect S128x64 := Rect.unit (s := S128x64) ![0, 0] S128x64.size inb_S128x64_S128x64_0_0
/-- The whole second bias row. -/
abbrev r1_b : Rect S1x64 := Rect.unit (s := S1x64) ![0, 0] S1x64.size inb_S1x64_S1x64_0_0
/-- The whole block of transposed edge sums. -/
abbrev r1_g : Rect S64x5000 := Rect.unit (s := S64x5000) ![0, 0] S64x5000.size inb_S64x5000_S64x5000_0_0

/-! ## The two cases of the body's conditionals, decided over the grid -/

/-- The first conditional (store the contribution) is taken at the first point only. -/
theorem hcond1_first : ∀ t : Fin cfg1.N, k1_cond1 (grid1.coords t) = 1#1 ↔ t.val = 0 :=
  (by decide +kernel : ∀ t : Fin grid1.N, k1_cond1 (grid1.coords t) = 1#1 ↔ t.val = 0)
/-- The second conditional (add the contribution) is taken at every later point. -/
theorem hcond1_later : ∀ t : Fin cfg1.N, k1_cond2 (grid1.coords t) = 1#1 ↔ t.val ≠ 0 :=
  (by decide +kernel : ∀ t : Fin grid1.N, k1_cond2 (grid1.coords t) = 1#1 ↔ t.val ≠ 0)
/-- The result window is stored into at every point. -/
theorem hidle1_5 : ∀ t : Fin grid1.N, idle1 (5 : Fin 6) (grid1.coords t) = false :=
  (by decide +kernel : ∀ t : Fin grid1.N, idle1 (5 : Fin 6) (grid1.coords t) = false)
/-- …at every coordinate of the grid's box. -/
theorem hlive1_5 : ∀ i : cfg1.grid.Coords, cfg1.idle (5 : Fin 6) i = false :=
  (by decide +kernel : ∀ i : grid1.Coords, idle1 (5 : Fin 6) i = false)

/-! ## What the body leaves in the result window's buffer -/

/-- At the first point: the row block's contribution, stored. -/
def out1A_5 (x0 : Vec F S1000x5000 .f32) (x1 : Vec F S1000x128 .f32) (x2 : Vec F S5000x128 .bf16) (x3 : Vec F S128x64 .f32) (x4 : Vec F S1x64 .f32) :
    Vec F S64x5000 .f32 :=
  View.canon [⟨r1_g, k1_pay1 (View.ld x0 r1_h) (View.ld x1 r1_d) (View.ld x2 r1_m) (View.ld x3 r1_w) (View.ld x4 r1_b)⟩]

/-- At a later point: the contribution added to what the buffer held (`xo`). -/
def out1B_5 (x0 : Vec F S1000x5000 .f32) (x1 : Vec F S1000x128 .f32) (x2 : Vec F S5000x128 .bf16) (x3 : Vec F S128x64 .f32) (x4 : Vec F S1x64 .f32)
    (xo : Vec F S64x5000 .f32) : Vec F S64x5000 .f32 :=
  View.canon [⟨r1_g, k1_pay2 (View.ld x0 r1_h) (View.ld x1 r1_d) (View.ld x2 r1_m) (View.ld x3 r1_w) (View.ld x4 r1_b) (View.ld xo r1_g)⟩]

/-- The one store covers the block. -/
theorem cover1_5 (p0 : Vec F S64x5000 .f32) (y : S64x5000.Idx) :
    ∃ pc ∈ ([⟨r1_g, p0⟩] : List (View.Piece (Elt F) S64x5000 .f32)), y ∈ pc.1.set :=
  View.cover_of_tiled [⟨r1_g, p0⟩] S64x5000.size (by rfl) y

/-- THE ACCUMULATION: what the result window's buffer holds after the body at position `n`. -/
def acc1 (c : Dev nD) : (n : ℕ) → n < cfg1.N → Vec F S64x5000 .f32
  | 0, hn => out1A_5 (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn => out1B_5 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (acc1 c n (Nat.lt_of_succ_lt hn))

theorem acc1_first (c : Dev nD) (t : Fin cfg1.N) (h0 : t.val = 0) :
    acc1 V c t.val t.isLt = out1A_5 (iblk1 V c 0 t) (iblk1 V c 1 t) (iblk1 V c 2 t) (iblk1 V c 3 t) (iblk1 V c 4 t) := by
  obtain ⟨n, hn⟩ := t
  cases n with
  | zero => rfl
  | succ n => exact absurd h0 (Nat.succ_ne_zero n)

theorem acc1_later (c : Dev nD) (t : Fin cfg1.N) (h0 : t.val ≠ 0) :
    acc1 V c t.val t.isLt = out1B_5 (iblk1 V c 0 t) (iblk1 V c 1 t) (iblk1 V c 2 t) (iblk1 V c 3 t) (iblk1 V c 4 t)
      (acc1 V c (t.val - 1) (Nat.lt_of_le_of_lt (Nat.sub_le _ _) t.isLt)) := by
  obtain ⟨n, hn⟩ := t
  cases n with
  | zero => exact absurd rfl h0
  | succ n => rfl

/-! ## The body's triple, case by case -/

set_option maxHeartbeats 1000000 in
/-- At the first point: the body on whole staging memrefs, the inputs' at contents `x·` and the result's at anything,
    runs to the continuation holding the inputs' as they were and the result's at `out1A_5`. -/
theorem sound_kernel1A (c : Dev nD) (E : Set ℕ) (i : grid1.Coords) (hc1 : k1_cond1 i = 1#1) (hc2 : ¬ k1_cond2 i = 1#1)
    (arg1 : Memref sig .tc .vmem S1000x5000 .f32) (harg1 : arg1.IsWhole) (arg2 : Memref sig .tc .vmem S1000x128 .f32) (harg2 : arg2.IsWhole)
    (arg3 : Memref sig .tc .vmem S5000x128 .bf16) (harg3 : arg3.IsWhole) (arg4 : Memref sig .tc .vmem S128x64 .f32) (harg4 : arg4.IsWhole)
    (arg5 : Memref sig .tc .vmem S1x64 .f32) (harg5 : arg5.IsWhole) (arg6 : Memref sig .tc .vmem S64x5000 .f32) (harg6 : arg6.IsWhole)
    (x0 : Vec F S1000x5000 .f32) (x1 : Vec F S1000x128 .f32) (x2 : Vec F S5000x128 .bf16) (x3 : Vec F S128x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1A_5 x0 x1 x2 x3 x4)) -∗ K ⟨⟩))
      ⊢ wp frame (wpE (defs₀ (F := F)) Variants.none c none) E (cc1__pass_b i arg1 harg1 arg2 harg2 arg3 harg3 arg4 harg4 arg5 harg5 arg6 harg6) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

set_option maxHeartbeats 1000000 in
/-- At a later point: the same with the result's buffer at known contents `xo`, left at `out1B_5`. -/
theorem sound_kernel1B (c : Dev nD) (E : Set ℕ) (i : grid1.Coords) (hc1 : ¬ k1_cond1 i = 1#1) (hc2 : k1_cond2 i = 1#1)
    (arg1 : Memref sig .tc .vmem S1000x5000 .f32) (harg1 : arg1.IsWhole) (arg2 : Memref sig .tc .vmem S1000x128 .f32) (harg2 : arg2.IsWhole)
    (arg3 : Memref sig .tc .vmem S5000x128 .bf16) (harg3 : arg3.IsWhole) (arg4 : Memref sig .tc .vmem S128x64 .f32) (harg4 : arg4.IsWhole)
    (arg5 : Memref sig .tc .vmem S1x64 .f32) (harg5 : arg5.IsWhole) (arg6 : Memref sig .tc .vmem S64x5000 .f32) (harg6 : arg6.IsWhole)
    (x0 : Vec F S1000x5000 .f32) (x1 : Vec F S1000x128 .f32) (x2 : Vec F S5000x128 .bf16) (x3 : Vec F S128x64 .f32) (x4 : Vec F S1x64 .f32)
    (xo : Vec F S64x5000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xo
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1B_5 x0 x1 x2 x3 x4 xo)) -∗ K ⟨⟩))
      ⊢ wp frame (wpE (defs₀ (F := F)) Variants.none c none) E (cc1__pass_b i arg1 harg1 arg2 harg2 arg3 harg3 arg4 harg4 arg5 harg5 arg6 harg6) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pipeline on core `c`: the arrays as the region finds them; after the body at point `t`
    each input's buffer at its block and the result's at the accumulation; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a later point the result window's current buffer holds what the body left at the point before: the buffer is
    not written back in between, the window is stored into at every point and its block is never cut. -/
theorem before1_5_later (c : Dev nD) (t : Fin cfg1.N) (h0 : t.val ≠ 0) (d) :
    (dat1 V c).before 5 t d = acc1 V c (t.val - 1) (Nat.lt_of_le_of_lt (Nat.sub_le _ _) t.isLt) := by
  have hN : t.val < 10 := lt_of_lt_of_eq t.isLt (show cfg1.N = 10 from N_1)
  rw [Dat.before_out_kept _ 5 rfl t h0 (Bool.eq_false_iff.mpr fun h => by have := (flush1_5 _).mp h; dsimp only at this; omega)
    (hlive1_5) (fun _ _ => rfl)]
  dsimp only [dat1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val = 0
  · rw [acc1_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1A c Set.univ (grid1.coords t) ((hcond1_first t).mpr h0) (fun h => (hcond1_later t).mp h h0)
      _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_later V c t h0]
    simp only [before1_5_later V c t h0]
    iintro ⟨HΦ, Ho, ⟨%d0, H0⟩, ⟨%d1, H1⟩, ⟨%d2, H2⟩, ⟨%d3, H3⟩, ⟨%d4, H4⟩, ⟨%d5, H5⟩⟩
    iapply (sound_kernel1B c Set.univ (grid1.coords t) (fun h => h0 ((hcond1_first t).mp h)) ((hcond1_later t).mpr h0)
      _ _ _ _ _ _ _ _ _ _ _ _ (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  simp only [hidle1_5 t]
  exact sound_body1 V c t

end Cert.Kernel.Hand

end
-- ==== Proof.KBR2.lean ====
/- The third pass over the incidence matrix (the last pallas_call), at a parameter `V`: the contents of the
   TensorCore's buffers when the region is entered. At grid point t the body reads rows 1000·t … 1000·t+999 of the
   incidence matrix, the first column of the same rows of the vertex-scaling array and the whole edge-feature matrix,
   and stores the scaled product into rows 1000·t … of the result; it keeps nothing between points. Stated at any
   float instance: what each window's staging buffer holds after the body, the proof data, and the body's triple. -/
import proofs.«151137_g18348100288549_rerun558fix_267_52_alg».proof.Proof.Gen.Kernel.Launch
import proofs.«151137_g18348100288549_rerun558fix_267_52_alg».proof.Proof.Gen.Kernel.Skeleton
import proofs.«151137_g18348100288549_rerun558fix_267_52_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole incidence block. -/
abbrev r2_h : Rect S1000x5000 := Rect.unit (s := S1000x5000) ![0, 0] S1000x5000.size inb_S1000x5000_S1000x5000_0_0
/-- The first column of the scaling block. -/
abbrev r2_d : Rect S1000x128 := Rect.unit (s := S1000x128) ![0, 0] S1000x1.size inb_S1000x128_S1000x1_0_0
/-- The whole edge-feature matrix. -/
abbrev r2_e : Rect S5000x64 := Rect.unit (s := S5000x64) ![0, 0] S5000x64.size inb_S5000x64_S5000x64_0_0
/-- The whole result block. -/
abbrev r2_o : Rect S1000x64 := Rect.unit (s := S1000x64) ![0, 0] S1000x64.size inb_S1000x64_S1000x64_0_0

/-! ## What the body leaves in the result window's buffer -/

/-- The result block after the body, from the three input blocks: its one store. -/
def out2_3 (x0 : Vec F S1000x5000 .f32) (x1 : Vec F S1000x128 .f32) (x2 : Vec F S5000x64 .bf16) : Vec F S1000x64 .f32 :=
  View.canon [⟨r2_o, k2_pay1 (View.ld x0 r2_h) (View.ld x1 r2_d) (View.ld x2 r2_e)⟩]

/-- The one store covers the block. -/
theorem cover2_3 (p0 : Vec F S1000x64 .f32) (y : S1000x64.Idx) :
    ∃ pc ∈ ([⟨r2_o, p0⟩] : List (View.Piece (Elt F) S1000x64 .f32)), y ∈ pc.1.set :=
  View.cover_of_tiled [⟨r2_o, p0⟩] S1000x64.size (by rfl) y

/-! ## The body's triple -/

set_option maxHeartbeats 1000000 in
/-- The body on whole staging memrefs, the inputs' at contents `x·` and the result's at anything, runs to the
    continuation holding the inputs' as they were and the result's at `out2_3`. -/
theorem sound_kernel2 (c : Dev nD) (E : Set ℕ) (i : grid2.Coords) (arg1 : Memref sig .tc .vmem S1000x5000 .f32) (harg1 : arg1.IsWhole)
    (arg2 : Memref sig .tc .vmem S1000x128 .f32) (harg2 : arg2.IsWhole) (arg3 : Memref sig .tc .vmem S5000x64 .bf16) (harg3 : arg3.IsWhole)
    (arg4 : Memref sig .tc .vmem S1000x64 .f32) (harg4 : arg4.IsWhole)
    (x0 : Vec F S1000x5000 .f32) (x1 : Vec F S1000x128 .f32) (x2 : Vec F S5000x64 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__pass_c i arg1 harg1 arg2 harg2 arg3 harg3 arg4 harg4) K := by
  simp only [cc2__pass_c_eq_skeleton]; unfold cc2__pass_c_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the pipeline on core `c`: the arrays as the region finds them; after the body at point `t`
    each input's buffer at its block and the result's at `out2_3` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBRun.lean ====
/- The whole run of the three-pass program: its buffers' contents at every boundary between a stretch of host
   operations and a pallas_call, as a fold from the launch memory; each pallas_call as a segment over those contents
   (its body's triple from the region's own module); and the launch: every weakly fair execution of @main terminates,
   nothing faulting, and the final memory holds every unscoped buffer at the fold's last contents. The frame claim and the
   result array's contents are read off that. Stated at any float instance. -/
import proofs.«151137_g18348100288549_rerun558fix_267_52_alg».proof.Proof.Gen.Kernel.Launch
import proofs.«151137_g18348100288549_rerun558fix_267_52_alg».proof.Proof.Gen.Kernel.Skeleton
import proofs.«151137_g18348100288549_rerun558fix_267_52_alg».proof.Proof.Gen.Kernel.Points
import proofs.«151137_g18348100288549_rerun558fix_267_52_alg».proof.Proof.Gen.Kernel.Regions
import proofs.«151137_g18348100288549_rerun558fix_267_52_alg».proof.Proof.KBR0
import proofs.«151137_g18348100288549_rerun558fix_267_52_alg».proof.Proof.KBR1
import proofs.«151137_g18348100288549_rerun558fix_267_52_alg».proof.Proof.KBR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the two bias reshapes): the first pallas_call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the edge reciprocals folded into the layer-1 edge sums): the second pallas_call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the same fold for layer 2): the third pallas_call's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- A buffer no operation of a host stretch writes passes through it. -/
theorem W1_of (c : Dev nD) (b : Ref sig .tc) (h : b ∉ hostOps0_W) : W1 m ρ c (Proc.devRef .tc b) = W0 m ρ c (Proc.devRef .tc b) :=
  StableHlo.after_of_writes_sub hostOps0 _ hostOps0_writes h
theorem W3_of (c : Dev nD) (b : Ref sig .tc) (h : b ∉ hostOps1_W) : W3 m ρ c (Proc.devRef .tc b) = W2 m ρ c (Proc.devRef .tc b) :=
  StableHlo.after_of_writes_sub hostOps1 _ hostOps1_writes h
theorem W5_of (c : Dev nD) (b : Ref sig .tc) (h : b ∉ hostOps2_W) : W5 m ρ c (Proc.devRef .tc b) = W4 m ρ c (Proc.devRef .tc b) :=
  StableHlo.after_of_writes_sub hostOps2 _ hostOps2_writes h

/-! ### The arguments end as launched -/

theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_of_ne m ρ c main_arg0 (by decide)).trans <|
  (W3_of m ρ c main_arg0 (by decide)).trans <| (W2_in m ρ c 0 rfl).trans <| (W1_of m ρ c main_arg0 (by decide)).trans rfl
theorem W6_main_arg1 (c : Dev nD) : W6 m ρ c (Proc.devRef .tc main_arg1) = m ((c : Thread nD τ).loc main_arg1) :=
  (W6_in m ρ c 0 rfl).trans <| (W5_of m ρ c main_arg1 (by decide)).trans <| (W4_in m ρ c 0 rfl).trans <|
  (W3_of m ρ c main_arg1 (by decide)).trans <| (W2_in m ρ c 3 rfl).trans <| (W1_of m ρ c main_arg1 (by decide)).trans rfl
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_of_ne m ρ c main_arg2 (by decide)).trans <|
  (W3_of m ρ c main_arg2 (by decide)).trans <| (W2_in m ρ c 1 rfl).trans <| (W1_of m ρ c main_arg2 (by decide)).trans rfl
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of_ne m ρ c main_arg3 (by decide)).trans <|
  (W3_of m ρ c main_arg3 (by decide)).trans <| (W2_of_ne m ρ c main_arg3 (by decide)).trans <| (W1_of m ρ c main_arg3 (by decide)).trans rfl
theorem W6_main_arg4 (c : Dev nD) : W6 m ρ c (Proc.devRef .tc main_arg4) = m ((c : Thread nD τ).loc main_arg4) :=
  (W6_of_ne m ρ c main_arg4 (by decide)).trans <| (W5_of m ρ c main_arg4 (by decide)).trans <| (W4_in m ρ c 3 rfl).trans <|
  (W3_of m ρ c main_arg4 (by decide)).trans <| (W2_of_ne m ρ c main_arg4 (by decide)).trans <| (W1_of m ρ c main_arg4 (by decide)).trans rfl
theorem W6_main_arg5 (c : Dev nD) : W6 m ρ c (Proc.devRef .tc main_arg5) = m ((c : Thread nD τ).loc main_arg5) :=
  (W6_of_ne m ρ c main_arg5 (by decide)).trans <| (W5_of m ρ c main_arg5 (by decide)).trans <| (W4_of_ne m ρ c main_arg5 (by decide)).trans <|
  (W3_of m ρ c main_arg5 (by decide)).trans <| (W2_of_ne m ρ c main_arg5 (by decide)).trans <| (W1_of m ρ c main_arg5 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at `W1`, left at `W2`. Its arrays are
    split out of the unscoped buffers on entry and put back at their final contents on exit; the generator register goes
    into the kernel's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. Its arrays are
    split out of the unscoped buffers on entry and put back at their final contents on exit; the generator register goes
    into the kernel's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left at `W6`. Its arrays are
    split out of the unscoped buffers on entry and put back at their final contents on exit; the generator register goes
    into the kernel's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

/-- THE RESULT beside the frame: the result array ends at what the third pipeline's write-backs leave. -/
theorem run_result : θ_run defs (onTc (τ := τ) (main (F := F))) ⟨m, fun _ => 0, ρ⟩ (fun r => ∀ c : Dev nD,
      r.2.mem ((c.tc : Thread nD τ).loc main_v18) = (dat2 (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v18 (by decide))).trans (W6_arr m ρ c 3),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.Kernel.Hand

end
-- ==== Proof.KIR0.lean ====
/- The first pass over the incidence matrix (the first pallas_call), at a parameter `V`: the contents of the
   TensorCore's buffers when the region is entered. At grid point t the body reads rows 1000·t … 1000·t+999 of the
   features and of the incidence matrix, the first weight matrix and bias, and produces three things: the row block's
   vertex scaling (the inverse square root of the row sums plus ε), broadcast along 128 lanes and written back at every
   point; the row block's contribution to the transposed layer-1 edge sums (128 × 5000); and its contribution to the edge
   degrees (1 × 5000, the column sums of the block). The two edge windows' blocks never move: at the first point the
   contribution is stored, at every later point it is added to what the point before left, and the block is written back
   once, after the last point. Stated at any float instance: what each window's staging buffer holds after the body, the
   proof data, and the body's triple. -/
import proofs.«151137_g18348100288549_rerun558fix_267_52_alg».proof.Proof.Gen.KernelIdeal.Launch
import proofs.«151137_g18348100288549_rerun558fix_267_52_alg».proof.Proof.Gen.KernelIdeal.Skeleton
import proofs.«151137_g18348100288549_rerun558fix_267_52_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole feature block; also the whole scaling block (the same shape). -/
abbrev r0_x : Rect S1000x128 := Rect.unit (s := S1000x128) ![0, 0] S1000x128.size inb_S1000x128_S1000x128_0_0
/-- The whole first weight matrix. -/
abbrev r0_w : Rect S128x128 := Rect.unit (s := S128x128) ![0, 0] S128x128.size inb_S128x128_S128x128_0_0
/-- The whole first bias row. -/
abbrev r0_b : Rect S1x128 := Rect.unit (s := S1x128) ![0, 0] S1x128.size inb_S1x128_S1x128_0_0
/-- The whole incidence block. -/
abbrev r0_h : Rect S1000x5000 := Rect.unit (s := S1000x5000) ![0, 0] S1000x5000.size inb_S1000x5000_S1000x5000_0_0
/-- The whole block of transposed edge sums. -/
abbrev r0_g : Rect S128x5000 := Rect.unit (s := S128x5000) ![0, 0] S128x5000.size inb_S128x5000_S128x5000_0_0
/-- The whole row of edge degrees. -/
abbrev r0_e : Rect S1x5000 := Rect.unit (s := S1x5000) ![0, 0] S1x5000.size inb_S1x5000_S1x5000_0_0

/-! ## The two cases of the body's conditionals, decided over the grid -/

/-- The first conditional (store the contributions) is taken at the first point only. -/
theorem hcond0_first : ∀ t : Fin cfg0.N, k0_cond1 (grid0.coords t) = 1#1 ↔ t.val = 0 :=
  (by decide +kernel : ∀ t : Fin grid0.N, k0_cond1 (grid0.coords t) = 1#1 ↔ t.val = 0)
/-- The second conditional (add the contributions) is taken at every later point. -/
theorem hcond0_later : ∀ t : Fin cfg0.N, k0_cond2 (grid0.coords t) = 1#1 ↔ t.val ≠ 0 :=
  (by decide +kernel : ∀ t : Fin grid0.N, k0_cond2 (grid0.coords t) = 1#1 ↔ t.val ≠ 0)
/-- The two edge windows are stored into at every point, -/
theorem hidle0_4 : ∀ t : Fin grid0.N, idle0 (4 : Fin 7) (grid0.coords t) = false :=
  (by decide +kernel : ∀ t : Fin grid0.N, idle0 (4 : Fin 7) (grid0.coords t) = false)
theorem hidle0_5 : ∀ t : Fin grid0.N, idle0 (5 : Fin 7) (grid0.coords t) = false :=
  (by decide +kernel : ∀ t : Fin grid0.N, idle0 (5 : Fin 7) (grid0.coords t) = false)
/-- …at every coordinate of the grid's box. -/
theorem hlive0_4 : ∀ i : cfg0.grid.Coords, cfg0.idle (4 : Fin 7) i = false :=
  (by decide +kernel : ∀ i : grid0.Coords, idle0 (4 : Fin 7) i = false)
theorem hlive0_5 : ∀ i : cfg0.grid.Coords, cfg0.idle (5 : Fin 7) i = false :=
  (by decide +kernel : ∀ i : grid0.Coords, idle0 (5 : Fin 7) i = false)

/-! ## What the body leaves in each output window's buffer -/

/-- The scaling block: one store, at every point. -/
def out0_6 (x3 : Vec F S1000x5000 .f32) : Vec F S1000x128 .f32 :=
  View.canon [⟨r0_x, k0_pay3 (View.ld x3 r0_h)⟩]

/-- The transposed edge sums at the first point: the row block's contribution, stored. -/
def out0A_4 (x0 : Vec F S1000x128 .f32) (x1 : Vec F S128x128 .f32) (x2 : Vec F S1x128 .f32) (x3 : Vec F S1000x5000 .f32) : Vec F S128x5000 .f32 :=
  View.canon [⟨r0_g, k0_pay4 (View.ld x3 r0_h) (View.ld x0 r0_x) (View.ld x1 r0_w) (View.ld x2 r0_b)⟩]

/-- The edge degrees at the first point: the block's column sums, stored. -/
def out0A_5 (x3 : Vec F S1000x5000 .f32) : Vec F S1x5000 .f32 :=
  View.canon [⟨r0_e, k0_pay5 (View.ld x3 r0_h)⟩]

/-- The transposed edge sums at a later point: the contribution added to what the buffer held (`xo`). -/
def out0B_4 (x0 : Vec F S1000x128 .f32) (x1 : Vec F S128x128 .f32) (x2 : Vec F S1x128 .f32) (x3 : Vec F S1000x5000 .f32)
    (xo : Vec F S128x5000 .f32) : Vec F S128x5000 .f32 :=
  View.canon [⟨r0_g, k0_pay6 (View.ld x3 r0_h) (View.ld x0 r0_x) (View.ld x1 r0_w) (View.ld x2 r0_b) (View.ld xo r0_g)⟩]

/-- The edge degrees at a later point: the column sums added to what the buffer held. -/
def out0B_5 (x3 : Vec F S1000x5000 .f32) (xo : Vec F S1x5000 .f32) : Vec F S1x5000 .f32 :=
  View.canon [⟨r0_e, k0_pay7 (View.ld x3 r0_h) (View.ld xo r0_e)⟩]

/-- Each output's one store covers its block. -/
theorem cover0_4 (p0 : Vec F S128x5000 .f32) (y : S128x5000.Idx) :
    ∃ pc ∈ ([⟨r0_g, p0⟩] : List (View.Piece (Elt F) S128x5000 .f32)), y ∈ pc.1.set :=
  View.cover_of_tiled [⟨r0_g, p0⟩] S128x5000.size (by rfl) y
theorem cover0_5 (p0 : Vec F S1x5000 .f32) (y : S1x5000.Idx) :
    ∃ pc ∈ ([⟨r0_e, p0⟩] : List (View.Piece (Elt F) S1x5000 .f32)), y ∈ pc.1.set :=
  View.cover_of_tiled [⟨r0_e, p0⟩] S1x5000.size (by rfl) y
theorem cover0_6 (p0 : Vec F S1000x128 .f32) (y : S1000x128.Idx) :
    ∃ pc ∈ ([⟨r0_x, p0⟩] : List (View.Piece (Elt F) S1000x128 .f32)), y ∈ pc.1.set :=
  View.cover_of_tiled [⟨r0_x, p0⟩] S1000x128.size (by rfl) y

/-- THE ACCUMULATIONS: what the two edge windows' buffers hold after the body at position `n`. -/
def acc0_4 (c : Dev nD) : (n : ℕ) → n < cfg0.N → Vec F S128x5000 .f32
  | 0, hn => out0A_4 (iblk0 V c 0 ⟨0, hn⟩) (iblk0 V c 1 ⟨0, hn⟩) (iblk0 V c 2 ⟨0, hn⟩) (iblk0 V c 3 ⟨0, hn⟩)
  | n + 1, hn => out0B_4 (iblk0 V c 0 ⟨n + 1, hn⟩) (iblk0 V c 1 ⟨n + 1, hn⟩) (iblk0 V c 2 ⟨n + 1, hn⟩) (iblk0 V c 3 ⟨n + 1, hn⟩)
      (acc0_4 c n (Nat.lt_of_succ_lt hn))
def acc0_5 (c : Dev nD) : (n : ℕ) → n < cfg0.N → Vec F S1x5000 .f32
  | 0, hn => out0A_5 (iblk0 V c 3 ⟨0, hn⟩)
  | n + 1, hn => out0B_5 (iblk0 V c 3 ⟨n + 1, hn⟩) (acc0_5 c n (Nat.lt_of_succ_lt hn))

theorem acc0_4_first (c : Dev nD) (t : Fin cfg0.N) (h0 : t.val = 0) :
    acc0_4 V c t.val t.isLt = out0A_4 (iblk0 V c 0 t) (iblk0 V c 1 t) (iblk0 V c 2 t) (iblk0 V c 3 t) := by
  obtain ⟨n, hn⟩ := t
  cases n with
  | zero => rfl
  | succ n => exact absurd h0 (Nat.succ_ne_zero n)
theorem acc0_4_later (c : Dev nD) (t : Fin cfg0.N) (h0 : t.val ≠ 0) :
    acc0_4 V c t.val t.isLt = out0B_4 (iblk0 V c 0 t) (iblk0 V c 1 t) (iblk0 V c 2 t) (iblk0 V c 3 t)
      (acc0_4 V c (t.val - 1) (Nat.lt_of_le_of_lt (Nat.sub_le _ _) t.isLt)) := by
  obtain ⟨n, hn⟩ := t
  cases n with
  | zero => exact absurd rfl h0
  | succ n => rfl
theorem acc0_5_first (c : Dev nD) (t : Fin cfg0.N) (h0 : t.val = 0) :
    acc0_5 V c t.val t.isLt = out0A_5 (iblk0 V c 3 t) := by
  obtain ⟨n, hn⟩ := t
  cases n with
  | zero => rfl
  | succ n => exact absurd h0 (Nat.succ_ne_zero n)
theorem acc0_5_later (c : Dev nD) (t : Fin cfg0.N) (h0 : t.val ≠ 0) :
    acc0_5 V c t.val t.isLt = out0B_5 (iblk0 V c 3 t) (acc0_5 V c (t.val - 1) (Nat.lt_of_le_of_lt (Nat.sub_le _ _) t.isLt)) := by
  obtain ⟨n, hn⟩ := t
  cases n with
  | zero => exact absurd rfl h0
  | succ n => rfl

/-! ## The body's triple, case by case -/

set_option maxHeartbeats 1000000 in
/-- At the first point: the body on whole staging memrefs, the inputs' at contents `x·` and the outputs' at anything,
    runs to the continuation holding the inputs' as they were and each output's at its first-point contents. -/
theorem sound_kernel0A (c : Dev nD) (E : Set ℕ) (i : grid0.Coords) (hc1 : k0_cond1 i = 1#1) (hc2 : ¬ k0_cond2 i = 1#1)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1000x5000 .f32) (harg4 : arg4.IsWhole)
    (arg5 : Memref sig .tc .vmem S128x5000 .f32) (harg5 : arg5.IsWhole) (arg6 : Memref sig .tc .vmem S1x5000 .f32) (harg6 : arg6.IsWhole)
    (arg7 : Memref sig .tc .vmem S1000x128 .f32) (harg7 : arg7.IsWhole)
    (x0 : Vec F S1000x128 .f32) (x1 : Vec F S128x128 .f32) (x2 : Vec F S1x128 .f32) (x3 : Vec F S1000x5000 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0A_4 x0 x1 x2 x3) ∗ owns (c : Thread nD τ) arg6 fullShare (out0A_5 x3) ∗ owns (c : Thread nD τ) arg7 fullShare (out0_6 x3)) -∗ K ⟨⟩))
      ⊢ wp frame (wpE (defs₀ (F := F)) Variants.none c none) E (cc0__pass_a i arg1 harg1 arg2 harg2 arg3 harg3 arg4 harg4 arg5 harg5 arg6 harg6 arg7 harg7) K := by
  simp only [cc0__pass_a_eq_skeleton]; unfold cc0__pass_a_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

set_option maxHeartbeats 1000000 in
/-- At a later point: the same with the two edge windows' buffers at known contents `xo4`, `xo5`. -/
theorem sound_kernel0B (c : Dev nD) (E : Set ℕ) (i : grid0.Coords) (hc1 : ¬ k0_cond1 i = 1#1) (hc2 : k0_cond2 i = 1#1)
    (arg1 : Memref sig .tc .vmem S1000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1000x5000 .f32) (harg4 : arg4.IsWhole)
    (arg5 : Memref sig .tc .vmem S128x5000 .f32) (harg5 : arg5.IsWhole) (arg6 : Memref sig .tc .vmem S1x5000 .f32) (harg6 : arg6.IsWhole)
    (arg7 : Memref sig .tc .vmem S1000x128 .f32) (harg7 : arg7.IsWhole)
    (x0 : Vec F S1000x128 .f32) (x1 : Vec F S128x128 .f32) (x2 : Vec F S1x128 .f32) (x3 : Vec F S1000x5000 .f32)
    (xo4 : Vec F S128x5000 .f32) (xo5 : Vec F S1x5000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xo4 ∗ owns (c : Thread nD τ) arg6 fullShare xo5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0B_4 x0 x1 x2 x3 xo4) ∗ owns (c : Thread nD τ) arg6 fullShare (out0B_5 x3 xo5) ∗ owns (c : Thread nD τ) arg7 fullShare (out0_6 x3)) -∗ K ⟨⟩))
      ⊢ wp frame (wpE (defs₀ (F := F)) Variants.none c none) E (cc0__pass_a i arg1 harg1 arg2 harg2 arg3 harg3 arg4 harg4 arg5 harg5 arg6 harg6 arg7 harg7) K := by
  simp only [cc0__pass_a_eq_skeleton]; unfold cc0__pass_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the pipeline on core `c`: the arrays as the region finds them; after the body at point `t`
    each input's buffer at its block, the two edge windows' at their accumulations and the scaling window's at
    `out0_6` of the incidence block; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0_4 V c t.val t.isLt
    | ⟨5, _⟩ => acc0_5 V c t.val t.isLt
    | ⟨6, _⟩ => out0_6 (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0_4 V c t.val t.isLt := by dsimp only [dat0]
theorem after0_5 (c : Dev nD) (t : Fin cfg0.N) : (dat0 V c).after 5 t = acc0_5 V c t.val t.isLt := by dsimp only [dat0]
theorem after0_6 (c : Dev nD) (t : Fin cfg0.N) : (dat0 V c).after 6 t = out0_6 (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a later point an edge window's current buffer holds what the body left at the point before: the buffer is not
    written back in between, the window is stored into at every point and its block is never cut. -/
theorem before0_4_later (c : Dev nD) (t : Fin cfg0.N) (h0 : t.val ≠ 0) (d) :
    (dat0 V c).before 4 t d = acc0_4 V c (t.val - 1) (Nat.lt_of_le_of_lt (Nat.sub_le _ _) t.isLt) := by
  have hN : t.val < 10 := lt_of_lt_of_eq t.isLt (show cfg0.N = 10 from N_0)
  rw [Dat.before_out_kept _ 4 rfl t h0 (Bool.eq_false_iff.mpr fun h => by have := (flush0_4 _).mp h; dsimp only at this; omega)
    (hlive0_4) (fun _ _ => rfl)]
  dsimp only [dat0]
theorem before0_5_later (c : Dev nD) (t : Fin cfg0.N) (h0 : t.val ≠ 0) (d) :
    (dat0 V c).before 5 t d = acc0_5 V c (t.val - 1) (Nat.lt_of_le_of_lt (Nat.sub_le _ _) t.isLt) := by
  have hN : t.val < 10 := lt_of_lt_of_eq t.isLt (show cfg0.N = 10 from N_0)
  rw [Dat.before_out_kept _ 5 rfl t h0 (Bool.eq_false_iff.mpr fun h => by have := (flush0_5 _).mp h; dsimp only at this; omega)
    (hlive0_5) (fun _ _ => rfl)]
  dsimp only [dat0]

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  by_cases h0 : t.val = 0
  · rw [acc0_4_first V c t h0, acc0_5_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0A c Set.univ (grid0.coords t) ((hcond0_first t).mpr h0) (fun h => (hcond0_later t).mp h h0)
      _ _ _ _ _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc0_4_later V c t h0, acc0_5_later V c t h0]
    simp only [before0_4_later V c t h0, before0_5_later V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0B c Set.univ (grid0.coords t) (fun h => h0 ((hcond0_first t).mp h)) ((hcond0_later t).mpr h0)
      _ _ _ _ _ _ _ _ _ _ _ _ _ _ (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  simp only [hidle0_4 t, hidle0_5 t]
  exact sound_body0 V c t

end Cert.KernelIdeal.Hand

end
-- ==== Proof.KIR1.lean ====
/- The second pass over the incidence matrix (the middle pallas_call), at a parameter `V`: the contents of the
   TensorCore's buffers when the region is entered. At grid point t the body reads rows 1000·t … 1000·t+999 of the
   incidence matrix, the first column of the same rows of the vertex-scaling array, the whole layer-1 edge-feature
   matrix, the second weight matrix and bias, and forms that row block's contribution to the transposed layer-2 edge sums
   (64 × 5000). The result window's block never moves: at the first point the contribution is stored, at every later point
   it is added to what the point before left, and the block is written back once, after the last point. Stated at any
   float instance: what each window's staging buffer holds after the body, the proof data, and the body's triple. -/
import proofs.«151137_g18348100288549_rerun558fix_267_52_alg».proof.Proof.Gen.KernelIdeal.Launch
import proofs.«151137_g18348100288549_rerun558fix_267_52_alg».proof.Proof.Gen.KernelIdeal.Skeleton
import proofs.«151137_g18348100288549_rerun558fix_267_52_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole incidence block. -/
abbrev r1_h : Rect S1000x5000 := Rect.unit (s := S1000x5000) ![0, 0] S1000x5000.size inb_S1000x5000_S1000x5000_0_0
/-- The first column of the scaling block. -/
abbrev r1_d : Rect S1000x128 := Rect.unit (s := S1000x128) ![0, 0] S1000x1.size inb_S1000x128_S1000x1_0_0
/-- The whole layer-1 edge-feature matrix. -/
abbrev r1_m : Rect S5000x128 := Rect.unit (s := S5000x128) ![0, 0] S5000x128.size inb_S5000x128_S5000x128_0_0
/-- The whole second weight matrix. -/
abbrev r1_w : Rect S128x64 := Rect.unit (s := S128x64) ![0, 0] S128x64.size inb_S128x64_S128x64_0_0
/-- The whole second bias row. -/
abbrev r1_b : Rect S1x64 := Rect.unit (s := S1x64) ![0, 0] S1x64.size inb_S1x64_S1x64_0_0
/-- The whole block of transposed edge sums. -/
abbrev r1_g : Rect S64x5000 := Rect.unit (s := S64x5000) ![0, 0] S64x5000.size inb_S64x5000_S64x5000_0_0

/-! ## The two cases of the body's conditionals, decided over the grid -/

/-- The first conditional (store the contribution) is taken at the first point only. -/
theorem hcond1_first : ∀ t : Fin cfg1.N, k1_cond1 (grid1.coords t) = 1#1 ↔ t.val = 0 :=
  (by decide +kernel : ∀ t : Fin grid1.N, k1_cond1 (grid1.coords t) = 1#1 ↔ t.val = 0)
/-- The second conditional (add the contribution) is taken at every later point. -/
theorem hcond1_later : ∀ t : Fin cfg1.N, k1_cond2 (grid1.coords t) = 1#1 ↔ t.val ≠ 0 :=
  (by decide +kernel : ∀ t : Fin grid1.N, k1_cond2 (grid1.coords t) = 1#1 ↔ t.val ≠ 0)
/-- The result window is stored into at every point. -/
theorem hidle1_5 : ∀ t : Fin grid1.N, idle1 (5 : Fin 6) (grid1.coords t) = false :=
  (by decide +kernel : ∀ t : Fin grid1.N, idle1 (5 : Fin 6) (grid1.coords t) = false)
/-- …at every coordinate of the grid's box. -/
theorem hlive1_5 : ∀ i : cfg1.grid.Coords, cfg1.idle (5 : Fin 6) i = false :=
  (by decide +kernel : ∀ i : grid1.Coords, idle1 (5 : Fin 6) i = false)

/-! ## What the body leaves in the result window's buffer -/

/-- At the first point: the row block's contribution, stored. -/
def out1A_5 (x0 : Vec F S1000x5000 .f32) (x1 : Vec F S1000x128 .f32) (x2 : Vec F S5000x128 .bf16) (x3 : Vec F S128x64 .f32) (x4 : Vec F S1x64 .f32) :
    Vec F S64x5000 .f32 :=
  View.canon [⟨r1_g, k1_pay1 (View.ld x0 r1_h) (View.ld x1 r1_d) (View.ld x2 r1_m) (View.ld x3 r1_w) (View.ld x4 r1_b)⟩]

/-- At a later point: the contribution added to what the buffer held (`xo`). -/
def out1B_5 (x0 : Vec F S1000x5000 .f32) (x1 : Vec F S1000x128 .f32) (x2 : Vec F S5000x128 .bf16) (x3 : Vec F S128x64 .f32) (x4 : Vec F S1x64 .f32)
    (xo : Vec F S64x5000 .f32) : Vec F S64x5000 .f32 :=
  View.canon [⟨r1_g, k1_pay2 (View.ld x0 r1_h) (View.ld x1 r1_d) (View.ld x2 r1_m) (View.ld x3 r1_w) (View.ld x4 r1_b) (View.ld xo r1_g)⟩]

/-- The one store covers the block. -/
theorem cover1_5 (p0 : Vec F S64x5000 .f32) (y : S64x5000.Idx) :
    ∃ pc ∈ ([⟨r1_g, p0⟩] : List (View.Piece (Elt F) S64x5000 .f32)), y ∈ pc.1.set :=
  View.cover_of_tiled [⟨r1_g, p0⟩] S64x5000.size (by rfl) y

/-- THE ACCUMULATION: what the result window's buffer holds after the body at position `n`. -/
def acc1 (c : Dev nD) : (n : ℕ) → n < cfg1.N → Vec F S64x5000 .f32
  | 0, hn => out1A_5 (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn => out1B_5 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (acc1 c n (Nat.lt_of_succ_lt hn))

theorem acc1_first (c : Dev nD) (t : Fin cfg1.N) (h0 : t.val = 0) :
    acc1 V c t.val t.isLt = out1A_5 (iblk1 V c 0 t) (iblk1 V c 1 t) (iblk1 V c 2 t) (iblk1 V c 3 t) (iblk1 V c 4 t) := by
  obtain ⟨n, hn⟩ := t
  cases n with
  | zero => rfl
  | succ n => exact absurd h0 (Nat.succ_ne_zero n)

theorem acc1_later (c : Dev nD) (t : Fin cfg1.N) (h0 : t.val ≠ 0) :
    acc1 V c t.val t.isLt = out1B_5 (iblk1 V c 0 t) (iblk1 V c 1 t) (iblk1 V c 2 t) (iblk1 V c 3 t) (iblk1 V c 4 t)
      (acc1 V c (t.val - 1) (Nat.lt_of_le_of_lt (Nat.sub_le _ _) t.isLt)) := by
  obtain ⟨n, hn⟩ := t
  cases n with
  | zero => exact absurd rfl h0
  | succ n => rfl

/-! ## The body's triple, case by case -/

set_option maxHeartbeats 1000000 in
/-- At the first point: the body on whole staging memrefs, the inputs' at contents `x·` and the result's at anything,
    runs to the continuation holding the inputs' as they were and the result's at `out1A_5`. -/
theorem sound_kernel1A (c : Dev nD) (E : Set ℕ) (i : grid1.Coords) (hc1 : k1_cond1 i = 1#1) (hc2 : ¬ k1_cond2 i = 1#1)
    (arg1 : Memref sig .tc .vmem S1000x5000 .f32) (harg1 : arg1.IsWhole) (arg2 : Memref sig .tc .vmem S1000x128 .f32) (harg2 : arg2.IsWhole)
    (arg3 : Memref sig .tc .vmem S5000x128 .bf16) (harg3 : arg3.IsWhole) (arg4 : Memref sig .tc .vmem S128x64 .f32) (harg4 : arg4.IsWhole)
    (arg5 : Memref sig .tc .vmem S1x64 .f32) (harg5 : arg5.IsWhole) (arg6 : Memref sig .tc .vmem S64x5000 .f32) (harg6 : arg6.IsWhole)
    (x0 : Vec F S1000x5000 .f32) (x1 : Vec F S1000x128 .f32) (x2 : Vec F S5000x128 .bf16) (x3 : Vec F S128x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1A_5 x0 x1 x2 x3 x4)) -∗ K ⟨⟩))
      ⊢ wp frame (wpE (defs₀ (F := F)) Variants.none c none) E (cc1__pass_b i arg1 harg1 arg2 harg2 arg3 harg3 arg4 harg4 arg5 harg5 arg6 harg6) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

set_option maxHeartbeats 1000000 in
/-- At a later point: the same with the result's buffer at known contents `xo`, left at `out1B_5`. -/
theorem sound_kernel1B (c : Dev nD) (E : Set ℕ) (i : grid1.Coords) (hc1 : ¬ k1_cond1 i = 1#1) (hc2 : k1_cond2 i = 1#1)
    (arg1 : Memref sig .tc .vmem S1000x5000 .f32) (harg1 : arg1.IsWhole) (arg2 : Memref sig .tc .vmem S1000x128 .f32) (harg2 : arg2.IsWhole)
    (arg3 : Memref sig .tc .vmem S5000x128 .bf16) (harg3 : arg3.IsWhole) (arg4 : Memref sig .tc .vmem S128x64 .f32) (harg4 : arg4.IsWhole)
    (arg5 : Memref sig .tc .vmem S1x64 .f32) (harg5 : arg5.IsWhole) (arg6 : Memref sig .tc .vmem S64x5000 .f32) (harg6 : arg6.IsWhole)
    (x0 : Vec F S1000x5000 .f32) (x1 : Vec F S1000x128 .f32) (x2 : Vec F S5000x128 .bf16) (x3 : Vec F S128x64 .f32) (x4 : Vec F S1x64 .f32)
    (xo : Vec F S64x5000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare xo
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1B_5 x0 x1 x2 x3 x4 xo)) -∗ K ⟨⟩))
      ⊢ wp frame (wpE (defs₀ (F := F)) Variants.none c none) E (cc1__pass_b i arg1 harg1 arg2 harg2 arg3 harg3 arg4 harg4 arg5 harg5 arg6 harg6) K := by
  simp only [cc1__pass_b_eq_skeleton]; unfold cc1__pass_b_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the pipeline on core `c`: the arrays as the region finds them; after the body at point `t`
    each input's buffer at its block and the result's at the accumulation; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a later point the result window's current buffer holds what the body left at the point before: the buffer is
    not written back in between, the window is stored into at every point and its block is never cut. -/
theorem before1_5_later (c : Dev nD) (t : Fin cfg1.N) (h0 : t.val ≠ 0) (d) :
    (dat1 V c).before 5 t d = acc1 V c (t.val - 1) (Nat.lt_of_le_of_lt (Nat.sub_le _ _) t.isLt) := by
  have hN : t.val < 10 := lt_of_lt_of_eq t.isLt (show cfg1.N = 10 from N_1)
  rw [Dat.before_out_kept _ 5 rfl t h0 (Bool.eq_false_iff.mpr fun h => by have := (flush1_5 _).mp h; dsimp only at this; omega)
    (hlive1_5) (fun _ _ => rfl)]
  dsimp only [dat1]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val = 0
  · rw [acc1_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1A c Set.univ (grid1.coords t) ((hcond1_first t).mpr h0) (fun h => (hcond1_later t).mp h h0)
      _ _ _ _ _ _ _ _ _ _ _ _ (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_later V c t h0]
    simp only [before1_5_later V c t h0]
    iintro ⟨HΦ, Ho, ⟨%d0, H0⟩, ⟨%d1, H1⟩, ⟨%d2, H2⟩, ⟨%d3, H3⟩, ⟨%d4, H4⟩, ⟨%d5, H5⟩⟩
    iapply (sound_kernel1B c Set.univ (grid1.coords t) (fun h => h0 ((hcond1_first t).mp h)) ((hcond1_later t).mpr h0)
      _ _ _ _ _ _ _ _ _ _ _ _ (iblk1 V c 0 t) (iblk1 V c 1 t) (iblk1 V c 2 t) (iblk1 V c 3 t) (iblk1 V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  simp only [hidle1_5 t]
  exact sound_body1 V c t

end Cert.KernelIdeal.Hand

end
-- ==== Proof.KIR2.lean ====
/- The third pass over the incidence matrix (the last pallas_call), at a parameter `V`: the contents of the
   TensorCore's buffers when the region is entered. At grid point t the body reads rows 1000·t … 1000·t+999 of the
   incidence matrix, the first column of the same rows of the vertex-scaling array and the whole edge-feature matrix,
   and stores the scaled product into rows 1000·t … of the result; it keeps nothing between points. Stated at any
   float instance: what each window's staging buffer holds after the body, the proof data, and the body's triple. -/
import proofs.«151137_g18348100288549_rerun558fix_267_52_alg».proof.Proof.Gen.KernelIdeal.Launch
import proofs.«151137_g18348100288549_rerun558fix_267_52_alg».proof.Proof.Gen.KernelIdeal.Skeleton
import proofs.«151137_g18348100288549_rerun558fix_267_52_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole incidence block. -/
abbrev r2_h : Rect S1000x5000 := Rect.unit (s := S1000x5000) ![0, 0] S1000x5000.size inb_S1000x5000_S1000x5000_0_0
/-- The first column of the scaling block. -/
abbrev r2_d : Rect S1000x128 := Rect.unit (s := S1000x128) ![0, 0] S1000x1.size inb_S1000x128_S1000x1_0_0
/-- The whole edge-feature matrix. -/
abbrev r2_e : Rect S5000x64 := Rect.unit (s := S5000x64) ![0, 0] S5000x64.size inb_S5000x64_S5000x64_0_0
/-- The whole result block. -/
abbrev r2_o : Rect S1000x64 := Rect.unit (s := S1000x64) ![0, 0] S1000x64.size inb_S1000x64_S1000x64_0_0

/-! ## What the body leaves in the result window's buffer -/

/-- The result block after the body, from the three input blocks: its one store. -/
def out2_3 (x0 : Vec F S1000x5000 .f32) (x1 : Vec F S1000x128 .f32) (x2 : Vec F S5000x64 .bf16) : Vec F S1000x64 .f32 :=
  View.canon [⟨r2_o, k2_pay1 (View.ld x0 r2_h) (View.ld x1 r2_d) (View.ld x2 r2_e)⟩]

/-- The one store covers the block. -/
theorem cover2_3 (p0 : Vec F S1000x64 .f32) (y : S1000x64.Idx) :
    ∃ pc ∈ ([⟨r2_o, p0⟩] : List (View.Piece (Elt F) S1000x64 .f32)), y ∈ pc.1.set :=
  View.cover_of_tiled [⟨r2_o, p0⟩] S1000x64.size (by rfl) y

/-! ## The body's triple -/

set_option maxHeartbeats 1000000 in
/-- The body on whole staging memrefs, the inputs' at contents `x·` and the result's at anything, runs to the
    continuation holding the inputs' as they were and the result's at `out2_3`. -/
theorem sound_kernel2 (c : Dev nD) (E : Set ℕ) (i : grid2.Coords) (arg1 : Memref sig .tc .vmem S1000x5000 .f32) (harg1 : arg1.IsWhole)
    (arg2 : Memref sig .tc .vmem S1000x128 .f32) (harg2 : arg2.IsWhole) (arg3 : Memref sig .tc .vmem S5000x64 .bf16) (harg3 : arg3.IsWhole)
    (arg4 : Memref sig .tc .vmem S1000x64 .f32) (harg4 : arg4.IsWhole)
    (x0 : Vec F S1000x5000 .f32) (x1 : Vec F S1000x128 .f32) (x2 : Vec F S5000x64 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__pass_c i arg1 harg1 arg2 harg2 arg3 harg3 arg4 harg4) K := by
  simp only [cc2__pass_c_eq_skeleton]; unfold cc2__pass_c_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the pipeline on core `c`: the arrays as the region finds them; after the body at point `t`
    each input's buffer at its block and the result's at `out2_3` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/- The whole run of the three-pass program: its buffers' contents at every boundary between a stretch of host
   operations and a pallas_call, as a fold from the launch memory; each pallas_call as a segment over those contents
   (its body's triple from the region's own module); and the launch: every weakly fair execution of @main terminates,
   nothing faulting, and the final memory holds every unscoped buffer at the fold's last contents. The frame claim and the
   result array's contents are read off that. Stated at any float instance. -/
import proofs.«151137_g18348100288549_rerun558fix_267_52_alg».proof.Proof.Gen.KernelIdeal.Launch
import proofs.«151137_g18348100288549_rerun558fix_267_52_alg».proof.Proof.Gen.KernelIdeal.Skeleton
import proofs.«151137_g18348100288549_rerun558fix_267_52_alg».proof.Proof.Gen.KernelIdeal.Points
import proofs.«151137_g18348100288549_rerun558fix_267_52_alg».proof.Proof.Gen.KernelIdeal.Regions
import proofs.«151137_g18348100288549_rerun558fix_267_52_alg».proof.Proof.KIR0
import proofs.«151137_g18348100288549_rerun558fix_267_52_alg».proof.Proof.KIR1
import proofs.«151137_g18348100288549_rerun558fix_267_52_alg».proof.Proof.KIR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the two bias reshapes): the first pallas_call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the edge reciprocals folded into the layer-1 edge sums): the second pallas_call's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the same fold for layer 2): the third pallas_call's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- A buffer no operation of a host stretch writes passes through it. -/
theorem W1_of (c : Dev nD) (b : Ref sig .tc) (h : b ∉ hostOps0_W) : W1 m ρ c (Proc.devRef .tc b) = W0 m ρ c (Proc.devRef .tc b) :=
  StableHlo.after_of_writes_sub hostOps0 _ hostOps0_writes h
theorem W3_of (c : Dev nD) (b : Ref sig .tc) (h : b ∉ hostOps1_W) : W3 m ρ c (Proc.devRef .tc b) = W2 m ρ c (Proc.devRef .tc b) :=
  StableHlo.after_of_writes_sub hostOps1 _ hostOps1_writes h
theorem W5_of (c : Dev nD) (b : Ref sig .tc) (h : b ∉ hostOps2_W) : W5 m ρ c (Proc.devRef .tc b) = W4 m ρ c (Proc.devRef .tc b) :=
  StableHlo.after_of_writes_sub hostOps2 _ hostOps2_writes h

/-! ### The arguments end as launched -/

theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_of_ne m ρ c main_arg0 (by decide)).trans <|
  (W3_of m ρ c main_arg0 (by decide)).trans <| (W2_in m ρ c 0 rfl).trans <| (W1_of m ρ c main_arg0 (by decide)).trans rfl
theorem W6_main_arg1 (c : Dev nD) : W6 m ρ c (Proc.devRef .tc main_arg1) = m ((c : Thread nD τ).loc main_arg1) :=
  (W6_in m ρ c 0 rfl).trans <| (W5_of m ρ c main_arg1 (by decide)).trans <| (W4_in m ρ c 0 rfl).trans <|
  (W3_of m ρ c main_arg1 (by decide)).trans <| (W2_in m ρ c 3 rfl).trans <| (W1_of m ρ c main_arg1 (by decide)).trans rfl
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_of_ne m ρ c main_arg2 (by decide)).trans <|
  (W3_of m ρ c main_arg2 (by decide)).trans <| (W2_in m ρ c 1 rfl).trans <| (W1_of m ρ c main_arg2 (by decide)).trans rfl
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of_ne m ρ c main_arg3 (by decide)).trans <|
  (W3_of m ρ c main_arg3 (by decide)).trans <| (W2_of_ne m ρ c main_arg3 (by decide)).trans <| (W1_of m ρ c main_arg3 (by decide)).trans rfl
theorem W6_main_arg4 (c : Dev nD) : W6 m ρ c (Proc.devRef .tc main_arg4) = m ((c : Thread nD τ).loc main_arg4) :=
  (W6_of_ne m ρ c main_arg4 (by decide)).trans <| (W5_of m ρ c main_arg4 (by decide)).trans <| (W4_in m ρ c 3 rfl).trans <|
  (W3_of m ρ c main_arg4 (by decide)).trans <| (W2_of_ne m ρ c main_arg4 (by decide)).trans <| (W1_of m ρ c main_arg4 (by decide)).trans rfl
theorem W6_main_arg5 (c : Dev nD) : W6 m ρ c (Proc.devRef .tc main_arg5) = m ((c : Thread nD τ).loc main_arg5) :=
  (W6_of_ne m ρ c main_arg5 (by decide)).trans <| (W5_of m ρ c main_arg5 (by decide)).trans <| (W4_of_ne m ρ c main_arg5 (by decide)).trans <|
  (W3_of m ρ c main_arg5 (by decide)).trans <| (W2_of_ne m ρ c main_arg5 (by decide)).trans <| (W1_of m ρ c main_arg5 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at `W1`, left at `W2`. Its arrays are
    split out of the unscoped buffers on entry and put back at their final contents on exit; the generator register goes
    into the kernel's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. Its arrays are
    split out of the unscoped buffers on entry and put back at their final contents on exit; the generator register goes
    into the kernel's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left at `W6`. Its arrays are
    split out of the unscoped buffers on entry and put back at their final contents on exit; the generator register goes
    into the kernel's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

/-- THE RESULT beside the frame: the result array ends at what the third pipeline's write-backs leave. -/
theorem run_result : θ_run defs (onTc (τ := τ) (main (F := F))) ⟨m, fun _ => 0, ρ⟩ (fun r => ∀ c : Dev nD,
      r.2.mem ((c.tc : Thread nD τ).loc main_v18) = (dat2 (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v18 (by decide))).trans (W6_arr m ρ c 3),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.KernelIdeal.Hand

end
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.LibKeepdims.lean ====
/- A vector viewed as a one-column array, and a sum over a rank-1 index set: the two index facts a row reduction kept as a
   column (`sum(axis=1, keepdims=True)`) meets. -/
import Idealize.ShloMosaic.Lib.Pipeline.Value
import Idealize.ShloMosaic.Lib.ValueIdx

open Idealize.ShloMosaic Idealize.ShloMosaic.ValueIdx
open scoped BigOperators

namespace Idealize.ShloMosaic.Keepdims

/-- A length-`a` vector viewed as an [a, 1] column reads, at (p, q), the vector at p: both have row-major position p. -/
theorem shapeCast_a_a1_apply {α : Type} {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- An [a, 1] column viewed as a length-`a` vector reads, at p, the column at (p, 0). -/
theorem shapeCast_a1_a_apply {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A sum over a rank-1 index set is the sum over its coordinate. -/
theorem sum_idx1 {M : Type*} [AddCommMonoid M] {n : ℕ} (f : (⟨1, ![n]⟩ : Shape).Idx → M) : ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

end Idealize.ShloMosaic.Keepdims
-- ==== Proof.Spec.lean ====
/- The two stacked hypergraph convolutions as ONE function of the vertex scaling.

   With incidence matrix H (vertices by edges), vertex degrees Dv i = ∑ₘ H i m and edge degrees De m = ∑ᵢ H i m, one
   smoothing step sends a feature matrix Z to  d ⊙ (H · (e ⊙ (Hᵀ · (d ⊙ Z))))  where d i is the inverse square root of
   Dv i + ε and e m the reciprocal of De m + ε.  Two layers: Z₁ = X·W1 + b1, smoothed, clamped below at 0; then
   Z₂ = (that)·W2 + b2, smoothed.  Everything below is a function of an ARBITRARY vertex scaling `d`: the two programs
   compared differ in how they compute it (the inverse square root in one step, or one over the square root) and in
   the order and grouping of sums and products, and agree once the scalings agree. -/
import Idealize.ShloMosaic.PureOps.Ideal

open Idealize.ShloMosaic
open scoped BigOperators

namespace Cert.HgnnSpec

section
variable (X : Fin 10000 → Fin 128 → EReal) (H : Fin 10000 → Fin 5000 → EReal) (W1 : Fin 128 → Fin 128 → EReal)
  (b1 : Fin 128 → EReal) (W2 : Fin 128 → Fin 64 → EReal) (b2 : Fin 64 → EReal) (ε : EReal) (d : Fin 10000 → EReal)

/-- The first layer's affine map, row i, hidden channel c. -/
noncomputable def theta1 (i : Fin 10000) (c : Fin 128) : EReal := (∑ k, X i k * W1 k c) + b1 c

/-- The reciprocal of edge m's degree plus ε. -/
noncomputable def edgeInv (m : Fin 5000) : EReal := Ideal.div 1 ((∑ i, H i m) + ε)

/-- Edge features of layer 1: the scaled vertex features gathered along each edge, divided by the edge's degree. -/
noncomputable def edge1 (m : Fin 5000) (c : Fin 128) : EReal := (∑ i, (theta1 X W1 b1 i c * d i) * H i m) * edgeInv H ε m

/-- The hidden activations: edge features scattered back to the vertices, scaled, clamped below at zero. -/
noncomputable def hidden (i : Fin 10000) (c : Fin 128) : EReal := max ((∑ m, H i m * edge1 X H W1 b1 ε d m c) * d i) 0

/-- The second layer's affine map. -/
noncomputable def theta2 (i : Fin 10000) (c : Fin 64) : EReal := (∑ k, hidden X H W1 b1 ε d i k * W2 k c) + b2 c

/-- Edge features of layer 2. -/
noncomputable def edge2 (m : Fin 5000) (c : Fin 64) : EReal :=
  (∑ i, (theta2 X H W1 b1 W2 b2 ε d i c * d i) * H i m) * edgeInv H ε m

/-- The result: layer 2's edge features scattered back to the vertices and scaled. -/
noncomputable def out (i : Fin 10000) (c : Fin 64) : EReal := d i * ∑ m, H i m * edge2 X H W1 b1 W2 b2 ε d m c

/-- The vertex scaling as the inverse square root taken in one step. -/
noncomputable def scaleRsqrt (i : Fin 10000) : EReal := Ideal.rsqrt ((∑ m, H i m) + ε)

/-- The vertex scaling as one over the square root. -/
noncomputable def scaleDivSqrt (i : Fin 10000) : EReal := Ideal.div 1 (Ideal.sqrt ((∑ m, H i m) + ε))
end

/-- On a nonnegative extended real the inverse square root is one over the square root: at +∞ both are 0, at 0 both
    are +∞, and at a positive real both are the real (√r)⁻¹. (Below zero they differ: ⊥ against 1/⊥ = 0.) -/
theorem rsqrt_eq_div_sqrt {a : EReal} (h : 0 ≤ a) : Ideal.rsqrt a = Ideal.div 1 (Ideal.sqrt a) := by
  induction a using EReal.rec with
  | bot => exact absurd h (by simp)
  | top => simp [Ideal.div]
  | coe r =>
    have hr : 0 ≤ r := by exact_mod_cast h
    rw [Ideal.rsqrt_coe, Ideal.sqrt_coe, if_neg (not_lt.mpr hr), if_neg (not_lt.mpr hr)]
    by_cases h0 : r = 0
    · subst h0; simp [Ideal.div]
    · have hs : Real.sqrt r ≠ 0 := fun e => h0 ((Real.sqrt_eq_zero hr).mp e)
      rw [if_neg h0]
      unfold Ideal.div
      rw [if_neg (by exact_mod_cast hs), one_mul, EReal.coe_inv]

/-- Where every vertex degree plus ε is nonnegative the two scalings agree. -/
theorem scale_eq (H : Fin 10000 → Fin 5000 → EReal) (ε : EReal) (h : ∀ i, 0 ≤ (∑ m, H i m) + ε) :
    scaleRsqrt H ε = scaleDivSqrt H ε :=
  funext fun i => rsqrt_eq_div_sqrt (h i)

end Cert.HgnnSpec
-- ==== Proof.SpecAt.lean ====
/- The specification read over arrays of the programs' literal shapes: the result array, entry (i, c), as the
   two-layer function of the six argument arrays and a choice of vertex scaling. -/
import proofs.«151137_g18348100288549_rerun558fix_267_52_alg».proof.Proof.Spec
import Idealize.ShloMosaic.Lib.ValueIdx

open Idealize.ShloMosaic Idealize.ShloMosaic.ValueIdx
open scoped BigOperators

namespace Cert.HgnnSpec

/-- The stabiliser ε both programs add to a degree before inverting it: the single-precision number nearest 10⁻¹². -/
noncomputable abbrev eps32 : EReal := Ideal.ofBits .f32 0x2B8CBCCC#32

/-- The incidence array as a function of (vertex, edge). -/
abbrev inc (H : (⟨2, ![10000, 5000]⟩ : Shape).Idx → EReal) : Fin 10000 → Fin 5000 → EReal := fun i m => H (ix2 i m)

/-- The result array under the vertex scaling `sc` (a function of the incidence matrix and ε). -/
noncomputable def outOf (sc : (Fin 10000 → Fin 5000 → EReal) → EReal → Fin 10000 → EReal)
    (X : (⟨2, ![10000, 128]⟩ : Shape).Idx → EReal) (H : (⟨2, ![10000, 5000]⟩ : Shape).Idx → EReal)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal) :
    (⟨2, ![10000, 64]⟩ : Shape).Idx → EReal :=
  fun j => out (fun i k => X (ix2 i k)) (inc H) (fun k c => W1 (ix2 k c)) (fun c => b1 (ix1 c))
    (fun k c => W2 (ix2 k c)) (fun c => b2 (ix1 c)) eps32 (sc (inc H) eps32) (j 0) (j 1)

/-- Where every vertex degree plus ε is nonnegative, the result under the one-step inverse square root is the result
    under one over the square root. -/
theorem outOf_scale_eq (X : (⟨2, ![10000, 128]⟩ : Shape).Idx → EReal) (H : (⟨2, ![10000, 5000]⟩ : Shape).Idx → EReal)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (h : ∀ i : Fin 10000, 0 ≤ (∑ m : Fin 5000, H (ix2 i m)) + eps32) :
    outOf scaleRsqrt X H W1 b1 W2 b2 = outOf scaleDivSqrt X H W1 b1 W2 b2 := by
  unfold outOf
  rw [scale_eq (inc H) eps32 h]

end Cert.HgnnSpec
-- ==== Proof.KIV0.lean ====
/- The first pass read as values, at the extended reals: what the three arrays the region writes hold after it, entry by
   entry, as sums and products of the arrays it reads. The scaling array, entry (i, l), is the inverse square root of
   the sum of row i of the incidence array plus ε: each grid point writes rows 1000·t … 1000·t+999 of that one function
   and the ten row blocks tile the array. The edge-degree row, entry (0, q), is the sum of column q of the incidence
   array, and the transposed edge-sum array, entry (p, q), is the sum over the rows i of the affine map of row i at
   channel p, scaled by row i's inverse square root, times the incidence entry (i, q): each is accumulated over the ten
   points — the first point stores its row block's contribution, every later one adds its own — so after point n it
   holds the sum over the rows of the row blocks 0 … n (by induction on n), after the last point the sum over all
   10000 rows, and the one write-back covers the array. -/
import proofs.«151137_g18348100288549_rerun558fix_267_52_alg».proof.Proof.KIR0
import proofs.«151137_g18348100288549_rerun558fix_267_52_alg».proof.Proof.LibSumBlocks
import proofs.«151137_g18348100288549_rerun558fix_267_52_alg».proof.Proof.LibKeepdims
import proofs.«151137_g18348100288549_rerun558fix_267_52_alg».proof.Proof.SpecAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The row sums of a block, kept as a column, plus ε, inverse square root: at row p. -/
theorem pay2_apply (x3 : Vec Ideal S1000x5000 .f32) (p : Fin 1000) (q : Fin 1) :
    k0_pay2 (F := Ideal) x3 (ix2 p q) = Ideal.rsqrt ((∑ m : Fin 5000, x3 (ix2 p m)) + Cert.HgnnSpec.eps32) := by
  unfold k0_pay2
  show Ideal.rsqrt _ = Ideal.rsqrt _
  congr 1
  rw [addf_apply, Keepdims.shapeCast_a_a1_apply]
  refine congrArg₂ (· + ·) ?_ rfl
  refine (Ideal.multiReduction_add_single (φ := .f32) x3 _ reduces_S1000x5000_S1000 _ _ (ix1 p)).trans ?_
  refine Finset.sum_congr rfl fun k _ => congrArg x3 (funext fun a => Fin.ext ?_)
  match a with
  | ⟨0, _⟩ => rfl
  | ⟨1, _⟩ => rfl

/-- The scaling block: that column broadcast along the 128 lanes. -/
theorem pay3_apply (x3 : Vec Ideal S1000x5000 .f32) (p : Fin 1000) (q : Fin 128) :
    k0_pay3 (F := Ideal) x3 (ix2 p q) = Ideal.rsqrt ((∑ m : Fin 5000, x3 (ix2 p m)) + Cert.HgnnSpec.eps32) := by
  unfold k0_pay3
  rw [shapeCast_self]
  refine (broadcastTo_apply _ _ (ix2 p q) (ix2 p (0 : Fin 1)) fun a => ?_).trans (pay2_apply x3 p 0)
  match a with
  | ⟨0, _⟩ => rfl
  | ⟨1, _⟩ => rfl

/-! ## The three block products at an index -/

theorem v0_d1_lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem v0_d1_lhs_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem v0_d1_rhs_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem v0_d1_rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The feature block times the weight matrix into the zero accumulator, entry (p, q): the sum over the 128 input channels. -/
theorem v0_matmul1_apply (a : FVec Ideal S1000x128 .f32) (b : FVec Ideal S128x128 .f32) (p : Fin 1000) (q : Fin 128) :
    matmul dot_S1000x128_S128x128_S1000x128_1_0_0_1_n_n none a b (constant S1000x128 .f32 0x00000000#32) (ix2 p q)
      = ∑ k : Fin 128, a (ix2 p k) * b (ix2 k q) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun a => Fin.ext (by
    match a with
    | ⟨0, _⟩ => exact v0_d1_lhs_0 _ _
    | ⟨1, _⟩ => exact (v0_d1_lhs_1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun a => Fin.ext (by
    match a with
    | ⟨0, _⟩ => exact (v0_d1_rhs_0 _ _).trans hk
    | ⟨1, _⟩ => exact v0_d1_rhs_1 _ _)
  rw [el, er]

theorem v0_d4_lhs_0 (i : S128x5000.Idx) (q : dot_S1000x128_S1000x5000_S128x5000_0_0_1_1_n_n.contr.Idx) :
    (dot_S1000x128_S1000x5000_S128x5000_0_0_1_1_n_n.lhsIdx i q 0).val = (q ⟨0, by decide⟩).val :=
  dot_S1000x128_S1000x5000_S128x5000_0_0_1_1_n_n.lhsIdx_val_of_single rfl i q
theorem v0_d4_lhs_1 (i : S128x5000.Idx) (q : dot_S1000x128_S1000x5000_S128x5000_0_0_1_1_n_n.contr.Idx) :
    (dot_S1000x128_S1000x5000_S128x5000_0_0_1_1_n_n.lhsIdx i q 1).val = (i 0).val := by
  unfold DotDims.lhsIdx
  rw [dif_neg (show ¬(1 : Fin S1000x128.rank) ∈ dot_S1000x128_S1000x5000_S128x5000_0_0_1_1_n_n.lhsBatch by decide), dif_pos (show (1 : Fin S1000x128.rank) ∈ dot_S1000x128_S1000x5000_S128x5000_0_0_1_1_n_n.lhsNonContracting by decide)]
  rfl
theorem v0_d4_rhs_0 (i : S128x5000.Idx) (q : dot_S1000x128_S1000x5000_S128x5000_0_0_1_1_n_n.contr.Idx) :
    (dot_S1000x128_S1000x5000_S128x5000_0_0_1_1_n_n.rhsIdx i q 0).val = (q ⟨0, by decide⟩).val :=
  dot_S1000x128_S1000x5000_S128x5000_0_0_1_1_n_n.rhsIdx_val_of_single rfl i q
theorem v0_d4_rhs_1 (i : S128x5000.Idx) (q : dot_S1000x128_S1000x5000_S128x5000_0_0_1_1_n_n.contr.Idx) :
    (dot_S1000x128_S1000x5000_S128x5000_0_0_1_1_n_n.rhsIdx i q 1).val = (i 1).val := by
  unfold DotDims.rhsIdx
  rw [dif_neg (show ¬(1 : Fin S1000x5000.rank) ∈ dot_S1000x128_S1000x5000_S128x5000_0_0_1_1_n_n.rhsBatch by decide), dif_pos (show (1 : Fin S1000x5000.rank) ∈ dot_S1000x128_S1000x5000_S128x5000_0_0_1_1_n_n.rhsNonContracting by decide)]
  rfl

/-- The scaled block transposed times the incidence block into the zero accumulator, entry (p, q): the sum over the
    block's 1000 rows. -/
theorem v0_matmul4_apply (a : FVec Ideal S1000x128 .bf16) (b : FVec Ideal S1000x5000 .bf16) (p : Fin 128) (q : Fin 5000) :
    matmul dot_S1000x128_S1000x5000_S128x5000_0_0_1_1_n_n none a b (constant S128x5000 .f32 0x00000000#32) (ix2 p q)
      = ∑ r : Fin 1000, a (ix2 r p) * b (ix2 r q) := by
  simp only [matmul]
  rw [Ideal.matmul_constant_zero_apply, ← Equiv.sum_comp (contrEquiv1 dot_S1000x128_S1000x5000_S128x5000_0_0_1_1_n_n 1000 rfl rfl).symm]
  refine Finset.sum_congr rfl fun k _ => ?_
  have hk := contrEquiv1_symm_val dot_S1000x128_S1000x5000_S128x5000_0_0_1_1_n_n 1000 rfl rfl k
  have el : dot_S1000x128_S1000x5000_S128x5000_0_0_1_1_n_n.lhsIdx (ix2 p q) ((contrEquiv1 dot_S1000x128_S1000x5000_S128x5000_0_0_1_1_n_n 1000 rfl rfl).symm k) = ix2 k p := funext fun a => Fin.ext (by
    match a with
    | ⟨0, _⟩ => exact (v0_d4_lhs_0 _ _).trans hk
    | ⟨1, _⟩ => exact v0_d4_lhs_1 _ _)
  have er : dot_S1000x128_S1000x5000_S128x5000_0_0_1_1_n_n.rhsIdx (ix2 p q) ((contrEquiv1 dot_S1000x128_S1000x5000_S128x5000_0_0_1_1_n_n 1000 rfl rfl).symm k) = ix2 k q := funext fun a => Fin.ext (by
    match a with
    | ⟨0, _⟩ => exact (v0_d4_rhs_0 _ _).trans hk
    | ⟨1, _⟩ => exact v0_d4_rhs_1 _ _)
  rw [el, er]

theorem v0_d5_lhs_0 (i : S1x5000.Idx) (q : dot_S1x1000_S1000x5000_S1x5000_1_0_0_1_n_n.contr.Idx) :
    (dot_S1x1000_S1000x5000_S1x5000_1_0_0_1_n_n.lhsIdx i q 0).val = (i 0).val := by
  unfold DotDims.lhsIdx
  rw [dif_neg (show ¬(0 : Fin S1x1000.rank) ∈ dot_S1x1000_S1000x5000_S1x5000_1_0_0_1_n_n.lhsBatch by decide), dif_pos (show (0 : Fin S1x1000.rank) ∈ dot_S1x1000_S1000x5000_S1x5000_1_0_0_1_n_n.lhsNonContracting by decide)]
  rfl
theorem v0_d5_lhs_1 (i : S1x5000.Idx) (q : dot_S1x1000_S1000x5000_S1x5000_1_0_0_1_n_n.contr.Idx) :
    (dot_S1x1000_S1000x5000_S1x5000_1_0_0_1_n_n.lhsIdx i q 1).val = (q ⟨0, by decide⟩).val :=
  dot_S1x1000_S1000x5000_S1x5000_1_0_0_1_n_n.lhsIdx_val_of_single rfl i q
theorem v0_d5_rhs_0 (i : S1x5000.Idx) (q : dot_S1x1000_S1000x5000_S1x5000_1_0_0_1_n_n.contr.Idx) :
    (dot_S1x1000_S1000x5000_S1x5000_1_0_0_1_n_n.rhsIdx i q 0).val = (q ⟨0, by decide⟩).val :=
  dot_S1x1000_S1000x5000_S1x5000_1_0_0_1_n_n.rhsIdx_val_of_single rfl i q
theorem v0_d5_rhs_1 (i : S1x5000.Idx) (q : dot_S1x1000_S1000x5000_S1x5000_1_0_0_1_n_n.contr.Idx) :
    (dot_S1x1000_S1000x5000_S1x5000_1_0_0_1_n_n.rhsIdx i q 1).val = (i 1).val := by
  unfold DotDims.rhsIdx
  rw [dif_neg (show ¬(1 : Fin S1000x5000.rank) ∈ dot_S1x1000_S1000x5000_S1x5000_1_0_0_1_n_n.rhsBatch by decide), dif_pos (show (1 : Fin S1000x5000.rank) ∈ dot_S1x1000_S1000x5000_S1x5000_1_0_0_1_n_n.rhsNonContracting by decide)]
  rfl

/-- A row times the incidence block into the zero accumulator, entry (p, q): the sum over the block's 1000 rows. -/
theorem v0_matmul5_apply (a : FVec Ideal S1x1000 .bf16) (b : FVec Ideal S1000x5000 .bf16) (p : Fin 1) (q : Fin 5000) :
    matmul dot_S1x1000_S1000x5000_S1x5000_1_0_0_1_n_n none a b (constant S1x5000 .f32 0x00000000#32) (ix2 p q)
      = ∑ r : Fin 1000, a (ix2 p r) * b (ix2 r q) := by
  simp only [matmul]
  rw [Ideal.matmul_constant_zero_apply, ← Equiv.sum_comp (contrEquiv1 dot_S1x1000_S1000x5000_S1x5000_1_0_0_1_n_n 1000 rfl rfl).symm]
  refine Finset.sum_congr rfl fun k _ => ?_
  have hk := contrEquiv1_symm_val dot_S1x1000_S1000x5000_S1x5000_1_0_0_1_n_n 1000 rfl rfl k
  have el : dot_S1x1000_S1000x5000_S1x5000_1_0_0_1_n_n.lhsIdx (ix2 p q) ((contrEquiv1 dot_S1x1000_S1000x5000_S1x5000_1_0_0_1_n_n 1000 rfl rfl).symm k) = ix2 p k := funext fun a => Fin.ext (by
    match a with
    | ⟨0, _⟩ => exact v0_d5_lhs_0 _ _
    | ⟨1, _⟩ => exact (v0_d5_lhs_1 _ _).trans hk)
  have er : dot_S1x1000_S1000x5000_S1x5000_1_0_0_1_n_n.rhsIdx (ix2 p q) ((contrEquiv1 dot_S1x1000_S1000x5000_S1x5000_1_0_0_1_n_n 1000 rfl rfl).symm k) = ix2 k q := funext fun a => Fin.ext (by
    match a with
    | ⟨0, _⟩ => exact (v0_d5_rhs_0 _ _).trans hk
    | ⟨1, _⟩ => exact v0_d5_rhs_1 _ _)
  rw [el, er]

/-- The bf16 word 0x3F80 is the number one. -/
theorem v0_one_bf16 : Ideal.ofBits .bf16 0x3F80#16 = 1 := by
  simp [Ideal.ofBits, Ideal.ieee]
  rw [← EReal.coe_mul]
  norm_num

/-! ## The contributions of one row block -/

/-- The block's column sums: the row of ones times the block, entry (0, q). -/
theorem pay5_apply (x3 : Vec Ideal S1000x5000 .f32) (p : Fin 1) (q : Fin 5000) :
    k0_pay5 (F := Ideal) x3 (ix2 p q) = ∑ r : Fin 1000, x3 (ix2 r q) := by
  unfold k0_pay5 k0_pay1
  rw [v0_matmul5_apply]
  refine Finset.sum_congr rfl fun r _ => ?_
  rw [broadcast_apply, truncf_apply]
  show Ideal.ofBits .bf16 0x3F80#16 * _ = _
  rw [v0_one_bf16, one_mul]

/-- The block's contribution to the transposed edge sums, entry (p, q): over the block's rows r, the affine map of row
    r at channel p, scaled by row r's inverse square root, times the incidence entry (r, q). -/
theorem pay4_apply (x3 : Vec Ideal S1000x5000 .f32) (x0 : Vec Ideal S1000x128 .f32) (x1 : Vec Ideal S128x128 .f32)
    (x2 : Vec Ideal S1x128 .f32) (p : Fin 128) (q : Fin 5000) :
    k0_pay4 (F := Ideal) x3 x0 x1 x2 (ix2 p q)
      = ∑ r : Fin 1000, (((∑ k : Fin 128, x0 (ix2 r k) * x1 (ix2 k p)) + x2 (ix2 (0 : Fin 1) p))
          * Ideal.rsqrt ((∑ m : Fin 5000, x3 (ix2 r m)) + Cert.HgnnSpec.eps32)) * x3 (ix2 r q) := by
  unfold k0_pay4 k0_pay1
  rw [v0_matmul4_apply]
  refine Finset.sum_congr rfl fun r _ => ?_
  rw [truncf_apply, truncf_apply, mulf_apply, addf_apply, v0_matmul1_apply, shapeCast_self]
  congr 2
  · congr 1
    refine broadcastTo_apply _ _ _ _ fun a => ?_
    match a with
    | ⟨0, _⟩ => rfl
    | ⟨1, _⟩ => rfl
  · refine (broadcastTo_apply _ _ (ix2 r p) (ix2 r (0 : Fin 1)) fun a => ?_).trans (pay2_apply x3 r 0)
    match a with
    | ⟨0, _⟩ => rfl
    | ⟨1, _⟩ => rfl

/-- At a later point the contribution is added to what the block held. -/
theorem pay6_apply (x3 : Vec Ideal S1000x5000 .f32) (x0 : Vec Ideal S1000x128 .f32) (x1 : Vec Ideal S128x128 .f32)
    (x2 : Vec Ideal S1x128 .f32) (xo : Vec Ideal S128x5000 .f32) (p : Fin 128) (q : Fin 5000) :
    k0_pay6 (F := Ideal) x3 x0 x1 x2 xo (ix2 p q) = xo (ix2 p q) + k0_pay4 (F := Ideal) x3 x0 x1 x2 (ix2 p q) := by
  unfold k0_pay6
  rw [addf_apply, shapeCast_self]

theorem pay7_apply (x3 : Vec Ideal S1000x5000 .f32) (xo : Vec Ideal S1x5000 .f32) (p : Fin 1) (q : Fin 5000) :
    k0_pay7 (F := Ideal) x3 xo (ix2 p q) = xo (ix2 p q) + k0_pay5 (F := Ideal) x3 (ix2 p q) := by
  unfold k0_pay7
  rw [addf_apply, shapeCast_self]

/-! ## The windows' blocks as rows of their arrays -/

theorem v0_hz : (![0, 0] : Fin 2 → Nat) = fun _ => 0 := funext fun a => by fin_cases a <;> rfl

variable (V : (c : Dev nD) → (b : Ref sig .tc) → Buf (Elt Ideal) ((c : Thread nD τ).loc b))

/-- The printed index maps over the grid: the feature, incidence and scaling windows sit at row block t, first column
    block; the weight, bias and the two edge windows at block (0, 0). -/
theorem v0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The feature block at point t is rows 1000·t … 1000·t+999 of the feature array. -/
theorem v0_iblk0_apply (c : Dev nD) (t : Fin cfg0.N) (z : S1000x128.Idx) (k : S10000x128.Idx)
    (hk0 : (k 0).val = 1000 * t.val + (z 0).val) (hk1 : (k 1).val = (z 1).val) :
    (iblk0 V c 0 t : Vec Ideal S1000x128 .f32) z = V c main_arg0 k := by
  obtain ⟨e0, e1, -⟩ := v0_idx_facts t
  unfold iblk0
  rw [View.read_apply]
  show V c main_arg0 _ = V c main_arg0 _
  congr 1
  funext a
  apply Fin.ext
  match a with
  | ⟨0, _⟩ => show win0_0.index t 0 * 1000 + 1 * (z 0).val = (k 0).val; rw [e0, hk0]; omega
  | ⟨1, _⟩ => show win0_0.index t 1 * 128 + 1 * (z 1).val = (k 1).val; rw [e1, hk1]; omega

/-- The weight block at every point is the whole first weight matrix. -/
theorem v0_iblk1_apply (c : Dev nD) (t : Fin cfg0.N) (z : S128x128.Idx) :
    (iblk0 V c 1 t : Vec Ideal S128x128 .f32) z = V c main_arg2 z := by
  obtain ⟨-, -, e0, e1, -⟩ := v0_idx_facts t
  unfold iblk0
  rw [View.read_apply]
  show V c main_arg2 _ = V c main_arg2 _
  congr 1
  funext a
  apply Fin.ext
  match a with
  | ⟨0, _⟩ => show win0_1.index t 0 * 128 + 1 * (z 0).val = (z 0).val; rw [e0]; omega
  | ⟨1, _⟩ => show win0_1.index t 1 * 128 + 1 * (z 1).val = (z 1).val; rw [e1]; omega

/-- The bias block at every point is the whole bias row. -/
theorem v0_iblk2_apply (c : Dev nD) (t : Fin cfg0.N) (z : S1x128.Idx) :
    (iblk0 V c 2 t : Vec Ideal S1x128 .f32) z = V c main_v0 z := by
  obtain ⟨-, -, -, -, e0, e1, -⟩ := v0_idx_facts t
  unfold iblk0
  rw [View.read_apply]
  show V c main_v0 _ = V c main_v0 _
  congr 1
  funext a
  apply Fin.ext
  match a with
  | ⟨0, _⟩ => show win0_2.index t 0 * 1 + 1 * (z 0).val = (z 0).val; rw [e0]; omega
  | ⟨1, _⟩ => show win0_2.index t 1 * 128 + 1 * (z 1).val = (z 1).val; rw [e1]; omega

/-- The incidence block at point t is rows 1000·t … 1000·t+999 of the incidence array. -/
theorem v0_iblk3_apply (c : Dev nD) (t : Fin cfg0.N) (z : S1000x5000.Idx) (k : S10000x5000.Idx)
    (hk0 : (k 0).val = 1000 * t.val + (z 0).val) (hk1 : (k 1).val = (z 1).val) :
    (iblk0 V c 3 t : Vec Ideal S1000x5000 .f32) z = V c main_arg1 k := by
  obtain ⟨-, -, -, -, -, -, e0, e1, -⟩ := v0_idx_facts t
  unfold iblk0
  rw [View.read_apply]
  show V c main_arg1 _ = V c main_arg1 _
  congr 1
  funext a
  apply Fin.ext
  match a with
  | ⟨0, _⟩ => show win0_3.index t 0 * 1000 + 1 * (z 0).val = (k 0).val; rw [e0, hk0]; omega
  | ⟨1, _⟩ => show win0_3.index t 1 * 5000 + 1 * (z 1).val = (k 1).val; rw [e1, hk1]; omega

/-! ## The scaling array -/

/-- The scaling block after the body at entry (p, q), from the staged incidence block. -/
theorem v0_out6_apply (x3 : Vec Ideal S1000x5000 .f32) (p : Fin 1000) (q : Fin 128) :
    out0_6 x3 (ix2 p q) = Ideal.rsqrt ((∑ m : Fin 5000, x3 (ix2 p m)) + Cert.HgnnSpec.eps32) := by
  unfold out0_6
  rw [View.canon_unit_zero v0_hz, View.ld_unit_zero (S := S1000x5000) v0_hz, pay3_apply]

/-- The same at an index of the block. -/
theorem v0_out6_apply' (x3 : Vec Ideal S1000x5000 .f32) (z : S1000x128.Idx) :
    out0_6 x3 z = Ideal.rsqrt ((∑ m : Fin 5000, x3 (ix2 (z 0) m)) + Cert.HgnnSpec.eps32) :=
  (congrArg (out0_6 x3) (eq_ix2 z)).trans (v0_out6_apply x3 (z 0) (z 1))

/-- The scaling array as a function of the incidence array: entry (i, l) is the inverse square root of row i's sum plus ε,
    the same along the 128 lanes. -/
def v0_6_val (H : S10000x5000.Idx → EReal) : S10000x128.Idx → EReal :=
  fun j => Ideal.rsqrt ((∑ m : Fin 5000, H (ix2 (j 0) m)) + Cert.HgnnSpec.eps32)

/-- That function at entry (i, q). -/
theorem v0_6_val_apply (H : S10000x5000.Idx → EReal) (i : Fin 10000) (q : Fin 128) :
    v0_6_val H (ix2 i q) = Ideal.rsqrt ((∑ m : Fin 5000, H (ix2 i m)) + Cert.HgnnSpec.eps32) := rfl

/-- That function of the incidence array as the region finds it. -/
abbrev v0_6_G (c : Dev nD) : S10000x128.Idx → EReal := v0_6_val (V c main_arg1)

/-- What point t writes back to the scaling array is block t of that function. -/
theorem v0_6_flushed_eq (c : Dev nD) (t : Fin cfg0.N) :
    (dat0 (F := Ideal) V c).flushed 6 t = ((cfg0.win 6).blk t).view.read (Elt Ideal) (v0_6_G V c) := by
  show (cfg0.win 6).cut (grid0.coords t) ((dat0 V c).after 6 t) = _
  rw [after0_6]
  obtain ⟨-, -, -, -, -, -, -, -, -, -, -, -, e0, e1⟩ := v0_idx_facts t
  funext y
  refine (v0_out6_apply' _ _).trans ?_
  show _ = v0_6_G V c (((cfg0.win 6).blk t).view.emb y)
  unfold v0_6_G v0_6_val
  have h0 : ((((cfg0.win 6).blk t).view.emb y) 0).val = 1000 * t.val + (y 0).val := by
    show win0_6.index t 0 * 1000 + 1 * (y 0).val = _; rw [e0]; omega
  congr 2
  refine Finset.sum_congr rfl fun m _ => ?_
  exact v0_iblk3_apply V c t _ (ix2 ((((cfg0.win 6).blk t).view.emb y) 0) m) h0 rfl

/-- An index of the scaling array is in point t's block iff each coordinate is in the block's range on its axis. -/
theorem v0_6_mem_blk (t : Fin cfg0.N) (i : S10000x128.Idx) :
    i ∈ ((cfg0.win 6).blk t).view.set ↔ ∀ a : Fin 2, win0_6.index t a * S1000x128.size a ≤ (i a).val
      ∧ (i a).val < win0_6.index t a * S1000x128.size a + S1000x128.size a := by
  show i ∈ ((View.whole main_v2_2).slice (win0_6.rect t)).set ↔ _
  rw [View.set_slice_whole, Rect.mem_set_unit]
  exact Iff.rfl

/-- The ten row blocks tile the scaling array: row i lies in the block of point i / 1000. -/
theorem v0_6_cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have ht : (i 0).val / 1000 < cfg0.N := by rw [show cfg0.N = 10 from N_0]; omega
  obtain ⟨-, -, -, -, -, -, -, -, -, -, -, -, e0, e1⟩ := v0_idx_facts ⟨(i 0).val / 1000, ht⟩
  refine ⟨⟨(i 0).val / 1000, ht⟩, flush0_6 _, ?_⟩
  rw [v0_6_mem_blk]
  intro a
  match a with
  | ⟨0, _⟩ =>
    show win0_6.index ⟨(i 0).val / 1000, ht⟩ 0 * 1000 ≤ (i 0).val
      ∧ (i 0).val < win0_6.index ⟨(i 0).val / 1000, ht⟩ 0 * 1000 + 1000
    rw [e0]
    show (i 0).val / 1000 * 1000 ≤ (i 0).val ∧ (i 0).val < (i 0).val / 1000 * 1000 + 1000
    omega
  | ⟨1, _⟩ =>
    show win0_6.index ⟨(i 0).val / 1000, ht⟩ 1 * 128 ≤ (i 1).val
      ∧ (i 1).val < win0_6.index ⟨(i 0).val / 1000, ht⟩ 1 * 128 + 128
    rw [e1]
    omega

/-- THE SCALING ARRAY after the region: entry (i, l) is the inverse square root of the sum of row i of the incidence
    array plus ε. -/
theorem final0_6 (c : Dev nD) :
    (dat0 (F := Ideal) V c).arrAt 6 cfg0.N = v0_6_val (V c main_arg1) :=
  (dat0 (F := Ideal) V c).arrAt_eq_of_cover 6 (v0_6_G V c) (fun t _ => v0_6_flushed_eq V c t) v0_6_cover

/-! ## The edge degrees -/

/-- The edge-degree row at the first point, entry (0, q): the block's column sums. -/
theorem v0_out5A_apply (x3 : Vec Ideal S1000x5000 .f32) (p : Fin 1) (q : Fin 5000) :
    out0A_5 x3 (ix2 p q) = ∑ r : Fin 1000, x3 (ix2 r q) := by
  unfold out0A_5
  rw [View.canon_unit_zero v0_hz, View.ld_unit_zero (S := S1000x5000) v0_hz, pay5_apply]

/-- At a later point: what the row held plus the block's column sums. -/
theorem v0_out5B_apply (x3 : Vec Ideal S1000x5000 .f32) (xo : Vec Ideal S1x5000 .f32) (p : Fin 1) (q : Fin 5000) :
    out0B_5 x3 xo (ix2 p q) = xo (ix2 p q) + ∑ r : Fin 1000, x3 (ix2 r q) := by
  unfold out0B_5
  rw [View.canon_unit_zero v0_hz, View.ld_unit_zero (S := S1000x5000) v0_hz, View.ld_unit_zero (S := S1x5000) v0_hz,
    pay7_apply, pay5_apply]

/-- Row r of row block n is a row of the whole array. -/
theorem v0_row_lt {n : ℕ} (hn : n < cfg0.N) (r : Fin 1000) : n * 1000 + r.val < 10000 := by
  have hN : cfg0.N = 10 := N_0
  have := r.isLt
  omega

/-- Row r of row block n, as a row of the whole array. -/
abbrev v0_row {n : ℕ} (hn : n < cfg0.N) (r : Fin 1000) : Fin 10000 := ⟨n * 1000 + r.val, v0_row_lt hn r⟩

/-- Column q of the incidence array summed over the rows of the row blocks 0 … n. -/
def v0_5_upto (H : S10000x5000.Idx → EReal) (q : Fin 5000) (n : ℕ) (hn : n < cfg0.N) : EReal :=
  ∑ s : Fin (n + 1), ∑ r : Fin 1000, H (ix2 (v0_row (lt_of_le_of_lt (Nat.lt_succ_iff.mp s.isLt) hn) r) q)

theorem v0_5_upto_zero (H : S10000x5000.Idx → EReal) (q : Fin 5000) (hn : 0 < cfg0.N) :
    v0_5_upto H q 0 hn = ∑ r : Fin 1000, H (ix2 (v0_row hn r) q) := by
  unfold v0_5_upto
  exact Fin.sum_univ_one _

theorem v0_5_upto_succ (H : S10000x5000.Idx → EReal) (q : Fin 5000) (n : ℕ) (hn : n + 1 < cfg0.N) :
    v0_5_upto H q (n + 1) hn = v0_5_upto H q n (Nat.lt_of_succ_lt hn) + ∑ r : Fin 1000, H (ix2 (v0_row hn r) q) := by
  unfold v0_5_upto
  exact Fin.sum_univ_castSucc _

/-- The edge-degree row after the body at point n, entry (0, q): the column sums of the row blocks 0 … n. -/
theorem v0_acc5_apply (c : Dev nD) (p : Fin 1) (q : Fin 5000) : ∀ (n : ℕ) (hn : n < cfg0.N),
    acc0_5 V c n hn (ix2 p q) = v0_5_upto (V c main_arg1) q n hn
  | 0, hn => by
    show out0A_5 (iblk0 V c 3 ⟨0, hn⟩) (ix2 p q) = _
    rw [v0_out5A_apply, v0_5_upto_zero]
    refine Finset.sum_congr rfl fun r _ => ?_
    exact v0_iblk3_apply V c ⟨0, hn⟩ _ _ (by show 0 * 1000 + r.val = 1000 * 0 + r.val; omega) rfl
  | n + 1, hn => by
    show out0B_5 (iblk0 V c 3 ⟨n + 1, hn⟩) (acc0_5 V c n (Nat.lt_of_succ_lt hn)) (ix2 p q) = _
    rw [v0_out5B_apply, v0_acc5_apply c p q n (Nat.lt_of_succ_lt hn), v0_5_upto_succ]
    congr 1
    refine Finset.sum_congr rfl fun r _ => ?_
    exact v0_iblk3_apply V c ⟨n + 1, hn⟩ _ _ (by show (n + 1) * 1000 + r.val = 1000 * (n + 1) + r.val; omega) rfl

/-- The same at an index of the block. -/
theorem v0_acc5_apply' (c : Dev nD) (n : ℕ) (hn : n < cfg0.N) (z : S1x5000.Idx) :
    acc0_5 V c n hn z = v0_5_upto (V c main_arg1) (z 1) n hn :=
  (congrArg (acc0_5 V c n hn) (eq_ix2 z)).trans (v0_acc5_apply V c (z 0) (z 1) n hn)

/-- After the last point the row blocks 0 … 9 are all the rows. -/
theorem v0_5_upto_last (H : S10000x5000.Idx → EReal) (q : Fin 5000) (hn : 9 < cfg0.N) :
    v0_5_upto H q 9 hn = ∑ i : Fin 10000, H (ix2 i q) := by
  unfold v0_5_upto
  exact (Fin.sum_rowMajor2 10 1000 (fun i => H (ix2 i q))).symm

/-- The edge-degree array as a function of the incidence array: entry (0, q) is the sum of column q. -/
def v0_5_val (H : S10000x5000.Idx → EReal) : S1x5000.Idx → EReal :=
  fun j => ∑ i : Fin 10000, H (ix2 i (j 1))

/-- That function at entry (p, q). -/
theorem v0_5_val_apply (H : S10000x5000.Idx → EReal) (p : Fin 1) (q : Fin 5000) :
    v0_5_val H (ix2 p q) = ∑ i : Fin 10000, H (ix2 i q) := rfl

/-- That function of the incidence array as the region finds it. -/
abbrev v0_5_G (c : Dev nD) : S1x5000.Idx → EReal := v0_5_val (V c main_arg1)

/-- The one write-back, after the last point, writes that function: the block is the whole array. -/
theorem v0_5_flushed_eq (c : Dev nD) (t : Fin cfg0.N) (hf : (cfg0.win 5).flush t = true) :
    (dat0 (F := Ideal) V c).flushed 5 t = ((cfg0.win 5).blk t).view.read (Elt Ideal) (v0_5_G V c) := by
  have hN : cfg0.N = 10 := N_0
  have h9 : t.val = 9 := by have := (flush0_5 t).mp hf; have := t.isLt; omega
  show (cfg0.win 5).cut (grid0.coords t) ((dat0 V c).after 5 t) = _
  rw [after0_5]
  obtain ⟨-, -, -, -, -, -, -, -, -, -, e0, e1, -⟩ := v0_idx_facts t
  obtain ⟨n, hn⟩ := t
  obtain rfl : n = 9 := h9
  funext y
  refine (v0_acc5_apply' V c 9 hn y).trans ?_
  refine (v0_5_upto_last _ _ hn).trans ?_
  show _ = v0_5_G V c (((cfg0.win 5).blk ⟨9, hn⟩).view.emb y)
  unfold v0_5_G v0_5_val
  refine Finset.sum_congr rfl fun i _ => ?_
  congr 2
  apply Fin.ext
  show (y 1).val = win0_5.index ⟨9, hn⟩ 1 * 5000 + 1 * (y 1).val
  rw [e1]; omega

/-- An index of the edge-degree array is in point t's block iff each coordinate is in the block's range on its axis. -/
theorem v0_5_mem_blk (t : Fin cfg0.N) (i : S1x5000.Idx) :
    i ∈ ((cfg0.win 5).blk t).view.set ↔ ∀ a : Fin 2, win0_5.index t a * S1x5000.size a ≤ (i a).val
      ∧ (i a).val < win0_5.index t a * S1x5000.size a + S1x5000.size a := by
  show i ∈ ((View.whole main_v2_1).slice (win0_5.rect t)).set ↔ _
  rw [View.set_slice_whole, Rect.mem_set_unit]
  exact Iff.rfl

/-- The last point's block covers the edge-degree array. -/
theorem v0_5_cover (i : S1x5000.Idx) :
    ∃ t : Fin cfg0.N, (cfg0.win 5).flush t = true ∧ i ∈ ((cfg0.win 5).blk t).view.set := by
  have hi0 : (i 0).val < 1 := (i 0).isLt
  have hi1 : (i 1).val < 5000 := (i 1).isLt
  obtain ⟨-, -, -, -, -, -, -, -, -, -, e0, e1, -⟩ := v0_idx_facts t0_9
  refine ⟨t0_9, (flush0_5 t0_9).mpr rfl, ?_⟩
  rw [v0_5_mem_blk]
  intro a
  match a with
  | ⟨0, _⟩ =>
    show win0_5.index t0_9 0 * 1 ≤ (i 0).val ∧ (i 0).val < win0_5.index t0_9 0 * 1 + 1
    rw [e0]; omega
  | ⟨1, _⟩ =>
    show win0_5.index t0_9 1 * 5000 ≤ (i 1).val ∧ (i 1).val < win0_5.index t0_9 1 * 5000 + 5000
    rw [e1]; omega

/-- THE EDGE-DEGREE ARRAY after the region: entry (0, q) is the sum of column q of the incidence array. -/
theorem final0_5 (c : Dev nD) :
    (dat0 (F := Ideal) V c).arrAt 5 cfg0.N = v0_5_val (V c main_arg1) :=
  (dat0 (F := Ideal) V c).arrAt_eq_of_cover 5 (v0_5_G V c) (v0_5_flushed_eq V c) v0_5_cover

/-! ## The transposed layer-1 edge sums -/

/-- Row r's term of a row block's contribution to the transposed edge sum (p, q): the affine map of row r at channel p,
    scaled by row r's inverse square root, times the incidence entry (r, q). -/
def v0_4_blkterm (x0 : Vec Ideal S1000x128 .f32) (x1 : Vec Ideal S128x128 .f32) (x2 : Vec Ideal S1x128 .f32)
    (x3 : Vec Ideal S1000x5000 .f32) (p : Fin 128) (q : Fin 5000) (r : Fin 1000) : EReal :=
  (((∑ k : Fin 128, x0 (ix2 r k) * x1 (ix2 k p)) + x2 (ix2 (0 : Fin 1) p))
    * Ideal.rsqrt ((∑ m : Fin 5000, x3 (ix2 r m)) + Cert.HgnnSpec.eps32)) * x3 (ix2 r q)

/-- The transposed edge sums at the first point, entry (p, q): the row block's contribution. -/
theorem v0_out4A_apply (x0 : Vec Ideal S1000x128 .f32) (x1 : Vec Ideal S128x128 .f32) (x2 : Vec Ideal S1x128 .f32)
    (x3 : Vec Ideal S1000x5000 .f32) (p : Fin 128) (q : Fin 5000) :
    out0A_4 x0 x1 x2 x3 (ix2 p q) = ∑ r : Fin 1000, v0_4_blkterm x0 x1 x2 x3 p q r := by
  unfold out0A_4 v0_4_blkterm
  rw [View.canon_unit_zero v0_hz, View.ld_unit_zero (S := S1000x5000) v0_hz, View.ld_unit_zero (S := S1000x128) v0_hz,
    View.ld_unit_zero (S := S128x128) v0_hz, View.ld_unit_zero (S := S1x128) v0_hz, pay4_apply]

/-- At a later point: what the block held plus the row block's contribution. -/
theorem v0_out4B_apply (x0 : Vec Ideal S1000x128 .f32) (x1 : Vec Ideal S128x128 .f32) (x2 : Vec Ideal S1x128 .f32)
    (x3 : Vec Ideal S1000x5000 .f32) (xo : Vec Ideal S128x5000 .f32) (p : Fin 128) (q : Fin 5000) :
    out0B_4 x0 x1 x2 x3 xo (ix2 p q) = xo (ix2 p q) + ∑ r : Fin 1000, v0_4_blkterm x0 x1 x2 x3 p q r := by
  unfold out0B_4 v0_4_blkterm
  rw [View.canon_unit_zero v0_hz, View.ld_unit_zero (S := S1000x5000) v0_hz, View.ld_unit_zero (S := S1000x128) v0_hz,
    View.ld_unit_zero (S := S128x128) v0_hz, View.ld_unit_zero (S := S1x128) v0_hz, View.ld_unit_zero (S := S128x5000) v0_hz,
    pay6_apply, pay4_apply]

/-- Row i's term of the transposed edge sum (p, q): the affine map of row i at channel p, scaled by row i's inverse
    square root, times the incidence entry (i, q). -/
def v0_4_term (X : S10000x128.Idx → EReal) (W : S128x128.Idx → EReal) (B : S1x128.Idx → EReal) (H : S10000x5000.Idx → EReal)
    (p : Fin 128) (q : Fin 5000) (i : Fin 10000) : EReal :=
  (((∑ k : Fin 128, X (ix2 i k) * W (ix2 k p)) + B (ix2 (0 : Fin 1) p))
    * Ideal.rsqrt ((∑ m : Fin 5000, H (ix2 i m)) + Cert.HgnnSpec.eps32)) * H (ix2 i q)

/-- Row r of the blocks at point t gives row 1000·t + r's term. -/
theorem v0_4_term_blk (c : Dev nD) (t : Fin cfg0.N) (p : Fin 128) (q : Fin 5000) (r : Fin 1000) :
    v0_4_blkterm (iblk0 V c 0 t) (iblk0 V c 1 t) (iblk0 V c 2 t) (iblk0 V c 3 t) p q r
    = v0_4_term (V c main_arg0) (V c main_arg2) (V c main_v0) (V c main_arg1) p q (v0_row t.isLt r) := by
  have h0 : (v0_row t.isLt r).val = 1000 * t.val + r.val := by show t.val * 1000 + r.val = _; omega
  unfold v0_4_term v0_4_blkterm
  refine congrArg₂ (· * ·) (congrArg₂ (· * ·) (congrArg₂ (· + ·) ?_ ?_) (congrArg Ideal.rsqrt (congrArg₂ (· + ·) ?_ rfl))) ?_
  · refine Finset.sum_congr rfl fun k _ => ?_
    rw [v0_iblk0_apply V c t (ix2 r k) (ix2 (v0_row t.isLt r) k) h0 rfl, v0_iblk1_apply]
  · exact v0_iblk2_apply V c t _
  · refine Finset.sum_congr rfl fun m _ => ?_
    exact v0_iblk3_apply V c t (ix2 r m) (ix2 (v0_row t.isLt r) m) h0 rfl
  · exact v0_iblk3_apply V c t (ix2 r q) (ix2 (v0_row t.isLt r) q) h0 rfl

/-- The terms of the rows of the row blocks 0 … n, summed. -/
def v0_4_upto (X : S10000x128.Idx → EReal) (W : S128x128.Idx → EReal) (B : S1x128.Idx → EReal) (H : S10000x5000.Idx → EReal)
    (p : Fin 128) (q : Fin 5000) (n : ℕ) (hn : n < cfg0.N) : EReal :=
  ∑ s : Fin (n + 1), ∑ r : Fin 1000, v0_4_term X W B H p q (v0_row (lt_of_le_of_lt (Nat.lt_succ_iff.mp s.isLt) hn) r)

theorem v0_4_upto_zero (X : S10000x128.Idx → EReal) (W : S128x128.Idx → EReal) (B : S1x128.Idx → EReal)
    (H : S10000x5000.Idx → EReal) (p : Fin 128) (q : Fin 5000) (hn : 0 < cfg0.N) :
    v0_4_upto X W B H p q 0 hn = ∑ r : Fin 1000, v0_4_term X W B H p q (v0_row hn r) := by
  unfold v0_4_upto
  exact Fin.sum_univ_one _

theorem v0_4_upto_succ (X : S10000x128.Idx → EReal) (W : S128x128.Idx → EReal) (B : S1x128.Idx → EReal)
    (H : S10000x5000.Idx → EReal) (p : Fin 128) (q : Fin 5000) (n : ℕ) (hn : n + 1 < cfg0.N) :
    v0_4_upto X W B H p q (n + 1) hn
      = v0_4_upto X W B H p q n (Nat.lt_of_succ_lt hn) + ∑ r : Fin 1000, v0_4_term X W B H p q (v0_row hn r) := by
  unfold v0_4_upto
  exact Fin.sum_univ_castSucc _

/-- The transposed edge sums after the body at point n, entry (p, q): the terms of the rows of the row blocks 0 … n. -/
theorem v0_acc4_apply (c : Dev nD) (p : Fin 128) (q : Fin 5000) : ∀ (n : ℕ) (hn : n < cfg0.N),
    acc0_4 V c n hn (ix2 p q) = v0_4_upto (V c main_arg0) (V c main_arg2) (V c main_v0) (V c main_arg1) p q n hn
  | 0, hn => by
    show out0A_4 (iblk0 V c 0 ⟨0, hn⟩) (iblk0 V c 1 ⟨0, hn⟩) (iblk0 V c 2 ⟨0, hn⟩) (iblk0 V c 3 ⟨0, hn⟩) (ix2 p q) = _
    rw [v0_out4A_apply, v0_4_upto_zero]
    exact Finset.sum_congr rfl fun r _ => v0_4_term_blk V c ⟨0, hn⟩ p q r
  | n + 1, hn => by
    show out0B_4 (iblk0 V c 0 ⟨n + 1, hn⟩) (iblk0 V c 1 ⟨n + 1, hn⟩) (iblk0 V c 2 ⟨n + 1, hn⟩) (iblk0 V c 3 ⟨n + 1, hn⟩)
      (acc0_4 V c n (Nat.lt_of_succ_lt hn)) (ix2 p q) = _
    rw [v0_out4B_apply, v0_acc4_apply c p q n (Nat.lt_of_succ_lt hn), v0_4_upto_succ]
    refine congrArg₂ (· + ·) rfl ?_
    exact Finset.sum_congr rfl fun r _ => v0_4_term_blk V c ⟨n + 1, hn⟩ p q r

/-- The same at an index of the block. -/
theorem v0_acc4_apply' (c : Dev nD) (n : ℕ) (hn : n < cfg0.N) (z : S128x5000.Idx) :
    acc0_4 V c n hn z = v0_4_upto (V c main_arg0) (V c main_arg2) (V c main_v0) (V c main_arg1) (z 0) (z 1) n hn :=
  (congrArg (acc0_4 V c n hn) (eq_ix2 z)).trans (v0_acc4_apply V c (z 0) (z 1) n hn)

/-- After the last point the row blocks 0 … 9 are all the rows. -/
theorem v0_4_upto_last (X : S10000x128.Idx → EReal) (W : S128x128.Idx → EReal) (B : S1x128.Idx → EReal)
    (H : S10000x5000.Idx → EReal) (p : Fin 128) (q : Fin 5000) (hn : 9 < cfg0.N) :
    v0_4_upto X W B H p q 9 hn = ∑ i : Fin 10000, v0_4_term X W B H p q i := by
  unfold v0_4_upto
  exact (Fin.sum_rowMajor2 10 1000 (fun i => v0_4_term X W B H p q i)).symm

/-- The transposed edge-sum array as a function of the features, the weights, the bias row and the incidence array:
    entry (p, q) is the sum over the rows i of row i's term. -/
def v0_4_val (X : S10000x128.Idx → EReal) (W : S128x128.Idx → EReal) (B : S1x128.Idx → EReal) (H : S10000x5000.Idx → EReal) :
    S128x5000.Idx → EReal :=
  fun j => ∑ i : Fin 10000, (((∑ k : Fin 128, X (ix2 i k) * W (ix2 k (j 0))) + B (ix2 (0 : Fin 1) (j 0)))
    * Ideal.rsqrt ((∑ m : Fin 5000, H (ix2 i m)) + Cert.HgnnSpec.eps32)) * H (ix2 i (j 1))

/-- That function at entry (p, q). -/
theorem v0_4_val_apply (X : S10000x128.Idx → EReal) (W : S128x128.Idx → EReal) (B : S1x128.Idx → EReal)
    (H : S10000x5000.Idx → EReal) (p : Fin 128) (q : Fin 5000) :
    v0_4_val X W B H (ix2 p q) = ∑ i : Fin 10000, (((∑ k : Fin 128, X (ix2 i k) * W (ix2 k p)) + B (ix2 (0 : Fin 1) p))
      * Ideal.rsqrt ((∑ m : Fin 5000, H (ix2 i m)) + Cert.HgnnSpec.eps32)) * H (ix2 i q) := rfl

/-- That function of the four arrays as the region finds them. -/
abbrev v0_4_G (c : Dev nD) : S128x5000.Idx → EReal :=
  v0_4_val (V c main_arg0) (V c main_arg2) (V c main_v0) (V c main_arg1)

/-- The one write-back, after the last point, writes that function: the block is the whole array. -/
theorem v0_4_flushed_eq (c : Dev nD) (t : Fin cfg0.N) (hf : (cfg0.win 4).flush t = true) :
    (dat0 (F := Ideal) V c).flushed 4 t = ((cfg0.win 4).blk t).view.read (Elt Ideal) (v0_4_G V c) := by
  have hN : cfg0.N = 10 := N_0
  have h9 : t.val = 9 := by have := (flush0_4 t).mp hf; have := t.isLt; omega
  show (cfg0.win 4).cut (grid0.coords t) ((dat0 V c).after 4 t) = _
  rw [after0_4]
  obtain ⟨-, -, -, -, -, -, -, -, e0, e1, -⟩ := v0_idx_facts t
  obtain ⟨n, hn⟩ := t
  obtain rfl : n = 9 := h9
  funext y
  refine (v0_acc4_apply' V c 9 hn y).trans ?_
  refine (v0_4_upto_last _ _ _ _ _ _ hn).trans ?_
  show _ = v0_4_G V c (((cfg0.win 4).blk ⟨9, hn⟩).view.emb y)
  have h0 : ((((cfg0.win 4).blk ⟨9, hn⟩).view.emb y) 0) = y 0 := by
    apply Fin.ext
    show win0_4.index ⟨9, hn⟩ 0 * 128 + 1 * (y 0).val = (y 0).val
    rw [e0]; omega
  have h1 : ((((cfg0.win 4).blk ⟨9, hn⟩).view.emb y) 1) = y 1 := by
    apply Fin.ext
    show win0_4.index ⟨9, hn⟩ 1 * 5000 + 1 * (y 1).val = (y 1).val
    rw [e1]; omega
  unfold v0_4_G v0_4_val v0_4_term
  rw [h0, h1]

/-- An index of the edge-sum array is in point t's block iff each coordinate is in the block's range on its axis. -/
theorem v0_4_mem_blk (t : Fin cfg0.N) (i : S128x5000.Idx) :
    i ∈ ((cfg0.win 4).blk t).view.set ↔ ∀ a : Fin 2, win0_4.index t a * S128x5000.size a ≤ (i a).val
      ∧ (i a).val < win0_4.index t a * S128x5000.size a + S128x5000.size a := by
  show i ∈ ((View.whole main_v2_0).slice (win0_4.rect t)).set ↔ _
  rw [View.set_slice_whole, Rect.mem_set_unit]
  exact Iff.rfl

/-- The last point's block covers the edge-sum array. -/
theorem v0_4_cover (i : S128x5000.Idx) :
    ∃ t : Fin cfg0.N, (cfg0.win 4).flush t = true ∧ i ∈ ((cfg0.win 4).blk t).view.set := by
  have hi0 : (i 0).val < 128 := (i 0).isLt
  have hi1 : (i 1).val < 5000 := (i 1).isLt
  obtain ⟨-, -, -, -, -, -, -, -, e0, e1, -⟩ := v0_idx_facts t0_9
  refine ⟨t0_9, (flush0_4 t0_9).mpr rfl, ?_⟩
  rw [v0_4_mem_blk]
  intro a
  match a with
  | ⟨0, _⟩ =>
    show win0_4.index t0_9 0 * 128 ≤ (i 0).val ∧ (i 0).val < win0_4.index t0_9 0 * 128 + 128
    rw [e0]; omega
  | ⟨1, _⟩ =>
    show win0_4.index t0_9 1 * 5000 ≤ (i 1).val ∧ (i 1).val < win0_4.index t0_9 1 * 5000 + 5000
    rw [e1]; omega

/-- THE TRANSPOSED EDGE-SUM ARRAY after the region: entry (p, q) is the sum over the rows i of the affine map of row i at
    channel p, scaled by row i's inverse square root, times the incidence entry (i, q). -/
theorem final0_4 (c : Dev nD) :
    (dat0 (F := Ideal) V c).arrAt 4 cfg0.N = v0_4_val (V c main_arg0) (V c main_arg2) (V c main_v0) (V c main_arg1) :=
  (dat0 (F := Ideal) V c).arrAt_eq_of_cover 4 (v0_4_G V c) (v0_4_flushed_eq V c) v0_4_cover

end Cert.KernelIdeal.Hand

end
-- ==== Proof.KIV1.lean ====
/- The middle pass's result array, index by index: the transposed layer-2 edge sums as sums and products of the
   arrays the region finds. -/
import proofs.«151137_g18348100288549_rerun558fix_267_52_alg».proof.Proof.KIR1
import proofs.«151137_g18348100288549_rerun558fix_267_52_alg».proof.Proof.LibSumBlocks
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The three matrix products of the body, each read at an index -/

/-- The incidence block times the layer-1 edge matrix: the row axis of the left operand is the result's. -/
theorem lhs_mmA_0 (i : S1000x128.Idx) (q : dot_S1000x5000_S5000x128_S1000x128_1_0_0_1_n_n.contr.Idx) :
    (dot_S1000x5000_S5000x128_S1000x128_1_0_0_1_n_n.lhsIdx i q 0).val = (i 0).val := by
  unfold DotDims.lhsIdx
  rw [dif_neg (show ¬(0 : Fin S1000x5000.rank) ∈ dot_S1000x5000_S5000x128_S1000x128_1_0_0_1_n_n.lhsBatch by decide), dif_pos (show (0 : Fin S1000x5000.rank) ∈ dot_S1000x5000_S5000x128_S1000x128_1_0_0_1_n_n.lhsNonContracting by decide)]
  rfl
theorem lhs_mmA_1 (i : S1000x128.Idx) (q : dot_S1000x5000_S5000x128_S1000x128_1_0_0_1_n_n.contr.Idx) :
    (dot_S1000x5000_S5000x128_S1000x128_1_0_0_1_n_n.lhsIdx i q 1).val = (q ⟨0, by decide⟩).val :=
  dot_S1000x5000_S5000x128_S1000x128_1_0_0_1_n_n.lhsIdx_val_of_single rfl i q
theorem rhs_mmA_0 (i : S1000x128.Idx) (q : dot_S1000x5000_S5000x128_S1000x128_1_0_0_1_n_n.contr.Idx) :
    (dot_S1000x5000_S5000x128_S1000x128_1_0_0_1_n_n.rhsIdx i q 0).val = (q ⟨0, by decide⟩).val :=
  dot_S1000x5000_S5000x128_S1000x128_1_0_0_1_n_n.rhsIdx_val_of_single rfl i q
theorem rhs_mmA_1 (i : S1000x128.Idx) (q : dot_S1000x5000_S5000x128_S1000x128_1_0_0_1_n_n.contr.Idx) :
    (dot_S1000x5000_S5000x128_S1000x128_1_0_0_1_n_n.rhsIdx i q 1).val = (i 1).val := by
  unfold DotDims.rhsIdx
  rw [dif_neg (show ¬(1 : Fin S5000x128.rank) ∈ dot_S1000x5000_S5000x128_S1000x128_1_0_0_1_n_n.rhsBatch by decide), dif_pos (show (1 : Fin S5000x128.rank) ∈ dot_S1000x5000_S5000x128_S1000x128_1_0_0_1_n_n.rhsNonContracting by decide)]
  rfl

/-- Entry (p, k) of the first product: the sum over the 5000 edges. -/
theorem mmA_apply (a : FVec Ideal S1000x5000 .bf16) (b : FVec Ideal S5000x128 .bf16) (p : Fin 1000) (k : Fin 128) :
    matmul dot_S1000x5000_S5000x128_S1000x128_1_0_0_1_n_n none a b (constant S1000x128 .f32 0x00000000#32) (ix2 p k)
      = ∑ m : Fin 5000, a (ix2 p m) * b (ix2 m k) := by
  simp only [matmul]
  rw [Ideal.matmul_constant_zero_apply, ← Equiv.sum_comp (contrEquiv1 dot_S1000x5000_S5000x128_S1000x128_1_0_0_1_n_n 5000 rfl rfl).symm]
  refine Finset.sum_congr rfl fun m _ => ?_
  have hk := contrEquiv1_symm_val dot_S1000x5000_S5000x128_S1000x128_1_0_0_1_n_n 5000 rfl rfl m
  have el : dot_S1000x5000_S5000x128_S1000x128_1_0_0_1_n_n.lhsIdx (ix2 p k) ((contrEquiv1 dot_S1000x5000_S5000x128_S1000x128_1_0_0_1_n_n 5000 rfl rfl).symm m) = ix2 p m := funext fun a => Fin.ext (by
    match a with
    | ⟨0, _⟩ => exact lhs_mmA_0 _ _
    | ⟨1, _⟩ => exact (lhs_mmA_1 _ _).trans hk)
  have er : dot_S1000x5000_S5000x128_S1000x128_1_0_0_1_n_n.rhsIdx (ix2 p k) ((contrEquiv1 dot_S1000x5000_S5000x128_S1000x128_1_0_0_1_n_n 5000 rfl rfl).symm m) = ix2 m k := funext fun a => Fin.ext (by
    match a with
    | ⟨0, _⟩ => exact (rhs_mmA_0 _ _).trans hk
    | ⟨1, _⟩ => exact rhs_mmA_1 _ _)
  rw [el, er]

/-- The clamped hidden block times the second weight matrix. -/
theorem lhs_mmB_0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs_mmB_1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
theorem rhs_mmB_0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
theorem rhs_mmB_1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- Entry (p, q) of the second product: the sum over the 128 hidden channels. -/
theorem mmB_apply (a : FVec Ideal S1000x128 .f32) (b : FVec Ideal S128x64 .f32) (p : Fin 1000) (q : Fin 64) :
    matmul dot_S1000x128_S128x64_S1000x64_1_0_0_1_n_n none a b (constant S1000x64 .f32 0x00000000#32) (ix2 p q)
      = ∑ k : Fin 128, a (ix2 p k) * b (ix2 k q) := by
  simp only [matmul]
  rw [Ideal.matmul_constant_zero_apply, ← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 p q) ((contrEquiv1 dot_S1000x128_S128x64_S1000x64_1_0_0_1_n_n 128 rfl rfl).symm k) = ix2 p k := funext fun a => Fin.ext (by
    match a with
    | ⟨0, _⟩ => exact lhs_mmB_0 _ _
    | ⟨1, _⟩ => exact (lhs_mmB_1 _ _).trans hk)
  have er : dot_S1000x128_S128x64_S1000x64_1_0_0_1_n_n.rhsIdx (ix2 p q) ((contrEquiv1 dot_S1000x128_S128x64_S1000x64_1_0_0_1_n_n 128 rfl rfl).symm k) = ix2 k q := funext fun a => Fin.ext (by
    match a with
    | ⟨0, _⟩ => exact (rhs_mmB_0 _ _).trans hk
    | ⟨1, _⟩ => exact rhs_mmB_1 _ _)
  rw [el, er]

/-- The scaled layer-2 block, transposed, times the incidence block: both operands are contracted along their rows. -/
theorem lhs_mmC_0 (i : S64x5000.Idx) (q : dot_S1000x64_S1000x5000_S64x5000_0_0_1_1_n_n.contr.Idx) :
    (dot_S1000x64_S1000x5000_S64x5000_0_0_1_1_n_n.lhsIdx i q 0).val = (q ⟨0, by decide⟩).val :=
  dot_S1000x64_S1000x5000_S64x5000_0_0_1_1_n_n.lhsIdx_val_of_single rfl i q
theorem lhs_mmC_1 (i : S64x5000.Idx) (q : dot_S1000x64_S1000x5000_S64x5000_0_0_1_1_n_n.contr.Idx) :
    (dot_S1000x64_S1000x5000_S64x5000_0_0_1_1_n_n.lhsIdx i q 1).val = (i 0).val := by
  unfold DotDims.lhsIdx
  rw [dif_neg (show ¬(1 : Fin S1000x64.rank) ∈ dot_S1000x64_S1000x5000_S64x5000_0_0_1_1_n_n.lhsBatch by decide), dif_pos (show (1 : Fin S1000x64.rank) ∈ dot_S1000x64_S1000x5000_S64x5000_0_0_1_1_n_n.lhsNonContracting by decide)]
  rfl
theorem rhs_mmC_0 (i : S64x5000.Idx) (q : dot_S1000x64_S1000x5000_S64x5000_0_0_1_1_n_n.contr.Idx) :
    (dot_S1000x64_S1000x5000_S64x5000_0_0_1_1_n_n.rhsIdx i q 0).val = (q ⟨0, by decide⟩).val :=
  dot_S1000x64_S1000x5000_S64x5000_0_0_1_1_n_n.rhsIdx_val_of_single rfl i q
theorem rhs_mmC_1 (i : S64x5000.Idx) (q : dot_S1000x64_S1000x5000_S64x5000_0_0_1_1_n_n.contr.Idx) :
    (dot_S1000x64_S1000x5000_S64x5000_0_0_1_1_n_n.rhsIdx i q 1).val = (i 1).val := by
  unfold DotDims.rhsIdx
  rw [dif_neg (show ¬(1 : Fin S1000x5000.rank) ∈ dot_S1000x64_S1000x5000_S64x5000_0_0_1_1_n_n.rhsBatch by decide), dif_pos (show (1 : Fin S1000x5000.rank) ∈ dot_S1000x64_S1000x5000_S64x5000_0_0_1_1_n_n.rhsNonContracting by decide)]
  rfl

/-- Entry (q, e) of the third product: the sum over the block's 1000 rows. -/
theorem mmC_apply (a : FVec Ideal S1000x64 .bf16) (b : FVec Ideal S1000x5000 .bf16) (q : Fin 64) (e : Fin 5000) :
    matmul dot_S1000x64_S1000x5000_S64x5000_0_0_1_1_n_n none a b (constant S64x5000 .f32 0x00000000#32) (ix2 q e)
      = ∑ r : Fin 1000, a (ix2 r q) * b (ix2 r e) := by
  simp only [matmul]
  rw [Ideal.matmul_constant_zero_apply, ← Equiv.sum_comp (contrEquiv1 dot_S1000x64_S1000x5000_S64x5000_0_0_1_1_n_n 1000 rfl rfl).symm]
  refine Finset.sum_congr rfl fun r _ => ?_
  have hk := contrEquiv1_symm_val dot_S1000x64_S1000x5000_S64x5000_0_0_1_1_n_n 1000 rfl rfl r
  have el : dot_S1000x64_S1000x5000_S64x5000_0_0_1_1_n_n.lhsIdx (ix2 q e) ((contrEquiv1 dot_S1000x64_S1000x5000_S64x5000_0_0_1_1_n_n 1000 rfl rfl).symm r) = ix2 r q := funext fun a => Fin.ext (by
    match a with
    | ⟨0, _⟩ => exact (lhs_mmC_0 _ _).trans hk
    | ⟨1, _⟩ => exact lhs_mmC_1 _ _)
  have er : dot_S1000x64_S1000x5000_S64x5000_0_0_1_1_n_n.rhsIdx (ix2 q e) ((contrEquiv1 dot_S1000x64_S1000x5000_S64x5000_0_0_1_1_n_n 1000 rfl rfl).symm r) = ix2 r e := funext fun a => Fin.ext (by
    match a with
    | ⟨0, _⟩ => exact (rhs_mmC_0 _ _).trans hk
    | ⟨1, _⟩ => exact rhs_mmC_1 _ _)
  rw [el, er]

/-! ## The body's layout operations at an index -/

/-- A column broadcast along 128 lanes reads the column. -/
theorem bc_col128 (v : S1000x1.Idx → EReal) (h : S1000x1.Broadcasts S1000x128) (p : Fin 1000) (k : Fin 128) :
    broadcastTo S1000x128 v h (ix2 p k) = v (ix2 p (0 : Fin 1)) :=
  broadcastTo_apply v h (ix2 p k) (ix2 p (0 : Fin 1)) (fun a => match a with | ⟨0, _⟩ => rfl | ⟨1, _⟩ => rfl)

/-- A column broadcast along 64 lanes reads the column. -/
theorem bc_col64 (v : S1000x1.Idx → EReal) (h : S1000x1.Broadcasts S1000x64) (p : Fin 1000) (q : Fin 64) :
    broadcastTo S1000x64 v h (ix2 p q) = v (ix2 p (0 : Fin 1)) :=
  broadcastTo_apply v h (ix2 p q) (ix2 p (0 : Fin 1)) (fun a => match a with | ⟨0, _⟩ => rfl | ⟨1, _⟩ => rfl)

/-- A row broadcast down 1000 rows reads the row. -/
theorem bc_row64 (v : S1x64.Idx → EReal) (h : S1x64.Broadcasts S1000x64) (p : Fin 1000) (q : Fin 64) :
    broadcastTo S1000x64 v h (ix2 p q) = v (ix2 (0 : Fin 1) q) :=
  broadcastTo_apply v h (ix2 p q) (ix2 (0 : Fin 1) q) (fun a => match a with | ⟨0, _⟩ => rfl | ⟨1, _⟩ => rfl)

/-! ## One row block's contribution -/

/-- The stored value at (q, e), from the loaded vectors: the sum over the block's rows of the scaled layer-2 feature
    times the incidence entry. -/
theorem pay1_apply (v0 : S1000x5000.Idx → EReal) (v2 : S1000x1.Idx → EReal) (v4 : S5000x128.Idx → EReal)
    (v11 : S128x64.Idx → EReal) (v13 : S1x64.Idx → EReal) (q : Fin 64) (e : Fin 5000) :
    k1_pay1 (F := Ideal) v0 v2 v4 v11 v13 (ix2 q e)
      = ∑ r : Fin 1000,
          (((∑ k : Fin 128, max ((∑ m : Fin 5000, v0 (ix2 r m) * v4 (ix2 m k)) * v2 (ix2 r (0 : Fin 1))) (0 : EReal) * v11 (ix2 k q))
              + v13 (ix2 (0 : Fin 1) q)) * v2 (ix2 r (0 : Fin 1))) * v0 (ix2 r e) := by
  unfold k1_pay1
  simp only [shapeCast_self]
  rw [mmC_apply]
  refine Finset.sum_congr rfl fun r _ => ?_
  rw [truncf_apply, truncf_apply, mulf_apply, addf_apply, mmB_apply, bc_row64, bc_col64]
  congr 3
  refine Finset.sum_congr rfl fun k _ => ?_
  rw [maximumf_apply, mulf_apply, mmA_apply, bc_col128, broadcast_apply]
  rw [show (FloatOps.ofBits (F := Ideal) FTy.f32 0x00000000#32) = (0 : EReal) from Ideal.ofBits_zero_f32]
  rfl

/-! ## What the body leaves in the result block -/

theorem v1_hz : (![0, 0] : Fin 2 → Nat) = fun _ => 0 := funext fun a => by fin_cases a <;> rfl

/-- One row block's contribution from the five staged blocks: at (q, e) the sum over the block's rows r of
    ((∑ₖ max((∑ₘ H r m · M m k) · d r, 0) · W k q) + b q) · d r · H r e, d the first lane of the scaling block. -/
def v1_ctr (x0 : S1000x5000.Idx → EReal) (x1 : S1000x128.Idx → EReal) (x2 : S5000x128.Idx → EReal)
    (x3 : S128x64.Idx → EReal) (x4 : S1x64.Idx → EReal) : S64x5000.Idx → EReal := fun j =>
  ∑ r : Fin 1000,
    (((∑ k : Fin 128, max ((∑ m : Fin 5000, x0 (ix2 r m) * x2 (ix2 m k)) * x1 (ix2 r (0 : Fin 128))) (0 : EReal) * x3 (ix2 k (j 0)))
        + x4 (ix2 (0 : Fin 1) (j 0))) * x1 (ix2 r (0 : Fin 128))) * x0 (ix2 r (j 1))

/-- The stored value over the loaded blocks is that contribution. -/
theorem pay1_ld_eq (x0 : S1000x5000.Idx → EReal) (x1 : S1000x128.Idx → EReal) (x2 : S5000x128.Idx → EReal)
    (x3 : S128x64.Idx → EReal) (x4 : S1x64.Idx → EReal) :
    k1_pay1 (F := Ideal) (View.ld x0 r1_h) (View.ld x1 r1_d) (View.ld x2 r1_m) (View.ld x3 r1_w) (View.ld x4 r1_b)
      = v1_ctr x0 x1 x2 x3 x4 := by
  rw [View.ld_unit_zero (S := S1000x5000) v1_hz, View.ld_unit_zero (S := S5000x128) v1_hz,
    View.ld_unit_zero (S := S128x64) v1_hz, View.ld_unit_zero (S := S1x64) v1_hz]
  funext j
  obtain ⟨q, e, rfl⟩ : ∃ q e, j = ix2 q e := ⟨j 0, j 1, eq_ix2 j⟩
  rw [pay1_apply]
  unfold v1_ctr
  refine Finset.sum_congr rfl fun r _ => ?_
  have hd : View.ld (Val := Elt Ideal) (e' := .f32) x1 r1_d (ix2 r (0 : Fin 1)) = x1 (ix2 r (0 : Fin 128)) := by
    show x1 _ = x1 _
    congr 1
    funext a
    apply Fin.ext
    match a with
    | ⟨0, _⟩ => show 0 + 1 * r.val = r.val; omega
    | ⟨1, _⟩ => rfl
  rw [hd]

/-- At the first point the block holds the contribution. -/
theorem out1A_eq (x0 : S1000x5000.Idx → EReal) (x1 : S1000x128.Idx → EReal) (x2 : S5000x128.Idx → EReal)
    (x3 : S128x64.Idx → EReal) (x4 : S1x64.Idx → EReal) :
    out1A_5 (F := Ideal) x0 x1 x2 x3 x4 = v1_ctr x0 x1 x2 x3 x4 := by
  unfold out1A_5
  rw [View.canon_unit_zero v1_hz, pay1_ld_eq]

/-- At a later point it holds what it held plus the contribution. -/
theorem out1B_eq (x0 : S1000x5000.Idx → EReal) (x1 : S1000x128.Idx → EReal) (x2 : S5000x128.Idx → EReal)
    (x3 : S128x64.Idx → EReal) (x4 : S1x64.Idx → EReal) (xo : S64x5000.Idx → EReal) :
    out1B_5 (F := Ideal) x0 x1 x2 x3 x4 xo = fun j => xo j + v1_ctr x0 x1 x2 x3 x4 j := by
  unfold out1B_5
  rw [View.canon_unit_zero v1_hz]
  unfold k1_pay2
  simp only [shapeCast_self]
  rw [pay1_ld_eq, View.ld_unit_zero (S := S64x5000) v1_hz]
  rfl

/-! ## The windows' blocks as parts of their arrays -/

variable (V : (c : Dev nD) → (b : Ref sig .tc) → Buf (Elt Ideal) ((c : Thread nD τ).loc b))

/-- The printed index maps over the grid: the incidence and scaling windows sit at row block t, first column block;
    the edge-feature, weight, bias and result windows at block (0, 0). -/
theorem v1_idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The incidence block at point t is rows 1000·t … 1000·t+999 of the incidence array. -/
theorem v1_iblk0_apply (c : Dev nD) (t : Fin cfg1.N) (z : S1000x5000.Idx) (k : S10000x5000.Idx)
    (hk0 : (k 0).val = t.val * 1000 + (z 0).val) (hk1 : (k 1).val = (z 1).val) :
    (iblk1 V c 0 t : Vec Ideal S1000x5000 .f32) z = V c main_arg1 k := by
  obtain ⟨e00, e01, -⟩ := v1_idx_facts t
  unfold iblk1
  rw [View.read_apply]
  show V c main_arg1 _ = V c main_arg1 _
  congr 1
  funext a
  apply Fin.ext
  match a with
  | ⟨0, _⟩ => show win1_0.index t 0 * 1000 + 1 * (z 0).val = (k 0).val; rw [e00, hk0]; omega
  | ⟨1, _⟩ => show win1_0.index t 1 * 5000 + 1 * (z 1).val = (k 1).val; rw [e01, hk1]; omega

/-- The scaling block at point t is rows 1000·t … 1000·t+999 of the scaling array. -/
theorem v1_iblk1_apply (c : Dev nD) (t : Fin cfg1.N) (z : S1000x128.Idx) (k : S10000x128.Idx)
    (hk0 : (k 0).val = t.val * 1000 + (z 0).val) (hk1 : (k 1).val = (z 1).val) :
    (iblk1 V c 1 t : Vec Ideal S1000x128 .f32) z = V c main_v2_2 k := by
  obtain ⟨-, -, e10, e11, -⟩ := v1_idx_facts t
  unfold iblk1
  rw [View.read_apply]
  show V c main_v2_2 _ = V c main_v2_2 _
  congr 1
  funext a
  apply Fin.ext
  match a with
  | ⟨0, _⟩ => show win1_1.index t 0 * 1000 + 1 * (z 0).val = (k 0).val; rw [e10, hk0]; omega
  | ⟨1, _⟩ => show win1_1.index t 1 * 128 + 1 * (z 1).val = (k 1).val; rw [e11, hk1]; omega

/-- The edge-feature block at every point is the whole layer-1 edge-feature array. -/
theorem v1_iblk2_apply (c : Dev nD) (t : Fin cfg1.N) (z : S5000x128.Idx) :
    (iblk1 V c 2 t : Vec Ideal S5000x128 .bf16) z = V c main_v12 z := by
  obtain ⟨-, -, -, -, e20, e21, -⟩ := v1_idx_facts t
  unfold iblk1
  rw [View.read_apply]
  show V c main_v12 _ = V c main_v12 _
  congr 1
  funext a
  apply Fin.ext
  match a with
  | ⟨0, _⟩ => show win1_2.index t 0 * 5000 + 1 * (z 0).val = (z 0).val; rw [e20]; omega
  | ⟨1, _⟩ => show win1_2.index t 1 * 128 + 1 * (z 1).val = (z 1).val; rw [e21]; omega

/-- The weight block at every point is the whole second weight matrix. -/
theorem v1_iblk3_apply (c : Dev nD) (t : Fin cfg1.N) (z : S128x64.Idx) :
    (iblk1 V c 3 t : Vec Ideal S128x64 .f32) z = V c main_arg4 z := by
  obtain ⟨-, -, -, -, -, -, e30, e31, -⟩ := v1_idx_facts t
  unfold iblk1
  rw [View.read_apply]
  show V c main_arg4 _ = V c main_arg4 _
  congr 1
  funext a
  apply Fin.ext
  match a with
  | ⟨0, _⟩ => show win1_3.index t 0 * 128 + 1 * (z 0).val = (z 0).val; rw [e30]; omega
  | ⟨1, _⟩ => show win1_3.index t 1 * 64 + 1 * (z 1).val = (z 1).val; rw [e31]; omega

/-- The bias block at every point is the whole second bias row. -/
theorem v1_iblk4_apply (c : Dev nD) (t : Fin cfg1.N) (z : S1x64.Idx) :
    (iblk1 V c 4 t : Vec Ideal S1x64 .f32) z = V c main_v1 z := by
  obtain ⟨-, -, -, -, -, -, -, -, e40, e41, -⟩ := v1_idx_facts t
  unfold iblk1
  rw [View.read_apply]
  show V c main_v1 _ = V c main_v1 _
  congr 1
  funext a
  apply Fin.ext
  match a with
  | ⟨0, _⟩ => show win1_4.index t 0 * 1 + 1 * (z 0).val = (z 0).val; rw [e40]; omega
  | ⟨1, _⟩ => show win1_4.index t 1 * 64 + 1 * (z 1).val = (z 1).val; rw [e41]; omega

/-! ## The accumulation over the ten points -/

/-- One vertex's term of the result at (q, e), from the five arrays the region reads:
    ((∑ₖ max((∑ₘ H i m · M m k) · d i, 0) · W k q) + b q) · d i · H i e, with d i the first lane of the scaling array's row i. -/
def v1_row (H : S10000x5000.Idx → EReal) (D : S10000x128.Idx → EReal) (M : S5000x128.Idx → EReal)
    (W : S128x64.Idx → EReal) (B : S1x64.Idx → EReal) (i : Fin 10000) (j : S64x5000.Idx) : EReal :=
  (((∑ k : Fin 128, max ((∑ m : Fin 5000, H (ix2 i m) * M (ix2 m k)) * D (ix2 i (0 : Fin 128))) (0 : EReal) * W (ix2 k (j 0)))
      + B (ix2 (0 : Fin 1) (j 0))) * D (ix2 i (0 : Fin 128))) * H (ix2 i (j 1))

/-- Point s's contribution, over the blocks the point is handed. -/
def v1_pt (c : Dev nD) (s : ℕ) (hs : s < cfg1.N) : S64x5000.Idx → EReal :=
  v1_ctr (iblk1 V c 0 ⟨s, hs⟩) (iblk1 V c 1 ⟨s, hs⟩) (iblk1 V c 2 ⟨s, hs⟩) (iblk1 V c 3 ⟨s, hs⟩) (iblk1 V c 4 ⟨s, hs⟩)

/-- After the body at position n the result block holds the sum of the contributions of points 0 … n. -/
theorem v1_acc_apply (c : Dev nD) : ∀ (n : ℕ) (hn : n < cfg1.N) (j : S64x5000.Idx),
    acc1 (F := Ideal) V c n hn j = ∑ s : Fin (n + 1), v1_pt V c s.val (Nat.lt_of_lt_of_le s.isLt hn) j
  | 0, hn, j => by
    show out1A_5 (F := Ideal) (iblk1 V c 0 ⟨0, hn⟩) (iblk1 V c 1 ⟨0, hn⟩) (iblk1 V c 2 ⟨0, hn⟩) (iblk1 V c 3 ⟨0, hn⟩) (iblk1 V c 4 ⟨0, hn⟩) j = _
    rw [out1A_eq, Fin.sum_univ_one]
    rfl
  | n + 1, hn, j => by
    show out1B_5 (F := Ideal) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (acc1 V c n (Nat.lt_of_succ_lt hn)) j = _
    rw [out1B_eq]
    show acc1 V c n (Nat.lt_of_succ_lt hn) j + v1_pt V c (n + 1) hn j = _
    rw [v1_acc_apply c n (Nat.lt_of_succ_lt hn) j]
    exact (Fin.sum_univ_castSucc (fun s : Fin (n + 1 + 1) => v1_pt V c s.val (Nat.lt_of_lt_of_le s.isLt hn) j)).symm

/-- The incidence block at point s, row r, is row 1000·s + r of the incidence array. -/
theorem v1_iblk0_ix (c : Dev nD) (s : ℕ) (hs : s < cfg1.N) (r : Fin 1000) (hi : s * 1000 + r.val < 10000) (m : Fin 5000) :
    (iblk1 V c 0 ⟨s, hs⟩ : Vec Ideal S1000x5000 .f32) (ix2 r m) = V c main_arg1 (ix2 (⟨s * 1000 + r.val, hi⟩ : Fin 10000) m) :=
  v1_iblk0_apply V c ⟨s, hs⟩ _ _ rfl rfl

/-- The scaling block at point s, row r, is row 1000·s + r of the scaling array. -/
theorem v1_iblk1_ix (c : Dev nD) (s : ℕ) (hs : s < cfg1.N) (r : Fin 1000) (hi : s * 1000 + r.val < 10000) (l : Fin 128) :
    (iblk1 V c 1 ⟨s, hs⟩ : Vec Ideal S1000x128 .f32) (ix2 r l) = V c main_v2_2 (ix2 (⟨s * 1000 + r.val, hi⟩ : Fin 10000) l) :=
  v1_iblk1_apply V c ⟨s, hs⟩ _ _ rfl rfl

/-- Point s's contribution is the sum of the terms of vertices 1000·s … 1000·s+999. -/
theorem v1_pt_apply (c : Dev nD) (s : ℕ) (hs : s < cfg1.N) (hs' : s < 10) (j : S64x5000.Idx) :
    v1_pt V c s hs j = ∑ r : Fin 1000,
      v1_row (V c main_arg1) (V c main_v2_2) (V c main_v12) (V c main_arg4) (V c main_v1) ⟨s * 1000 + r.val, by omega⟩ j := by
  unfold v1_pt v1_ctr v1_row
  refine Finset.sum_congr rfl fun r _ => ?_
  have hi : s * 1000 + r.val < 10000 := by omega
  simp only [v1_iblk0_ix V c s hs r hi, v1_iblk1_ix V c s hs r hi, v1_iblk2_apply, v1_iblk3_apply, v1_iblk4_apply]
  rw [v1_iblk0_apply V c ⟨s, hs⟩ (ix2 r (j 1)) (ix2 (⟨s * 1000 + r.val, hi⟩ : Fin 10000) (j 1)) rfl rfl]

/-! ## The result array -/

/-- The result array as one function of the five arrays the region reads: entry (q, e) is the sum over the 10000
    vertices of the vertex's term. -/
def v1_val (H : S10000x5000.Idx → EReal) (D : S10000x128.Idx → EReal) (M : S5000x128.Idx → EReal)
    (W : S128x64.Idx → EReal) (B : S1x64.Idx → EReal) : S64x5000.Idx → EReal :=
  fun j => ∑ i : Fin 10000, v1_row H D M W B i j

/-- That function of the incidence, scaling, edge-feature, weight and bias arrays as the region finds them. -/
abbrev v1_G (c : Dev nD) : S64x5000.Idx → EReal :=
  v1_val (V c main_arg1) (V c main_v2_2) (V c main_v12) (V c main_arg4) (V c main_v1)

/-- The ten points' contributions add up to it: a sum over ten blocks of a thousand rows is the sum over the rows. -/
theorem v1_total (c : Dev nD) (n : ℕ) (hn : n < cfg1.N) (h9 : n = 9) (j : S64x5000.Idx) :
    ∑ s : Fin (n + 1), v1_pt V c s.val (Nat.lt_of_lt_of_le s.isLt hn) j = v1_G V c j := by
  subst h9
  symm
  refine (Fin.sum_rowMajor2 10 1000 (fun i => v1_row (V c main_arg1) (V c main_v2_2) (V c main_v12) (V c main_arg4) (V c main_v1) i j)).trans ?_
  refine Finset.sum_congr rfl fun s _ => ?_
  exact (v1_pt_apply V c s.val _ s.isLt j).symm

/-- What the last point writes back is the whole of that function: the block is the array. -/
theorem v1_flushed_eq (c : Dev nD) (t : Fin cfg1.N) (hf : (cfg1.win 5).flush t = true) :
    (dat1 (F := Ideal) V c).flushed 5 t = ((cfg1.win 5).blk t).view.read (Elt Ideal) (v1_G V c) := by
  show (cfg1.win 5).cut (grid1.coords t) ((dat1 V c).after 5 t) = _
  rw [after1_5]
  have hN : t.val < 10 := lt_of_lt_of_eq t.isLt (show cfg1.N = 10 from N_1)
  have h9 : t.val = 9 := by have := (flush1_5 t).mp hf; omega
  obtain ⟨-, -, -, -, -, -, -, -, -, -, e50, e51⟩ := v1_idx_facts t
  funext y
  refine (v1_acc_apply V c t.val t.isLt y).trans ?_
  refine (v1_total V c t.val t.isLt h9 y).trans ?_
  show _ = v1_G V c (((cfg1.win 5).blk t).view.emb y)
  congr 1
  funext a
  apply Fin.ext
  match a with
  | ⟨0, _⟩ => show (y 0).val = win1_5.index t 0 * 64 + 1 * (y 0).val; rw [e50]; omega
  | ⟨1, _⟩ => show (y 1).val = win1_5.index t 1 * 5000 + 1 * (y 1).val; rw [e51]; omega

/-- An index of the result array is in point t's block iff each coordinate is in the block's range on its axis. -/
theorem v1_mem_blk (t : Fin cfg1.N) (i : S64x5000.Idx) :
    i ∈ ((cfg1.win 5).blk t).view.set ↔ ∀ a : Fin 2, win1_5.index t a * S64x5000.size a ≤ (i a).val
      ∧ (i a).val < win1_5.index t a * S64x5000.size a + S64x5000.size a := by
  show i ∈ ((View.whole main_v13).slice (win1_5.rect t)).set ↔ _
  rw [View.set_slice_whole, Rect.mem_set_unit]
  exact Iff.rfl

/-- The last point's block covers the result array. -/
theorem v1_cover (i : S64x5000.Idx) :
    ∃ t : Fin cfg1.N, (cfg1.win 5).flush t = true ∧ i ∈ ((cfg1.win 5).blk t).view.set := by
  have hi0 : (i 0).val < 64 := (i 0).isLt
  have hi1 : (i 1).val < 5000 := (i 1).isLt
  have ht : 9 < cfg1.N := by rw [show cfg1.N = 10 from N_1]; omega
  obtain ⟨-, -, -, -, -, -, -, -, -, -, e50, e51⟩ := v1_idx_facts ⟨9, ht⟩
  refine ⟨⟨9, ht⟩, (flush1_5 _).mpr rfl, ?_⟩
  rw [v1_mem_blk]
  intro a
  match a with
  | ⟨0, _⟩ =>
    show win1_5.index ⟨9, ht⟩ 0 * 64 ≤ (i 0).val ∧ (i 0).val < win1_5.index ⟨9, ht⟩ 0 * 64 + 64
    rw [e50]
    omega
  | ⟨1, _⟩ =>
    show win1_5.index ⟨9, ht⟩ 1 * 5000 ≤ (i 1).val ∧ (i 1).val < win1_5.index ⟨9, ht⟩ 1 * 5000 + 5000
    rw [e51]
    omega

/-- THE RESULT ARRAY after the region: entry (q, e) is the sum over the vertices i of
    ((∑ₖ max((∑ₘ H i m · M m k) · d i, 0) · W k q) + b q) · d i · H i e. -/
theorem final1 (c : Dev nD) :
    (dat1 (F := Ideal) V c).arrAt 5 cfg1.N
      = v1_val (V c main_arg1) (V c main_v2_2) (V c main_v12) (V c main_arg4) (V c main_v1) :=
  (dat1 (F := Ideal) V c).arrAt_eq_of_cover 5 (v1_G V c) (fun t hf => v1_flushed_eq V c t hf) v1_cover

/-- That function at entry (q, e). -/
theorem v1_val_apply (H : S10000x5000.Idx → EReal) (D : S10000x128.Idx → EReal) (M : S5000x128.Idx → EReal)
    (W : S128x64.Idx → EReal) (B : S1x64.Idx → EReal) (q : Fin 64) (e : Fin 5000) :
    v1_val H D M W B (ix2 q e)
      = ∑ i : Fin 10000,
          (((∑ k : Fin 128, max ((∑ m : Fin 5000, H (ix2 i m) * M (ix2 m k)) * D (ix2 i (0 : Fin 128))) (0 : EReal) * W (ix2 k q))
              + B (ix2 (0 : Fin 1) q)) * D (ix2 i (0 : Fin 128))) * H (ix2 i e) := rfl

end Cert.KernelIdeal.Hand

end
-- ==== Proof.KIV2.lean ====
/- The third pass read as values, at the extended reals: the result array after the region, entry (i, c), is the
   vertex scaling at row i times the sum over the edges m of the incidence entry (i, m) times the edge feature (m, c).
   Each grid point writes rows 1000·t … 1000·t+999 of that one function, and the ten row blocks tile the array. -/
import proofs.«151137_g18348100288549_rerun558fix_267_52_alg».proof.Proof.KIR2
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The block product at an index -/

theorem v2_hz : (![0, 0] : Fin 2 → Nat) = fun _ => 0 := funext fun a => by fin_cases a <;> rfl

theorem v2_lhs_0 (i : S1000x64.Idx) (q : dot_S1000x5000_S5000x64_S1000x64_1_0_0_1_n_n.contr.Idx) :
    (dot_S1000x5000_S5000x64_S1000x64_1_0_0_1_n_n.lhsIdx i q 0).val = (i 0).val := by
  unfold DotDims.lhsIdx
  rw [dif_neg (show ¬(0 : Fin S1000x5000.rank) ∈ dot_S1000x5000_S5000x64_S1000x64_1_0_0_1_n_n.lhsBatch by decide), dif_pos (show (0 : Fin S1000x5000.rank) ∈ dot_S1000x5000_S5000x64_S1000x64_1_0_0_1_n_n.lhsNonContracting by decide)]
  rfl
theorem v2_lhs_1 (i : S1000x64.Idx) (q : dot_S1000x5000_S5000x64_S1000x64_1_0_0_1_n_n.contr.Idx) :
    (dot_S1000x5000_S5000x64_S1000x64_1_0_0_1_n_n.lhsIdx i q 1).val = (q ⟨0, by decide⟩).val :=
  dot_S1000x5000_S5000x64_S1000x64_1_0_0_1_n_n.lhsIdx_val_of_single rfl i q
theorem v2_rhs_0 (i : S1000x64.Idx) (q : dot_S1000x5000_S5000x64_S1000x64_1_0_0_1_n_n.contr.Idx) :
    (dot_S1000x5000_S5000x64_S1000x64_1_0_0_1_n_n.rhsIdx i q 0).val = (q ⟨0, by decide⟩).val :=
  dot_S1000x5000_S5000x64_S1000x64_1_0_0_1_n_n.rhsIdx_val_of_single rfl i q
theorem v2_rhs_1 (i : S1000x64.Idx) (q : dot_S1000x5000_S5000x64_S1000x64_1_0_0_1_n_n.contr.Idx) :
    (dot_S1000x5000_S5000x64_S1000x64_1_0_0_1_n_n.rhsIdx i q 1).val = (i 1).val := by
  unfold DotDims.rhsIdx
  rw [dif_neg (show ¬(1 : Fin S5000x64.rank) ∈ dot_S1000x5000_S5000x64_S1000x64_1_0_0_1_n_n.rhsBatch by decide), dif_pos (show (1 : Fin S5000x64.rank) ∈ dot_S1000x5000_S5000x64_S1000x64_1_0_0_1_n_n.rhsNonContracting by decide)]
  rfl

/-- The block product into the zero accumulator, entry (p, q): the sum over the 5000 edges. -/
theorem v2_matmul_apply (a : FVec Ideal S1000x5000 .bf16) (b : FVec Ideal S5000x64 .bf16) (p : Fin 1000) (q : Fin 64) :
    matmul dot_S1000x5000_S5000x64_S1000x64_1_0_0_1_n_n none a b (constant S1000x64 .f32 0x00000000#32) (ix2 p q)
      = ∑ m : Fin 5000, a (ix2 p m) * b (ix2 m q) := by
  simp only [matmul]
  rw [Ideal.matmul_constant_zero_apply, ← Equiv.sum_comp (contrEquiv1 dot_S1000x5000_S5000x64_S1000x64_1_0_0_1_n_n 5000 rfl rfl).symm]
  refine Finset.sum_congr rfl fun k _ => ?_
  have hk := contrEquiv1_symm_val dot_S1000x5000_S5000x64_S1000x64_1_0_0_1_n_n 5000 rfl rfl k
  have el : dot_S1000x5000_S5000x64_S1000x64_1_0_0_1_n_n.lhsIdx (ix2 p q) ((contrEquiv1 dot_S1000x5000_S5000x64_S1000x64_1_0_0_1_n_n 5000 rfl rfl).symm k) = ix2 p k := funext fun a => Fin.ext (by
    match a with
    | ⟨0, _⟩ => exact v2_lhs_0 _ _
    | ⟨1, _⟩ => exact (v2_lhs_1 _ _).trans hk)
  have er : dot_S1000x5000_S5000x64_S1000x64_1_0_0_1_n_n.rhsIdx (ix2 p q) ((contrEquiv1 dot_S1000x5000_S5000x64_S1000x64_1_0_0_1_n_n 5000 rfl rfl).symm k) = ix2 k q := funext fun a => Fin.ext (by
    match a with
    | ⟨0, _⟩ => exact (v2_rhs_0 _ _).trans hk
    | ⟨1, _⟩ => exact v2_rhs_1 _ _)
  rw [el, er]

/-- The payload at entry (p, q): the loaded scaling column at row p times the block product there. -/
theorem v2_pay_apply (y0 : Vec Ideal S1000x5000 .f32) (y1 : Vec Ideal S1000x1 .f32) (y2 : Vec Ideal S5000x64 .bf16)
    (p : Fin 1000) (q : Fin 64) :
    k2_pay1 y0 y1 y2 (ix2 p q) = y1 (ix2 p (0 : Fin 1)) * ∑ m : Fin 5000, y0 (ix2 p m) * y2 (ix2 m q) := by
  unfold k2_pay1
  simp only [shapeCast_self]
  rw [mulf_apply, v2_matmul_apply]
  congr 1
  refine broadcastTo_apply _ _ _ _ fun a => ?_
  match a with
  | ⟨0, _⟩ => rfl
  | ⟨1, _⟩ => rfl

/-- The result block after the body at entry (p, q), from the three staged blocks. -/
theorem v2_out_apply (x0 : Vec Ideal S1000x5000 .f32) (x1 : Vec Ideal S1000x128 .f32) (x2 : Vec Ideal S5000x64 .bf16)
    (p : Fin 1000) (q : Fin 64) :
    out2_3 x0 x1 x2 (ix2 p q) = x1 (ix2 p (0 : Fin 128)) * ∑ m : Fin 5000, x0 (ix2 p m) * x2 (ix2 m q) := by
  unfold out2_3
  rw [View.canon_unit_zero v2_hz, View.ld_unit_zero (S := S1000x5000) v2_hz, View.ld_unit_zero (S := S5000x64) v2_hz,
    v2_pay_apply]
  congr 1
  show x1 _ = x1 _
  congr 1
  funext a
  apply Fin.ext
  match a with
  | ⟨0, _⟩ => show 0 + 1 * p.val = p.val; omega
  | ⟨1, _⟩ => rfl

/-- The same at an index of the block. -/
theorem v2_out_apply' (x0 : Vec Ideal S1000x5000 .f32) (x1 : Vec Ideal S1000x128 .f32) (x2 : Vec Ideal S5000x64 .bf16)
    (z : S1000x64.Idx) :
    out2_3 x0 x1 x2 z = x1 (ix2 (z 0) (0 : Fin 128)) * ∑ m : Fin 5000, x0 (ix2 (z 0) m) * x2 (ix2 m (z 1)) := by
  exact (congrArg (out2_3 x0 x1 x2) (eq_ix2 z)).trans (v2_out_apply x0 x1 x2 (z 0) (z 1))

/-! ## The windows' blocks as rows of their arrays -/

variable (V : (c : Dev nD) → (b : Ref sig .tc) → Buf (Elt Ideal) ((c : Thread nD τ).loc b))

/-- The printed index maps over the grid: the incidence, scaling and result windows sit at row block t, first
    column block; the edge-feature window at block (0, 0). -/
theorem v2_idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The incidence block at point t is rows 1000·t … 1000·t+999 of the incidence array. -/
theorem v2_iblk0_apply (c : Dev nD) (t : Fin cfg2.N) (z : S1000x5000.Idx) (k : S10000x5000.Idx)
    (hk0 : (k 0).val = 1000 * t.val + (z 0).val) (hk1 : (k 1).val = (z 1).val) :
    (iblk2 V c 0 t : Vec Ideal S1000x5000 .f32) z = V c main_arg1 k := by
  obtain ⟨e00, e01, -⟩ := v2_idx_facts t
  unfold iblk2
  rw [View.read_apply]
  show V c main_arg1 _ = V c main_arg1 _
  congr 1
  funext a
  apply Fin.ext
  match a with
  | ⟨0, _⟩ => show win2_0.index t 0 * 1000 + 1 * (z 0).val = (k 0).val; rw [e00, hk0]; omega
  | ⟨1, _⟩ => show win2_0.index t 1 * 5000 + 1 * (z 1).val = (k 1).val; rw [e01, hk1]; omega

/-- The scaling block at point t is rows 1000·t … 1000·t+999 of the scaling array. -/
theorem v2_iblk1_apply (c : Dev nD) (t : Fin cfg2.N) (z : S1000x128.Idx) (k : S10000x128.Idx)
    (hk0 : (k 0).val = 1000 * t.val + (z 0).val) (hk1 : (k 1).val = (z 1).val) :
    (iblk2 V c 1 t : Vec Ideal S1000x128 .f32) z = V c main_v2_2 k := by
  obtain ⟨-, -, e10, e11, -⟩ := v2_idx_facts t
  unfold iblk2
  rw [View.read_apply]
  show V c main_v2_2 _ = V c main_v2_2 _
  congr 1
  funext a
  apply Fin.ext
  match a with
  | ⟨0, _⟩ => show win2_1.index t 0 * 1000 + 1 * (z 0).val = (k 0).val; rw [e10, hk0]; omega
  | ⟨1, _⟩ => show win2_1.index t 1 * 128 + 1 * (z 1).val = (k 1).val; rw [e11, hk1]; omega

/-- The edge-feature block at every point is the whole edge-feature array. -/
theorem v2_iblk2_apply (c : Dev nD) (t : Fin cfg2.N) (z : S5000x64.Idx) :
    (iblk2 V c 2 t : Vec Ideal S5000x64 .bf16) z = V c main_v17 z := by
  obtain ⟨-, -, -, -, e20, e21, -⟩ := v2_idx_facts t
  unfold iblk2
  rw [View.read_apply]
  show V c main_v17 _ = V c main_v17 _
  congr 1
  funext a
  apply Fin.ext
  match a with
  | ⟨0, _⟩ => show win2_2.index t 0 * 5000 + 1 * (z 0).val = (z 0).val; rw [e20]; omega
  | ⟨1, _⟩ => show win2_2.index t 1 * 64 + 1 * (z 1).val = (z 1).val; rw [e21]; omega

/-! ## The result array -/

/-- The result array as one function of the three arrays the region reads: entry (i, c) is the scaling at row i
    times the sum over the edges of the incidence entry times the edge feature. -/
def v2_val (D : S10000x128.Idx → EReal) (H : S10000x5000.Idx → EReal) (E : S5000x64.Idx → EReal) : S10000x64.Idx → EReal :=
  fun j => D (ix2 (j 0) (0 : Fin 128)) * ∑ m : Fin 5000, H (ix2 (j 0) m) * E (ix2 m (j 1))

/-- That function of the scaling, incidence and edge-feature arrays as the region finds them. -/
abbrev v2_G (c : Dev nD) : S10000x64.Idx → EReal := v2_val (V c main_v2_2) (V c main_arg1) (V c main_v17)

/-- What point t writes back is block t of that function. -/
theorem v2_flushed_eq (c : Dev nD) (t : Fin cfg2.N) :
    (dat2 (F := Ideal) V c).flushed 3 t = ((cfg2.win 3).blk t).view.read (Elt Ideal) (v2_G V c) := by
  show (cfg2.win 3).cut (grid2.coords t) ((dat2 V c).after 3 t) = _
  rw [after2_3]
  obtain ⟨-, -, -, -, -, -, e30, e31⟩ := v2_idx_facts t
  funext y
  refine (v2_out_apply' _ _ _ _).trans ?_
  show _ = v2_G V c (((cfg2.win 3).blk t).view.emb y)
  unfold v2_G v2_val
  have h0 : ((((cfg2.win 3).blk t).view.emb y) 0).val = 1000 * t.val + (y 0).val := by
    show win2_3.index t 0 * 1000 + 1 * (y 0).val = _; rw [e30]; omega
  have h1 : ((((cfg2.win 3).blk t).view.emb y) 1).val = (y 1).val := by
    show win2_3.index t 1 * 64 + 1 * (y 1).val = _; rw [e31]; omega
  rw [v2_iblk1_apply V c t _ (ix2 ((((cfg2.win 3).blk t).view.emb y) 0) (0 : Fin 128)) h0 rfl]
  congr 1
  refine Finset.sum_congr rfl fun m _ => ?_
  rw [v2_iblk0_apply V c t _ (ix2 ((((cfg2.win 3).blk t).view.emb y) 0) m) h0 rfl, v2_iblk2_apply V c t]
  congr 2
  funext a
  apply Fin.ext
  match a with
  | ⟨0, _⟩ => rfl
  | ⟨1, _⟩ => exact h1.symm

/-- An index of the result array is in point t's block iff each coordinate is in the block's range on its axis. -/
theorem v2_mem_blk (t : Fin cfg2.N) (i : S10000x64.Idx) :
    i ∈ ((cfg2.win 3).blk t).view.set ↔ ∀ a : Fin 2, win2_3.index t a * S1000x64.size a ≤ (i a).val
      ∧ (i a).val < win2_3.index t a * S1000x64.size a + S1000x64.size a := by
  show i ∈ ((View.whole main_v18).slice (win2_3.rect t)).set ↔ _
  rw [View.set_slice_whole, Rect.mem_set_unit]
  exact Iff.rfl

/-- The ten row blocks tile the result array: row i lies in the block of point i / 1000. -/
theorem v2_cover (i : S10000x64.Idx) :
    ∃ t : Fin cfg2.N, (cfg2.win 3).flush t = true ∧ i ∈ ((cfg2.win 3).blk t).view.set := by
  have hi0 : (i 0).val < 10000 := (i 0).isLt
  have hi1 : (i 1).val < 64 := (i 1).isLt
  have ht : (i 0).val / 1000 < cfg2.N := by rw [show cfg2.N = 10 from N_2]; omega
  obtain ⟨-, -, -, -, -, -, e30, e31⟩ := v2_idx_facts ⟨(i 0).val / 1000, ht⟩
  refine ⟨⟨(i 0).val / 1000, ht⟩, flush2_3 _, ?_⟩
  rw [v2_mem_blk]
  intro a
  match a with
  | ⟨0, _⟩ =>
    show win2_3.index ⟨(i 0).val / 1000, ht⟩ 0 * 1000 ≤ (i 0).val
      ∧ (i 0).val < win2_3.index ⟨(i 0).val / 1000, ht⟩ 0 * 1000 + 1000
    rw [e30]
    show (i 0).val / 1000 * 1000 ≤ (i 0).val ∧ (i 0).val < (i 0).val / 1000 * 1000 + 1000
    omega
  | ⟨1, _⟩ =>
    show win2_3.index ⟨(i 0).val / 1000, ht⟩ 1 * 64 ≤ (i 1).val
      ∧ (i 1).val < win2_3.index ⟨(i 0).val / 1000, ht⟩ 1 * 64 + 64
    rw [e31]
    omega

/-- THE RESULT ARRAY after the region: entry (i, c) is the scaling at row i (first lane) times the sum over the edges m
    of the incidence entry (i, m) times the edge feature (m, c). -/
theorem final2 (c : Dev nD) :
    (dat2 (F := Ideal) V c).arrAt 3 cfg2.N = v2_val (V c main_v2_2) (V c main_arg1) (V c main_v17) :=
  (dat2 (F := Ideal) V c).arrAt_eq_of_cover 3 (v2_G V c) (fun t _ => v2_flushed_eq V c t) v2_cover

/-- That function at entry (i, q). -/
theorem v2_val_apply (D : S10000x128.Idx → EReal) (H : S10000x5000.Idx → EReal) (E : S5000x64.Idx → EReal)
    (i : Fin 10000) (q : Fin 64) :
    v2_val D H E (ix2 i q) = D (ix2 i (0 : Fin 128)) * ∑ m : Fin 5000, H (ix2 i m) * E (ix2 m q) := rfl

end Cert.KernelIdeal.Hand

end
-- ==== Proof.KIGlue.lean ====
/- What the host operations between the three pipelined calls compute, read at an index, at the ideal values.

   Before the first call two bias vectors are viewed as single rows. Between the first and second call the row of
   edge degrees De is turned into the column e m = 1 / (De m + ε), and the 128 × 5000 array of gathered features is
   transposed and multiplied, row m, by e m. Between the second and third call the 64 × 5000 array of layer 2 is
   transposed and multiplied, row m, by the same column. The format changes on the way are the identity on the
   extended reals. Each statement is about an ARBITRARY valuation of the buffers the stretch starts from.

   First the layout operations over arbitrary arrays of the literal shapes (a transpose reads the swapped index, a
   broadcast of a column reads the row's entry, a reshape between [n] and [1, n] keeps the position), then each
   stretch's result buffer as the operations' term over the starting buffers, read through those lemmas. -/
import proofs.«151137_g18348100288549_rerun558fix_267_52_alg».proof.Proof.Gen.KernelIdeal.Launch
import proofs.«151137_g18348100288549_rerun558fix_267_52_alg».proof.Proof.SpecAt
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

/-- The single-precision pattern of one denotes the extended real 1. -/
theorem ofBits_one_f32 : Ideal.ofBits .f32 0x3F800000#32 = 1 := by
  simp [Ideal.ofBits, Ideal.ieee, -EReal.coe_mul]; norm_num

/-! ## The layout operations of the host stretches, over arbitrary arrays of the literal shapes -/

/-- Row-major position of a rank-1 index against the rank-2 index with a leading unit coordinate. -/
theorem rm_1n (n : Nat) (q : Fin n) :
    ((⟨1, ![n]⟩ : Shape).rowMajor (ix1 q)).val = ((⟨2, ![1, n]⟩ : Shape).rowMajor (ix2 (0 : Fin 1) q)).val := by
  rw [Shape.rowMajor_val_one, Shape.rowMajor_val_two]
  show q.val = 0 * n + q.val
  omega

/-- A vector of 128 viewed as one row, read at (0, q). -/
theorem row128_at (x : S128.Idx → EReal) (q : Fin 128) :
    shapeCast S1x128 x shapeCasts_S128_S1x128 (ix2 (0 : Fin 1) q) = x (ix1 q) :=
  shapeCast_apply _ _ _ _ (rm_1n 128 q)

/-- A vector of 64 viewed as one row, read at (0, q). -/
theorem row64_at (x : S64.Idx → EReal) (q : Fin 64) :
    shapeCast S1x64 x shapeCasts_S64_S1x64 (ix2 (0 : Fin 1) q) = x (ix1 q) :=
  shapeCast_apply _ _ _ _ (rm_1n 64 q)

/-- The reciprocal of (edge degree + ε) as an array over the edges: the row of degrees flattened, ε added everywhere,
    one divided by the sum. -/
abbrev inv5000 (x : S1x5000.Idx → EReal) : S5000.Idx → EReal :=
  Host.divf (F := Ideal) (φ := .f32)
    (broadcastInDim S5000 ![] bcast_S_S5000 (constant (F := Ideal) S_ .f32 0x3F800000#32))
    (addf (F := Ideal) (φ := .f32)
      (shapeCast S5000 x shapeCasts_S1x5000_S5000)
      (broadcastInDim S5000 ![] bcast_S_S5000 (constant (F := Ideal) S_ .f32 0x2B8CBCCC#32)))

/-- Read at edge e: one over (degree of e plus ε). -/
theorem inv5000_at (x : S1x5000.Idx → EReal) (e : Fin 5000) :
    inv5000 x (ix1 e) = Ideal.div 1 (x (ix2 (0 : Fin 1) e) + Cert.HgnnSpec.eps32) := by
  show Ideal.div
      (broadcastInDim S5000 ![] bcast_S_S5000 (constant (F := Ideal) S_ .f32 0x3F800000#32) (ix1 e))
      (shapeCast S5000 x shapeCasts_S1x5000_S5000 (ix1 e)
        + broadcastInDim S5000 ![] bcast_S_S5000 (constant (F := Ideal) S_ .f32 0x2B8CBCCC#32) (ix1 e)) = _
  rw [broadcastInDim_apply ![] bcast_S_S5000 (constant (F := Ideal) S_ .f32 0x3F800000#32) (ix1 e) ix0 (fun a => a.elim0),
    broadcastInDim_apply ![] bcast_S_S5000 (constant (F := Ideal) S_ .f32 0x2B8CBCCC#32) (ix1 e) ix0 (fun a => a.elim0),
    constant_apply, constant_apply, ofBits_one_f32,
    shapeCast_apply x shapeCasts_S1x5000_S5000 (ix1 e) (ix2 (0 : Fin 1) e) (rm_1n 5000 e).symm]

/-- The same array as a column, read at (e, 0). -/
theorem col5000_at (y : S5000.Idx → EReal) (e : Fin 5000) :
    broadcastInDim S5000x1 ![0] bcast_S5000_S5000x1_0 y (ix2 e (0 : Fin 1)) = y (ix1 e) :=
  broadcastInDim_apply ![0] bcast_S5000_S5000x1_0 y (ix2 e (0 : Fin 1)) (ix1 e) (fun a => match a with | ⟨0, _⟩ => rfl)

/-- A 128 × 5000 array transposed, times a column of 5000 repeated along 128 columns, read at (e, k). -/
theorem scaled128_at (z : S128x5000.Idx → EReal) (y : S5000x1.Idx → EReal) (e : Fin 5000) (k : Fin 128) :
    (truncf (F := Ideal) .bf16
        (mulf (F := Ideal) (φ := .f32)
          (transpose S5000x128 [1, 0] z transposes_S128x5000_S5000x128_1_0)
          (broadcastInDim S5000x128 ![0, 1] bcast_S5000x1_S5000x128_0_1 y))
        bitsLt_bf16_f32) (ix2 e k)
      = z (ix2 k e) * y (ix2 e (0 : Fin 1)) := by
  show transpose S5000x128 [1, 0] z transposes_S128x5000_S5000x128_1_0 (ix2 e k)
      * broadcastInDim S5000x128 ![0, 1] bcast_S5000x1_S5000x128_0_1 y (ix2 e k) = _
  rw [transpose_apply [1, 0] z transposes_S128x5000_S5000x128_1_0 (ix2 e k) (ix2 k e)
      (fun b => match b with | ⟨0, _⟩ => rfl | ⟨1, _⟩ => rfl),
    broadcastInDim_apply ![0, 1] bcast_S5000x1_S5000x128_0_1 y (ix2 e k) (ix2 e (0 : Fin 1))
      (fun a => match a with | ⟨0, _⟩ => rfl | ⟨1, _⟩ => rfl)]

/-- A 64 × 5000 array transposed, times a column of 5000 repeated along 64 columns, read at (e, q). -/
theorem scaled64_at (z : S64x5000.Idx → EReal) (y : S5000x1.Idx → EReal) (e : Fin 5000) (q : Fin 64) :
    (truncf (F := Ideal) .bf16
        (mulf (F := Ideal) (φ := .f32)
          (transpose S5000x64 [1, 0] z transposes_S64x5000_S5000x64_1_0)
          (broadcastInDim S5000x64 ![0, 1] bcast_S5000x1_S5000x64_0_1 y))
        bitsLt_bf16_f32) (ix2 e q)
      = z (ix2 q e) * y (ix2 e (0 : Fin 1)) := by
  show transpose S5000x64 [1, 0] z transposes_S64x5000_S5000x64_1_0 (ix2 e q)
      * broadcastInDim S5000x64 ![0, 1] bcast_S5000x1_S5000x64_0_1 y (ix2 e q) = _
  rw [transpose_apply [1, 0] z transposes_S64x5000_S5000x64_1_0 (ix2 e q) (ix2 q e)
      (fun b => match b with | ⟨0, _⟩ => rfl | ⟨1, _⟩ => rfl),
    broadcastInDim_apply ![0, 1] bcast_S5000x1_S5000x64_0_1 y (ix2 e q) (ix2 e (0 : Fin 1))
      (fun a => match a with | ⟨0, _⟩ => rfl | ⟨1, _⟩ => rfl)]

/-! ## The host stretches of the program, from an arbitrary valuation -/

/-- The first bias as a row: entry (0, q) is the bias at q. -/
theorem v0_at (q : Fin 128) :
    (StableHlo.after hostOps0 W (Proc.devRef .tc main_v0) : S1x128.Idx → EReal) (ix2 (0 : Fin 1) q)
      = (W (Proc.devRef .tc main_arg3) : S128.Idx → EReal) (ix1 q) := by
  have h : (StableHlo.after hostOps0 W (Proc.devRef .tc main_v0) : S1x128.Idx → EReal)
      = shapeCast S1x128 (W (Proc.devRef .tc main_arg3) : S128.Idx → EReal) shapeCasts_S128_S1x128 := by
    after_results
    rfl
  exact (congrFun h _).trans (row128_at _ q)

/-- The second bias as a row: entry (0, q) is the bias at q. -/
theorem v1_at (q : Fin 64) :
    (StableHlo.after hostOps0 W (Proc.devRef .tc main_v1) : S1x64.Idx → EReal) (ix2 (0 : Fin 1) q)
      = (W (Proc.devRef .tc main_arg5) : S64.Idx → EReal) (ix1 q) := by
  have h : (StableHlo.after hostOps0 W (Proc.devRef .tc main_v1) : S1x64.Idx → EReal)
      = shapeCast S1x64 (W (Proc.devRef .tc main_arg5) : S64.Idx → EReal) shapeCasts_S64_S1x64 := by
    after_results
    rfl
  exact (congrFun h _).trans (row64_at _ q)

/-- The edge reciprocals as a column: entry (e, 0) is one over (degree of e plus ε). -/
theorem v8_at (e : Fin 5000) :
    (StableHlo.after hostOps1 W (Proc.devRef .tc main_v8) : S5000x1.Idx → EReal) (ix2 e (0 : Fin 1))
      = Ideal.div 1 (@HAdd.hAdd EReal EReal EReal instHAdd
          ((W (Proc.devRef .tc main_v2_1) : S1x5000.Idx → EReal) (ix2 (0 : Fin 1) e)) Cert.HgnnSpec.eps32) := by
  have h : (StableHlo.after hostOps1 W (Proc.devRef .tc main_v8) : S5000x1.Idx → EReal)
      = broadcastInDim S5000x1 ![0] bcast_S5000_S5000x1_0 (inv5000 (W (Proc.devRef .tc main_v2_1))) := by
    after_results
    rfl
  exact (congrFun h _).trans ((col5000_at _ e).trans (inv5000_at _ e))

/-- Layer 1's gathered features, transposed and divided by the edge degrees: entry (e, k). -/
theorem v12_at (e : Fin 5000) (k : Fin 128) :
    (StableHlo.after hostOps1 W (Proc.devRef .tc main_v12) : S5000x128.Idx → EReal) (ix2 e k)
      = @HMul.hMul EReal EReal EReal instHMul
          ((W (Proc.devRef .tc main_v2_0) : S128x5000.Idx → EReal) (ix2 k e))
          (Ideal.div 1 (@HAdd.hAdd EReal EReal EReal instHAdd
            ((W (Proc.devRef .tc main_v2_1) : S1x5000.Idx → EReal) (ix2 (0 : Fin 1) e)) Cert.HgnnSpec.eps32)) := by
  have h : (StableHlo.after hostOps1 W (Proc.devRef .tc main_v12) : S5000x128.Idx → EReal)
      = truncf (F := Ideal) .bf16
          (mulf (F := Ideal) (φ := .f32)
            (transpose S5000x128 [1, 0] (W (Proc.devRef .tc main_v2_0)) transposes_S128x5000_S5000x128_1_0)
            (broadcastInDim S5000x128 ![0, 1] bcast_S5000x1_S5000x128_0_1
              (broadcastInDim S5000x1 ![0] bcast_S5000_S5000x1_0 (inv5000 (W (Proc.devRef .tc main_v2_1))))))
          bitsLt_bf16_f32 := by
    after_results
    rfl
  refine (congrFun h _).trans ((scaled128_at _ _ e k).trans ?_)
  rw [col5000_at, inv5000_at]

/-- Layer 2's gathered features, transposed and multiplied by the column of edge reciprocals: entry (e, q). -/
theorem v17_at (e : Fin 5000) (q : Fin 64) :
    (StableHlo.after hostOps2 W (Proc.devRef .tc main_v17) : S5000x64.Idx → EReal) (ix2 e q)
      = @HMul.hMul EReal EReal EReal instHMul
          ((W (Proc.devRef .tc main_v13) : S64x5000.Idx → EReal) (ix2 q e))
          ((W (Proc.devRef .tc main_v8) : S5000x1.Idx → EReal) (ix2 e (0 : Fin 1))) := by
  have h : (StableHlo.after hostOps2 W (Proc.devRef .tc main_v17) : S5000x64.Idx → EReal)
      = truncf (F := Ideal) .bf16
          (mulf (F := Ideal) (φ := .f32)
            (transpose S5000x64 [1, 0] (W (Proc.devRef .tc main_v13)) transposes_S64x5000_S5000x64_1_0)
            (broadcastInDim S5000x64 ![0, 1] bcast_S5000x1_S5000x64_0_1 (W (Proc.devRef .tc main_v8))))
          bitsLt_bf16_f32 := by
    after_results
  exact (congrFun h _).trans (scaled64_at _ _ e q)

end Cert.KernelIdeal.Hand

end
-- ==== Proof.KIVal.lean ====
/- What the three-pass program leaves in its result array, as the specification's function of the launch arrays.

   Walking @main's boundaries from the launch: the first pass leaves the vertex scaling d (the inverse square root of each
   row sum of H plus ε, along 128 lanes), the transposed layer-1 edge sums ∑ᵢ (θ₁(i,k)·dᵢ)·H(i,e) and the edge degrees
   ∑ᵢ H(i,e); the host operations after it divide one by (degree + ε) and scale the transposed sums: the layer-1 edge
   features; the second pass leaves the transposed layer-2 edge sums over the clamped hidden activations; the host
   operations scale them the same way; the third pass scatters them back to the vertices and scales. Each step is the
   specification's definition with the same grouping, so the chain closes by rewriting whole arrays. -/
import proofs.«151137_g18348100288549_rerun558fix_267_52_alg».proof.Proof.KIRun
import proofs.«151137_g18348100288549_rerun558fix_267_52_alg».proof.Proof.KIV0
import proofs.«151137_g18348100288549_rerun558fix_267_52_alg».proof.Proof.KIV1
import proofs.«151137_g18348100288549_rerun558fix_267_52_alg».proof.Proof.KIV2
import proofs.«151137_g18348100288549_rerun558fix_267_52_alg».proof.Proof.KIGlue
import proofs.«151137_g18348100288549_rerun558fix_267_52_alg».proof.Proof.SpecAt

set_option maxRecDepth 16384

noncomputable section

namespace Cert.KernelIdeal.Hand

open Cert.KernelIdeal Cert.KernelIdeal.Gen Cert.HgnnSpec
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

/-! ## The launch arrays -/

abbrev aX : S10000x128.Idx → EReal := m ((c.tc : Thread nD τ).loc main_arg0)
abbrev aH : S10000x5000.Idx → EReal := m ((c.tc : Thread nD τ).loc main_arg1)
abbrev aW1 : S128x128.Idx → EReal := m ((c.tc : Thread nD τ).loc main_arg2)
abbrev ab1 : S128.Idx → EReal := m ((c.tc : Thread nD τ).loc main_arg3)
abbrev aW2 : S128x64.Idx → EReal := m ((c.tc : Thread nD τ).loc main_arg4)
abbrev ab2 : S64.Idx → EReal := m ((c.tc : Thread nD τ).loc main_arg5)

/-- The launch arrays as functions of coordinates, as the specification takes them. -/
abbrev fX : Fin 10000 → Fin 128 → EReal := fun i k => aX m c (ix2 i k)
abbrev fW1 : Fin 128 → Fin 128 → EReal := fun k q => aW1 m c (ix2 k q)
abbrev fb1 : Fin 128 → EReal := fun q => ab1 m c (ix1 q)
abbrev fW2 : Fin 128 → Fin 64 → EReal := fun k q => aW2 m c (ix2 k q)
abbrev fb2 : Fin 64 → EReal := fun q => ab2 m c (ix1 q)

/-- The vertex scaling the kernel computes. -/
abbrev dK : Fin 10000 → EReal := scaleRsqrt (inc (aH m c)) eps32

/-! ## The arguments at each pallas_call's entry -/

theorem H1 : (V1 m ρ c main_arg1 : S10000x5000.Idx → EReal) = aH m c := (W1_of m ρ c main_arg1 (by decide)).trans rfl
theorem H3 : (V3 m ρ c main_arg1 : S10000x5000.Idx → EReal) = aH m c :=
  (W3_of m ρ c main_arg1 (by decide)).trans ((W2_in m ρ c 3 rfl).trans (H1 m ρ c))
theorem H5 : (V5 m ρ c main_arg1 : S10000x5000.Idx → EReal) = aH m c :=
  (W5_of m ρ c main_arg1 (by decide)).trans ((W4_in m ρ c 0 rfl).trans (H3 m ρ c))
theorem X1 : (V1 m ρ c main_arg0 : S10000x128.Idx → EReal) = aX m c := (W1_of m ρ c main_arg0 (by decide)).trans rfl
theorem W1_1 : (V1 m ρ c main_arg2 : S128x128.Idx → EReal) = aW1 m c := (W1_of m ρ c main_arg2 (by decide)).trans rfl
theorem W2_3 : (V3 m ρ c main_arg4 : S128x64.Idx → EReal) = aW2 m c :=
  (W3_of m ρ c main_arg4 (by decide)).trans ((W2_of_ne m ρ c main_arg4 (by decide)).trans ((W1_of m ρ c main_arg4 (by decide)).trans rfl))

/-- The first bias as the row the first pass reads. -/
theorem b1_1 : (V1 m ρ c main_v0 : S1x128.Idx → EReal) = fun j => ab1 m c (ix1 (j 1)) := by
  funext j
  obtain ⟨z, k, rfl⟩ : ∃ (z : Fin 1) (k : Fin 128), j = ix2 z k := ⟨j 0, j 1, eq_ix2 j⟩
  obtain rfl : z = 0 := Subsingleton.elim _ _
  exact v0_at (W0 m ρ c) k
/-- The second bias as the row the second pass reads. -/
theorem b2_3 : (V3 m ρ c main_v1 : S1x64.Idx → EReal) = fun j => ab2 m c (ix1 (j 1)) := by
  funext j
  obtain ⟨z, q, rfl⟩ : ∃ (z : Fin 1) (q : Fin 64), j = ix2 z q := ⟨j 0, j 1, eq_ix2 j⟩
  obtain rfl : z = 0 := Subsingleton.elim _ _
  exact (congrFun ((W3_of m ρ c main_v1 (by decide)).trans (W2_of_ne m ρ c main_v1 (by decide))) _).trans (v1_at (W0 m ρ c) q)

/-! ## What the first pass leaves -/

/-- The scaling array: every lane of row i holds dᵢ. -/
theorem scale2 : (W2 m ρ c (Proc.devRef .tc main_v2_2) : S10000x128.Idx → EReal) = fun j => dK m c (j 0) := by
  have h : (W2 m ρ c (Proc.devRef .tc main_v2_2) : S10000x128.Idx → EReal) = v0_6_val (V1 m ρ c main_arg1) :=
    (W2_arr m ρ c 6).trans (final0_6 (V1 m ρ) c)
  rw [H1] at h
  rw [h]
  funext j
  obtain ⟨i, l, rfl⟩ : ∃ (i : Fin 10000) (l : Fin 128), j = ix2 i l := ⟨j 0, j 1, eq_ix2 j⟩
  rw [v0_6_val_apply]
  rfl
theorem scale3 : (V3 m ρ c main_v2_2 : S10000x128.Idx → EReal) = fun j => dK m c (j 0) :=
  (W3_of m ρ c main_v2_2 (by decide)).trans (scale2 m ρ c)
theorem scale5 : (V5 m ρ c main_v2_2 : S10000x128.Idx → EReal) = fun j => dK m c (j 0) :=
  ((W5_of m ρ c main_v2_2 (by decide)).trans (W4_in m ρ c 1 rfl)).trans (scale3 m ρ c)

/-- The edge degrees. -/
theorem deg2 (e : Fin 5000) : (W2 m ρ c (Proc.devRef .tc main_v2_1) : S1x5000.Idx → EReal) (ix2 (0 : Fin 1) e) = ∑ i : Fin 10000, aH m c (ix2 i e) := by
  have h : (W2 m ρ c (Proc.devRef .tc main_v2_1) : S1x5000.Idx → EReal) = v0_5_val (V1 m ρ c main_arg1) :=
    (W2_arr m ρ c 5).trans (final0_5 (V1 m ρ) c)
  rw [H1] at h
  rw [h, v0_5_val_apply]

/-- The transposed layer-1 edge sums. -/
theorem gsum2 (k : Fin 128) (e : Fin 5000) : (W2 m ρ c (Proc.devRef .tc main_v2_0) : S128x5000.Idx → EReal) (ix2 k e)
    = ∑ i : Fin 10000, (theta1 (fX m c) (fW1 m c) (fb1 m c) i k * dK m c i) * aH m c (ix2 i e) := by
  have h : (W2 m ρ c (Proc.devRef .tc main_v2_0) : S128x5000.Idx → EReal)
      = v0_4_val (V1 m ρ c main_arg0) (V1 m ρ c main_arg2) (V1 m ρ c main_v0) (V1 m ρ c main_arg1) :=
    (W2_arr m ρ c 4).trans (final0_4 (V1 m ρ) c)
  rw [H1, X1, W1_1, b1_1] at h
  rw [h, v0_4_val_apply]
  rfl

/-! ## The edge reciprocals and the layer-1 edge features -/

theorem einv3 (e : Fin 5000) : (W3 m ρ c (Proc.devRef .tc main_v8) : S5000x1.Idx → EReal) (ix2 e (0 : Fin 1)) = edgeInv (inc (aH m c)) eps32 e := by
  have h := v8_at (W2 m ρ c) e
  rw [deg2 m ρ c e] at h
  exact h
theorem einv4 (e : Fin 5000) : (W4 m ρ c (Proc.devRef .tc main_v8) : S5000x1.Idx → EReal) (ix2 e (0 : Fin 1)) = edgeInv (inc (aH m c)) eps32 e :=
  (congrFun (W4_of_ne m ρ c main_v8 (by decide)) _).trans (einv3 m ρ c e)

theorem efeat3 : (V3 m ρ c main_v12 : S5000x128.Idx → EReal)
    = fun j => edge1 (fX m c) (inc (aH m c)) (fW1 m c) (fb1 m c) eps32 (dK m c) (j 0) (j 1) := by
  funext j
  obtain ⟨e, k, rfl⟩ : ∃ (e : Fin 5000) (k : Fin 128), j = ix2 e k := ⟨j 0, j 1, eq_ix2 j⟩
  have h := v12_at (W2 m ρ c) e k
  rw [gsum2 m ρ c k e, deg2 m ρ c e] at h
  exact h

/-! ## What the second pass leaves, and the layer-2 edge features -/

set_option maxHeartbeats 1000000 in
theorem gsum4 (q : Fin 64) (e : Fin 5000) : (W4 m ρ c (Proc.devRef .tc main_v13) : S64x5000.Idx → EReal) (ix2 q e)
    = ∑ i : Fin 10000, (theta2 (fX m c) (inc (aH m c)) (fW1 m c) (fb1 m c) (fW2 m c) (fb2 m c) eps32 (dK m c) i q * dK m c i) * aH m c (ix2 i e) := by
  have h : (W4 m ρ c (Proc.devRef .tc main_v13) : S64x5000.Idx → EReal)
      = v1_val (V3 m ρ c main_arg1) (V3 m ρ c main_v2_2) (V3 m ρ c main_v12) (V3 m ρ c main_arg4) (V3 m ρ c main_v1) :=
    (W4_arr m ρ c 5).trans (final1 (V3 m ρ) c)
  rw [H3, W2_3, scale3, efeat3, b2_3] at h
  rw [h, v1_val_apply]
  rfl

theorem efeat5 : (V5 m ρ c main_v17 : S5000x64.Idx → EReal)
    = fun j => edge2 (fX m c) (inc (aH m c)) (fW1 m c) (fb1 m c) (fW2 m c) (fb2 m c) eps32 (dK m c) (j 0) (j 1) := by
  funext j
  obtain ⟨e, q, rfl⟩ : ∃ (e : Fin 5000) (q : Fin 64), j = ix2 e q := ⟨j 0, j 1, eq_ix2 j⟩
  have h := v17_at (W4 m ρ c) e q
  rw [gsum4 m ρ c q e, einv4 m ρ c e] at h
  exact h

/-! ## The result -/

set_option maxHeartbeats 1000000 in
/-- The result array is the specification's function of the launch arrays under the one-step inverse square root. -/
theorem result_spec :
    (dat2 (F := Ideal) (V5 m ρ) c).arrAt 3 cfg2.N
      = Cert.HgnnSpec.outOf Cert.HgnnSpec.scaleRsqrt (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  rw [final2 (V5 m ρ) c, H5, scale5, efeat5]
  funext j
  obtain ⟨i, q, rfl⟩ : ∃ (i : Fin 10000) (q : Fin 64), j = ix2 i q := ⟨j 0, j 1, eq_ix2 j⟩
  rw [v2_val_apply]
  rfl

end Cert.KernelIdeal.Hand

end
-- ==== Proof.RefValue.lean ====
/- The reference program's result, read index by index, is the two-layer hypergraph convolution of the shared
   specification under the vertex scaling "one over the square root".

   Each lemma below reads one stage (or a short group of stages) of the reference at an arbitrary index j and states
   it in the specification's terms at the coordinates (j 0), (j 1). The reference multiplies a scaling on the LEFT
   (d i * z, e m * s) where the specification has it on the right, and its product with the transposed incidence
   matrix reads  ∑ i, H i m * z i c : commutativity of the product on the extended reals is all that is used, inside
   and outside the sums. A sum on the host reads "initial value + ∑", the initial value being the zero pattern. -/
import proofs.«151137_g18348100288549_rerun558fix_267_52_alg».proof.Proof.Gen.ReferenceIdeal.Run
import proofs.«151137_g18348100288549_rerun558fix_267_52_alg».proof.Proof.Gen.ReferenceIdeal.Read
import proofs.«151137_g18348100288549_rerun558fix_267_52_alg».proof.Proof.SpecAt
import proofs.«151137_g18348100288549_rerun558fix_267_52_alg».proof.Defs
import proofs.«151137_g18348100288549_rerun558fix_267_52_alg».proof.Proof.Gen.Pre_finite_inputs
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.HgnnSpec
open Idealize.ShloMosaic Idealize.ShloMosaic.ValueIdx Idealize.ShloMosaic.TcCoe Idealize.SL.Sem Idealize.ShloMosaic.StableHlo
open scoped BigOperators

/-- The single-precision pattern of one denotes the extended real 1. -/
theorem ofBits_one_f32 : Ideal.ofBits .f32 0x3F800000#32 = 1 := by
  simp [Ideal.ofBits, Ideal.ieee, -EReal.coe_mul]; norm_num

section
variable (X : FVec Ideal S10000x128 .f32) (H : FVec Ideal S10000x5000 .f32) (W1 : FVec Ideal S128x128 .f32)
  (b1 : FVec Ideal S128 .f32) (W2 : FVec Ideal S128x64 .f32) (b2 : FVec Ideal S64 .f32)

/-- The feature array as a function of (vertex, channel). -/
abbrev fX : Fin 10000 → Fin 128 → EReal := fun i k => X (ix2 i k)
/-- The first weight array as a function of (input channel, hidden channel). -/
abbrev fW1 : Fin 128 → Fin 128 → EReal := fun k c => W1 (ix2 k c)
/-- The first bias as a function of the hidden channel. -/
abbrev fb1 : Fin 128 → EReal := fun c => b1 (ix1 c)
/-- The second weight array as a function of (hidden channel, output channel). -/
abbrev fW2 : Fin 128 → Fin 64 → EReal := fun k c => W2 (ix2 k c)
/-- The second bias as a function of the output channel. -/
abbrev fb2 : Fin 64 → EReal := fun c => b2 (ix1 c)
/-- The vertex scaling of the reference: one over the square root of the vertex degree plus ε. -/
abbrev dS : Fin 10000 → EReal := scaleDivSqrt (inc H) eps32

/-! ## The two degree scalings (computed once per layer, the same terms) -/

/-- Layer 1's vertex scaling at vertex (j 0). -/
theorem v10_at (j : S10000.Idx) : val_main_v10 (F := Ideal) H j = dS H (j 0) := by
  rw [val_main_v10_apply, val_main_v9_apply, val_main_cst_2_apply, val_main_v8_apply, val_main_v7_apply,
    val_main_v4_apply, val_main_cst_apply, val_main_v6_apply, val_main_cst_1_apply]
  have e : ∀ k : Fin 5000, H (idx_main_v4 j k) = inc H (j 0) k := fun k => congrArg H (eq_ix2 _)
  simp only [Ideal.hostDivf_def, Ideal.hostUnary_sqrt_def, Ideal.addf_def, Ideal.ofBits_def, Ideal.ofBits_zero_f32,
    zero_add, ofBits_one_f32, e]
  rfl

/-- Layer 2's vertex scaling at vertex (j 0): the same term again. -/
theorem v38_at (j : S10000.Idx) : val_main_v38 (F := Ideal) H j = dS H (j 0) := by
  rw [val_main_v38_apply, val_main_v37_apply, val_main_cst_8_apply, val_main_v36_apply, val_main_v35_apply,
    val_main_v32_apply, val_main_cst_5_apply, val_main_v34_apply, val_main_cst_7_apply]
  have e : ∀ k : Fin 5000, H (idx_main_v32 j k) = inc H (j 0) k := fun k => congrArg H (eq_ix2 _)
  simp only [Ideal.hostDivf_def, Ideal.hostUnary_sqrt_def, Ideal.addf_def, Ideal.ofBits_def, Ideal.ofBits_zero_f32,
    zero_add, ofBits_one_f32, e]
  rfl

/-- Layer 1's edge reciprocal at edge (j 0). -/
theorem v14_at (j : S5000.Idx) : val_main_v14 (F := Ideal) H j = edgeInv (inc H) eps32 (j 0) := by
  rw [val_main_v14_apply, val_main_v13_apply, val_main_cst_4_apply, val_main_v12_apply, val_main_v5_apply,
    val_main_cst_0_apply, val_main_v11_apply, val_main_cst_3_apply]
  have e : ∀ k : Fin 10000, H (idx_main_v5 j k) = inc H k (j 0) := fun k => congrArg H (eq_ix2 _)
  simp only [Ideal.hostDivf_def, Ideal.addf_def, Ideal.ofBits_def, Ideal.ofBits_zero_f32, zero_add, ofBits_one_f32, e]
  rfl

/-- Layer 2's edge reciprocal at edge (j 0): the same term again. -/
theorem v42_at (j : S5000.Idx) : val_main_v42 (F := Ideal) H j = edgeInv (inc H) eps32 (j 0) := by
  rw [val_main_v42_apply, val_main_v41_apply, val_main_cst_10_apply, val_main_v40_apply, val_main_v33_apply,
    val_main_cst_6_apply, val_main_v39_apply, val_main_cst_9_apply]
  have e : ∀ k : Fin 10000, H (idx_main_v33 j k) = inc H k (j 0) := fun k => congrArg H (eq_ix2 _)
  simp only [Ideal.hostDivf_def, Ideal.addf_def, Ideal.ofBits_def, Ideal.ofBits_zero_f32, zero_add, ofBits_one_f32, e]
  rfl

/-! ## Layer 1 -/

/-- The first affine map at (j 0, j 1). -/
theorem v3_at (j : S10000x128.Idx) :
    val_main_v3 (F := Ideal) X W1 b1 j = theta1 (fX X) (fW1 W1) (fb1 b1) (j 0) (j 1) := by
  rw [val_main_v3_apply, val_main_v0_apply, val_main_v2_apply, val_main_v1_apply]
  have eX : ∀ k : Fin 128, X (lidx_main_v0 j k) = fX X (j 0) k := fun k => congrArg X (eq_ix2 _)
  have eW : ∀ k : Fin 128, W1 (ridx_main_v0 j k) = fW1 W1 k (j 1) := fun k => congrArg W1 (eq_ix2 _)
  have eb : b1 (idx_main_v1 (idx_main_v2 j)) = fb1 b1 (j 1) := congrArg b1 (eq_ix1 _)
  simp only [Ideal.addf_def, eX, eW, eb]
  rfl

/-- The scaled first affine map: the reference puts the scaling on the left. -/
theorem v17_at (j : S10000x128.Idx) :
    val_main_v17 (F := Ideal) X H W1 b1 j = dS H (j 0) * theta1 (fX X) (fW1 W1) (fb1 b1) (j 0) (j 1) := by
  rw [val_main_v17_apply, val_main_v16_apply, val_main_v15_apply, v10_at, v3_at]
  rfl

/-- The scaled features gathered along edge (j 0), channel (j 1): the product with the transposed incidence matrix. -/
theorem v19_at (j : S5000x128.Idx) :
    val_main_v19 (F := Ideal) X H W1 b1 j
      = ∑ i : Fin 10000, (theta1 (fX X) (fW1 W1) (fb1 b1) i (j 1) * dS H i) * inc H i (j 0) := by
  rw [val_main_v19_apply]
  refine Finset.sum_congr rfl fun k _ => ?_
  rw [val_main_v18_apply, v17_at]
  have eH : H (idx_main_v18 (lidx_main_v19 j k)) = inc H k (j 0) := congrArg H (eq_ix2 _)
  rw [eH]
  show inc H k (j 0) * (dS H k * theta1 (fX X) (fW1 W1) (fb1 b1) k (j 1)) = _
  rw [mul_comm (inc H k (j 0)), mul_comm (dS H k)]

/-- Layer 1's edge features at (j 0, j 1): the reference puts the edge reciprocal on the left. -/
theorem v22_at (j : S5000x128.Idx) :
    val_main_v22 (F := Ideal) X H W1 b1 j = edge1 (fX X) (inc H) (fW1 W1) (fb1 b1) eps32 (dS H) (j 0) (j 1) := by
  rw [val_main_v22_apply, val_main_v21_apply, val_main_v20_apply, v14_at, v19_at]
  show edgeInv (inc H) eps32 (j 0) * _ = _
  rw [mul_comm]
  rfl

/-- The edge features scattered back to vertex (j 0), channel (j 1). -/
theorem v23_at (j : S10000x128.Idx) :
    val_main_v23 (F := Ideal) X H W1 b1 j
      = ∑ m : Fin 5000, inc H (j 0) m * edge1 (fX X) (inc H) (fW1 W1) (fb1 b1) eps32 (dS H) m (j 1) := by
  rw [val_main_v23_apply]
  refine Finset.sum_congr rfl fun k _ => ?_
  rw [v22_at]
  have eH : H (lidx_main_v23 j k) = inc H (j 0) k := congrArg H (eq_ix2 _)
  rw [eH]
  rfl

/-- The hidden activations at (j 0, j 1): scaled (on the left in the reference), clamped below at the zero pattern. -/
theorem v27_at (j : S10000x128.Idx) :
    val_main_v27 (F := Ideal) X H W1 b1 j = hidden (fX X) (inc H) (fW1 W1) (fb1 b1) eps32 (dS H) (j 0) (j 1) := by
  rw [val_main_v27_apply, val_main_v26_apply, val_main_v25_apply, val_main_v24_apply, v10_at, v23_at,
    val_main_call0_v0_apply, val_main_call0_cst_apply]
  simp only [Ideal.maximumf_def, Ideal.mulf_def, Ideal.ofBits_def, Ideal.ofBits_zero_f32]
  show max (dS H (j 0) * _) 0 = _
  rw [mul_comm]
  rfl

/-! ## Layer 2 -/

/-- The second affine map at (j 0, j 1). -/
theorem v31_at (j : S10000x64.Idx) :
    val_main_v31 (F := Ideal) X H W1 b1 W2 b2 j
      = theta2 (fX X) (inc H) (fW1 W1) (fb1 b1) (fW2 W2) (fb2 b2) eps32 (dS H) (j 0) (j 1) := by
  rw [val_main_v31_apply, val_main_v28_apply, val_main_v30_apply, val_main_v29_apply]
  have eW : ∀ k : Fin 128, W2 (ridx_main_v28 j k) = fW2 W2 k (j 1) := fun k => congrArg W2 (eq_ix2 _)
  have eb : b2 (idx_main_v29 (idx_main_v30 j)) = fb2 b2 (j 1) := congrArg b2 (eq_ix1 _)
  simp only [Ideal.addf_def, v27_at, eW, eb]
  rfl

/-- The scaled second affine map. -/
theorem v45_at (j : S10000x64.Idx) :
    val_main_v45 (F := Ideal) X H W1 b1 W2 b2 j
      = dS H (j 0) * theta2 (fX X) (inc H) (fW1 W1) (fb1 b1) (fW2 W2) (fb2 b2) eps32 (dS H) (j 0) (j 1) := by
  rw [val_main_v45_apply, val_main_v44_apply, val_main_v43_apply, v38_at, v31_at]
  rfl

/-- The scaled layer-2 features gathered along edge (j 0), channel (j 1). -/
theorem v47_at (j : S5000x64.Idx) :
    val_main_v47 (F := Ideal) X H W1 b1 W2 b2 j
      = ∑ i : Fin 10000, (theta2 (fX X) (inc H) (fW1 W1) (fb1 b1) (fW2 W2) (fb2 b2) eps32 (dS H) i (j 1) * dS H i)
          * inc H i (j 0) := by
  rw [val_main_v47_apply]
  refine Finset.sum_congr rfl fun k _ => ?_
  rw [val_main_v46_apply, v45_at]
  have eH : H (idx_main_v46 (lidx_main_v47 j k)) = inc H k (j 0) := congrArg H (eq_ix2 _)
  rw [eH]
  show inc H k (j 0) * (dS H k * theta2 (fX X) (inc H) (fW1 W1) (fb1 b1) (fW2 W2) (fb2 b2) eps32 (dS H) k (j 1)) = _
  rw [mul_comm (inc H k (j 0)), mul_comm (dS H k)]

/-- Layer 2's edge features at (j 0, j 1). -/
theorem v50_at (j : S5000x64.Idx) :
    val_main_v50 (F := Ideal) X H W1 b1 W2 b2 j
      = edge2 (fX X) (inc H) (fW1 W1) (fb1 b1) (fW2 W2) (fb2 b2) eps32 (dS H) (j 0) (j 1) := by
  rw [val_main_v50_apply, val_main_v49_apply, val_main_v48_apply, v42_at, v47_at]
  show edgeInv (inc H) eps32 (j 0) * _ = _
  rw [mul_comm]
  rfl

/-- Layer 2's edge features scattered back to vertex (j 0), channel (j 1). -/
theorem v51_at (j : S10000x64.Idx) :
    val_main_v51 (F := Ideal) X H W1 b1 W2 b2 j
      = ∑ m : Fin 5000, inc H (j 0) m
          * edge2 (fX X) (inc H) (fW1 W1) (fb1 b1) (fW2 W2) (fb2 b2) eps32 (dS H) m (j 1) := by
  rw [val_main_v51_apply]
  refine Finset.sum_congr rfl fun k _ => ?_
  rw [v50_at]
  have eH : H (lidx_main_v51 j k) = inc H (j 0) k := congrArg H (eq_ix2 _)
  rw [eH]
  rfl

/-- The last stage at (j 0, j 1) is the specification's result. -/
theorem v54_at (j : S10000x64.Idx) :
    val_main_v54 (F := Ideal) X H W1 b1 W2 b2 j
      = out (fX X) (inc H) (fW1 W1) (fb1 b1) (fW2 W2) (fb2 b2) eps32 (dS H) (j 0) (j 1) := by
  rw [val_main_v54_apply, val_main_v53_apply, val_main_v52_apply, v38_at, v51_at]
  rfl

end

/-! ## The result term of the run -/

/-- The term the reference's run states for its result is the specification's result array under the scaling
    "one over the square root", as a function of the six argument arrays. -/
theorem result_eq (X : FVec Ideal S10000x128 .f32) (H : FVec Ideal S10000x5000 .f32) (W1 : FVec Ideal S128x128 .f32)
    (b1 : FVec Ideal S128 .f32) (W2 : FVec Ideal S128x64 .f32) (b2 : FVec Ideal S64 .f32) :
    mulf (broadcastInDim S10000x64 ![0, 1] bcast_S10000x1_S10000x64_0_1 (broadcastInDim S10000x1 ![0] bcast_S10000_S10000x1_0 (Host.divf (broadcastInDim S10000 ![] bcast_S_S10000 (constant S_ .f32 0x3F800000#32)) (Host.sqrt (addf (Host.reduceAdd H (constant S_ .f32 0x00000000#32) reducesTo_S10000x5000_S10000_d1 h_S_) (broadcastInDim S10000 ![] bcast_S_S10000 (constant S_ .f32 0x2B8CBCCC#32))))))) (Host.dotGeneral dot_S10000x5000_S5000x64_S10000x64_1_0_0_1_n_n none H (mulf (broadcastInDim S5000x64 ![0, 1] bcast_S5000x1_S5000x64_0_1 (broadcastInDim S5000x1 ![0] bcast_S5000_S5000x1_0 (Host.divf (broadcastInDim S5000 ![] bcast_S_S5000 (constant S_ .f32 0x3F800000#32)) (addf (Host.reduceAdd H (constant S_ .f32 0x00000000#32) reducesTo_S10000x5000_S5000_d0 h_S_) (broadcastInDim S5000 ![] bcast_S_S5000 (constant S_ .f32 0x2B8CBCCC#32)))))) (Host.dotGeneral dot_S5000x10000_S10000x64_S5000x64_1_0_0_1_n_n none (transpose S5000x10000 [1, 0] H transposes_S10000x5000_S5000x10000_1_0) (mulf (broadcastInDim S10000x64 ![0, 1] bcast_S10000x1_S10000x64_0_1 (broadcastInDim S10000x1 ![0] bcast_S10000_S10000x1_0 (Host.divf (broadcastInDim S10000 ![] bcast_S_S10000 (constant S_ .f32 0x3F800000#32)) (Host.sqrt (addf (Host.reduceAdd H (constant S_ .f32 0x00000000#32) reducesTo_S10000x5000_S10000_d1 h_S_) (broadcastInDim S10000 ![] bcast_S_S10000 (constant S_ .f32 0x2B8CBCCC#32))))))) (addf (Host.dotGeneral dot_S10000x128_S128x64_S10000x64_1_0_0_1_n_n none (maximumf (mulf (broadcastInDim S10000x128 ![0, 1] bcast_S10000x1_S10000x128_0_1 (broadcastInDim S10000x1 ![0] bcast_S10000_S10000x1_0 (Host.divf (broadcastInDim S10000 ![] bcast_S_S10000 (constant S_ .f32 0x3F800000#32)) (Host.sqrt (addf (Host.reduceAdd H (constant S_ .f32 0x00000000#32) reducesTo_S10000x5000_S10000_d1 h_S_) (broadcastInDim S10000 ![] bcast_S_S10000 (constant S_ .f32 0x2B8CBCCC#32))))))) (Host.dotGeneral dot_S10000x5000_S5000x128_S10000x128_1_0_0_1_n_n none H (mulf (broadcastInDim S5000x128 ![0, 1] bcast_S5000x1_S5000x128_0_1 (broadcastInDim S5000x1 ![0] bcast_S5000_S5000x1_0 (Host.divf (broadcastInDim S5000 ![] bcast_S_S5000 (constant S_ .f32 0x3F800000#32)) (addf (Host.reduceAdd H (constant S_ .f32 0x00000000#32) reducesTo_S10000x5000_S5000_d0 h_S_) (broadcastInDim S5000 ![] bcast_S_S5000 (constant S_ .f32 0x2B8CBCCC#32)))))) (Host.dotGeneral dot_S5000x10000_S10000x128_S5000x128_1_0_0_1_n_n none (transpose S5000x10000 [1, 0] H transposes_S10000x5000_S5000x10000_1_0) (mulf (broadcastInDim S10000x128 ![0, 1] bcast_S10000x1_S10000x128_0_1 (broadcastInDim S10000x1 ![0] bcast_S10000_S10000x1_0 (Host.divf (broadcastInDim S10000 ![] bcast_S_S10000 (constant S_ .f32 0x3F800000#32)) (Host.sqrt (addf (Host.reduceAdd H (constant S_ .f32 0x00000000#32) reducesTo_S10000x5000_S10000_d1 h_S_) (broadcastInDim S10000 ![] bcast_S_S10000 (constant S_ .f32 0x2B8CBCCC#32))))))) (addf (Host.dotGeneral dot_S10000x128_S128x128_S10000x128_1_0_0_1_n_n none X W1) (broadcastInDim S10000x128 ![0, 1] bcast_S1x128_S10000x128_0_1 (broadcastInDim S1x128 ![1] bcast_S128_S1x128_1 b1)))))))) (broadcastInDim S10000x128 ![] bcast_S_S10000x128 (constant S_ .f32 0x00000000#32))) W2) (broadcastInDim S10000x64 ![0, 1] bcast_S1x64_S10000x64_0_1 (broadcastInDim S1x64 ![1] bcast_S64_S1x64_1 b2)))))))
      = outOf scaleDivSqrt X H W1 b1 W2 b2 :=
  (val_main_v54_eq (F := Ideal) X H W1 b1 W2 b2).trans (funext fun j => v54_at X H W1 b1 W2 b2 j)

end Cert.ReferenceIdeal.RefValue

namespace Cert.ReferenceIdeal.RefValue

open Idealize.ShloMosaic Idealize.ShloMosaic.TcCoe Idealize.SL.Sem

/-- Every weakly fair execution of the reference terminates with its result at the specification's result array of the
    launch contents of its arguments, the arguments unchanged. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v54) = Cert.HgnnSpec.outOf Cert.HgnnSpec.scaleDivSqrt (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono (fun _ h c => ⟨(h c).1.trans (result_eq _ _ _ _ _ _), (h c).2⟩)
    (Cert.ReferenceIdeal.Value.run (F := Ideal) m' ρ')

/-- The reference runs and leaves its arguments unchanged: its run with the result dropped. The precondition is not
    used. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.PreDecode.lean ====
/- The printed precondition, read back as the one arithmetic fact the comparison of the two vertex scalings needs.

   The precondition is a conjunction of seven statements, each an "every entry" over an array: six say that an
   argument array has only finite entries, and the seventh, the last conjunct, says that every row sum of the incidence
   array H, plus the stabiliser ε, is at least zero. Over the extended reals that seventh statement is: a sum over axis 1
   started from the zero word (so: 0 + ∑ₘ H i m), plus the word of ε laid along all 10000 rows, compared ≥ against the
   zero word laid along all rows, and the 10000 outcomes combined by "and" from the constant true. When the whole
   conjunction is true its last conjunct is true; an "and" over all entries that is true had a true at every entry; and a
   true outcome of ≥ on the linear order of the extended reals is the inequality itself. So for every vertex i,
   0 ≤ (∑ₘ H i m) + ε. The six finiteness conjuncts are not used. -/
import proofs.«151137_g18348100288549_rerun558fix_267_52_alg».proof.Pre_finite_inputs
import proofs.«151137_g18348100288549_rerun558fix_267_52_alg».proof.Proof.Gen.Pre_finite_inputs
import proofs.«151137_g18348100288549_rerun558fix_267_52_alg».proof.Proof.SpecAt
import Idealize.ShloMosaic.Lib.ReduceAll
import Idealize.ShloMosaic.Lib.StableHlo.Predicate
import Idealize.ShloMosaic.Lib.ValueIdx
import Idealize.ShloMosaic.PureOps.Ideal.Laws

open Idealize.ShloMosaic Idealize.ShloMosaic.ValueIdx
open scoped BigOperators

namespace Cert.PreDecode

open Cert.Pre_finite_inputs

/-- The index of the [10000 × 5000] array that lies over row i of the row sums with coordinate k on the summed axis is
    (i, k). -/
theorem lift_row (hR : S10000x5000.Reduces [1] S10000) (i : Fin 10000) (k : Fin 5000) :
    hR.lift (ix1 i) k = ix2 i k := by
  funext c
  match c with
  | ⟨0, _⟩ => exact Fin.ext rfl
  | ⟨1, _⟩ => exact Fin.ext rfl

/-- Under the precondition every vertex degree plus ε is nonnegative. -/
theorem degree_nonneg [Cert.Pre_finite_inputs.Facts] (X : FVec Ideal S10000x128 .f32) (H : FVec Ideal S10000x5000 .f32)
    (W1 : FVec Ideal S128x128 .f32) (b1 : FVec Ideal S128 .f32) (W2 : FVec Ideal S128x64 .f32) (b2 : FVec Ideal S64 .f32)
    (h : Cert.Pre_finite_inputs.fn (F := Ideal) X H W1 b1 W2 b2 = fun _ => 1#1) :
    ∀ i : Fin 10000, 0 ≤ (∑ m : Fin 5000, H (ix2 i m)) + Cert.HgnnSpec.eps32 := by
  intro i
  -- the scalar shape has one index
  haveI : Subsingleton S_.Idx := ⟨fun _ _ => funext fun d => d.elim0⟩
  -- the conjunction at its one index; its last conjunct
  have e := congrFun h ix0
  dsimp only [Cert.Pre_finite_inputs.fn, fn_part1, fn_part2, andi] at e
  obtain ⟨-, e2⟩ := IntOp.andi_eq_one.1 e
  -- "every entry" that is true is true at entry i
  have e3 := Host.reduce_andi_all _ _ _ _ ix0 e2 (ix1 i)
  -- entry i: the row sum from zero, plus ε, compared ≥ with zero
  dsimp only [cmpf, addf, broadcastInDim, constant, Host.reduceAdd] at e3
  simp only [Ideal.cmpf_def, Ideal.addf_def, Ideal.hostReduceAdd_def, Ideal.ofBits_def, Ideal.ofBits_zero_f32] at e3
  rw [Ideal.hostReduceAdd_single _ (by decide : S10000x5000.Reduces [1] S10000), zero_add] at e3
  -- a true ≥ on the linear order is the inequality
  unfold Ideal.cmp at e3
  rw [StableHlo.Predicate.ofBool_eq_one_iff, decide_eq_true_eq] at e3
  refine le_of_le_of_eq e3 ?_
  exact congrArg (· + Cert.HgnnSpec.eps32) (Finset.sum_congr rfl fun k _ => congrArg H (lift_row _ i k))

/-- info: 'Cert.PreDecode.degree_nonneg' depends on axioms: [propext, Classical.choice, Quot.sound] -/
#guard_msgs (whitespace := lax) in #print axioms degree_nonneg

end Cert.PreDecode
-- ==== Proof.lean ====
/- The certificate of the three-pass hypergraph-convolution kernel against its plain reference.

   Both programs compute two stacked smoothing layers  Z ↦ d ⊙ (H · (e ⊙ (Hᵀ · (d ⊙ Z))))  over a dense incidence matrix H,
   with d the inverse square root of the vertex degrees plus ε and e the reciprocal of the edge degrees plus ε. The kernel
   sweeps H three times in row blocks of 1000 (degrees and the first Hᵀ-product; the first H-product fused with the second
   Hᵀ-product; the last H-product), accumulating the Hᵀ-products over the ten blocks; the reference is the formula line by
   line. Over the extended reals the two agree once (i) a sum over the 10000 rows is regrouped as ten sums over 1000 rows,
   (ii) products are commuted, and (iii) the kernel's one-step inverse square root is the reference's one over the square
   root — which holds exactly where a vertex degree plus ε is not negative: the precondition's last conjunct (below zero the
   reference's square root has no value).

   The frames (each program runs to the end, faults nowhere, leaves its arguments unchanged): for the two kernel programs
   from the run of @main as six segments (three stretches of host operations, three pallas_calls), each pallas_call's body
   triple proved at any float instance; for the reference from its run as a line of host operations. The ideal pass rewrote
   nothing, so the idealization claim has no conjunct. -/
import proofs.«151137_g18348100288549_rerun558fix_267_52_alg».proof.Defs
import proofs.«151137_g18348100288549_rerun558fix_267_52_alg».proof.Proof.Gen.Kernel
import proofs.«151137_g18348100288549_rerun558fix_267_52_alg».proof.Proof.Gen.Kernel.Skeleton
import proofs.«151137_g18348100288549_rerun558fix_267_52_alg».proof.Proof.Gen.Kernel.Launch
import proofs.«151137_g18348100288549_rerun558fix_267_52_alg».proof.Proof.Gen.Kernel.Regions
import proofs.«151137_g18348100288549_rerun558fix_267_52_alg».proof.Proof.Gen.Kernel.Points
import proofs.«151137_g18348100288549_rerun558fix_267_52_alg».proof.Proof.Gen.KernelIdeal
import proofs.«151137_g18348100288549_rerun558fix_267_52_alg».proof.Proof.Gen.KernelIdeal.Skeleton
import proofs.«151137_g18348100288549_rerun558fix_267_52_alg».proof.Proof.Gen.KernelIdeal.Launch
import proofs.«151137_g18348100288549_rerun558fix_267_52_alg».proof.Proof.Gen.KernelIdeal.Regions
import proofs.«151137_g18348100288549_rerun558fix_267_52_alg».proof.Proof.Gen.KernelIdeal.Points
import proofs.«151137_g18348100288549_rerun558fix_267_52_alg».proof.Proof.Gen.ReferenceIdeal
import proofs.«151137_g18348100288549_rerun558fix_267_52_alg».proof.Proof.Gen.Pre_finite_inputs
import proofs.«151137_g18348100288549_rerun558fix_267_52_alg».proof.Proof.Gen.ReferenceIdeal.Run
import proofs.«151137_g18348100288549_rerun558fix_267_52_alg».proof.Proof.Gen.ReferenceIdeal.Read
import proofs.«151137_g18348100288549_rerun558fix_267_52_alg».proof.Proof.KBRun
import proofs.«151137_g18348100288549_rerun558fix_267_52_alg».proof.Proof.KIRun
import proofs.«151137_g18348100288549_rerun558fix_267_52_alg».proof.Proof.KIVal
import proofs.«151137_g18348100288549_rerun558fix_267_52_alg».proof.Proof.RefValue
import proofs.«151137_g18348100288549_rerun558fix_267_52_alg».proof.Proof.PreDecode
import proofs.«151137_g18348100288549_rerun558fix_267_52_alg».proof.Proof.SpecAt
import Idealize.ShloMosaic.Adequacy
import Idealize.ShloMosaic.Init

noncomputable section

namespace Cert.Proof

open Idealize.ShloMosaic Idealize.SL.Sem

/-- The program as printed runs, faults nowhere and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- At the ideal instance, from memories agreeing on the arguments, both programs end with the result array at the
    two-layer function of the arguments under the one-over-square-root scaling: the kernel's run leaves it at that
    function under the one-step inverse square root, which is the same function where every vertex degree plus ε is
    nonnegative (the precondition); the reference's run leaves it there directly. -/
theorem algebraic : Cert.algebraic_KernelIdeal_ReferenceIdeal := by
  intro m ρ m' ρ' hpre hagree
  refine ⟨fun c => Cert.HgnnSpec.outOf Cert.HgnnSpec.scaleDivSqrt
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩) (Cert.KernelIdeal.Hand.run_result m ρ)
    exact (Cert.KernelIdeal.Hand.result_spec m ρ c).trans
      (Cert.HgnnSpec.outOf_scale_eq _ _ _ _ _ _ (Cert.PreDecode.degree_nonneg _ _ _ _ _ _ (hpre c)))
  · refine (θ_run Cert.ReferenceIdeal.defs _ _).mono (fun _ h c => ⟨(h c).1.trans ?_, (h c).2⟩)
      (Cert.ReferenceIdeal.RefValue.run_spec m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
